-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S_ : Shape := ⟨0, ![]⟩
abbrev S1x640000 : Shape := ⟨2, ![1, 640000]⟩
abbrev S640000 : Shape := ⟨1, ![640000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part3 {F : FTy → Type} [FloatOps F] (main_arg1 : IVec S2x640000 32) (main_v48 : IVec S_ 1) (main_v50 : IVec S640000 32) (main_c_18 : IVec S_ 32) : IVec S_ 1 :=
  let main_v51 : IVec S640000 32 := broadcastInDim S640000 ![] bcast_S_S640000 main_c_18
  let main_v52 : IVec S640000 1 := cmpi .sge main_v50 main_v51
  let main_v53 : IVec S1x640000 32 := (extractStridedSlice S1x640000 ![0, 0] · slices_S2x640000_S1x640000_0_0) main_arg1
  let main_v54 : IVec S640000 32 := shapeCast S640000 main_v53 shapeCasts_S1x640000_S640000
  let main_c_19 : IVec S_ 32 := constantI S_ 32 100000#32
  let main_v55 : IVec S640000 32 := broadcastInDim S640000 ![] bcast_S_S640000 main_c_19
  let main_v56 : IVec S640000 1 := cmpi .slt main_v54 main_v55
  let main_v57 : IVec S640000 1 := andi main_v52 main_v56
  let main_c_20 : IVec S_ 1 := constantI S_ 1 1#1
  let main_v58 : IVec S_ 1 := (fun x v => Host.reduce IntOp.andi x v reducesTo_S640000_S_d0 h_S_) main_v57 main_c_20
  let main_v59 : IVec S_ 1 := andi main_v48 main_v58
  main_v59

def fn_part2 {F : FTy → Type} [FloatOps F] (main_arg1 : IVec S2x640000 32) (main_arg8 : FVec F S2x128 .f32) (main_arg9 : FVec F S2x128 .f32) (main_arg10 : FVec F S2 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : IVec S1x640000 32 := (extractStridedSlice S1x640000 ![0, 0] · slices_S2x640000_S1x640000_0_0) main_arg1
  let main_v50 : IVec S640000 32 := shapeCast S640000 main_v49 shapeCasts_S1x640000_S640000
  let main_c_18 : IVec S_ 32 := constantI S_ 32 4294867296#32
  fn_part3 (F := F) main_arg1 main_v48 main_v50 main_c_18

def fn_part1 {F : FTy → Type} [FloatOps F] (main_arg1 : IVec S2x640000 32) (main_arg5 : FVec F S128x256 .f32) (main_arg6 : FVec F S128x256 .f32) (main_arg7 : FVec F S128 .f32) (main_arg8 : FVec F S2x128 .f32) (main_arg9 : FVec F S2x128 .f32) (main_arg10 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x128 .f32) (main_arg1 : IVec S2x640000 32) (main_arg2 : FVec F S256x128 .f32) (main_arg3 : FVec F S256x128 .f32) (main_arg4 : FVec F S256 .f32) (main_arg5 : FVec F S128x256 .f32) (main_arg6 : FVec F S128x256 .f32) (main_arg7 : FVec F S128 .f32) (main_arg8 : FVec F S2x128 .f32) (main_arg9 : FVec F S2x128 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_v13 main_v16
-- ==== Kernel.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S1 : Shape := ⟨1, ![1]⟩
abbrev S1x1 : Shape := ⟨2, ![1, 1]⟩
abbrev S640000x128 : Shape := ⟨2, ![640000, 128]⟩
abbrev S1x256 : Shape := ⟨2, ![1, 256]⟩
abbrev S100000x256 : Shape := ⟨2, ![100000, 256]⟩
abbrev S1000x128 : Shape := ⟨2, ![1000, 128]⟩
abbrev S1000x1 : Shape := ⟨2, ![1000, 1]⟩
abbrev S1000x256 : Shape := ⟨2, ![1000, 256]⟩
abbrev S1000 : Shape := ⟨1, ![1000]⟩
abbrev S1x128 : Shape := ⟨2, ![1, 128]⟩
abbrev S128x2 : Shape := ⟨2, ![128, 2]⟩
abbrev S100000x2 : Shape := ⟨2, ![100000, 2]⟩
abbrev S1000x2 : Shape := ⟨2, ![1000, 2]⟩
abbrev S640000x2 : Shape := ⟨2, ![640000, 2]⟩
abbrev S1x2 : Shape := ⟨2, ![1, 2]⟩

abbrev nBuf : Space → Nat
  | .hbm => 123
  | .vmem => 41
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128x256, .f32⟩
  | .hbm, ⟨7, _⟩ => ⟨S128, .f32⟩
  | .hbm, ⟨8, _⟩ => ⟨S2x128, .f32⟩
  | .hbm, ⟨9, _⟩ => ⟨S2x128, .f32⟩
  | .hbm, ⟨10, _⟩ => ⟨S2, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S100000, .f32⟩
  | .hbm, ⟨19, _⟩ => ⟨S640000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S1, .i32⟩
  | .hbm, ⟨37, _⟩ => ⟨S_, .i32⟩
  | .hbm, ⟨38, _⟩ => ⟨S640000x1, .i32⟩
  | .hbm, ⟨39, _⟩ => ⟨S640000x1, .i1⟩
  | .hbm, ⟨40, _⟩ => ⟨S1x1, .i32⟩
  | .hbm, ⟨41, _⟩ => ⟨S640000x1, .i32⟩
  | .hbm, ⟨42, _⟩ => ⟨S640000x1, .i1⟩
  | .hbm, ⟨43, _⟩ => ⟨S640000x1, .i1⟩
  | .hbm, ⟨44, _⟩ => ⟨S_, .i1⟩
  | .hbm, ⟨45, _⟩ => ⟨S640000, .i1⟩
  | .hbm, ⟨46, _⟩ => ⟨S640000x128, .f32⟩
  | .hbm, ⟨47, _⟩ => ⟨S640000x128, .i1⟩
  | .hbm, ⟨48, _⟩ => ⟨S_, .f32⟩
  | .hbm, ⟨49, _⟩ => ⟨S640000x128, .f32⟩
  | .hbm, ⟨50, _⟩ => ⟨S640000x128, .f32⟩
  | .hbm, ⟨51, _⟩ => ⟨S_, .f32⟩
  | .hbm, ⟨52, _⟩ => ⟨S100000x128, .f32⟩
  | .hbm, ⟨53, _⟩ => ⟨S640000x1, .i32⟩
  | .hbm, ⟨54, _⟩ => ⟨S100000x128, .f32⟩
  | .hbm, ⟨55, _⟩ => ⟨S128x256, .f32⟩
  | .hbm, ⟨56, _⟩ => ⟨S128x256, .f32⟩
  | .hbm, ⟨57, _⟩ => ⟨S1x256, .f32⟩
  | .hbm, ⟨58, _⟩ => ⟨S100000x256, .f32⟩
  | .hbm, ⟨59, _⟩ => ⟨S256x128, .f32⟩
  | .hbm, ⟨60, _⟩ => ⟨S100000x128, .f32⟩
  | .hbm, ⟨61, _⟩ => ⟨S_, .i32⟩
  | .hbm, ⟨62, _⟩ => ⟨S640000, .i32⟩
  | .hbm, ⟨63, _⟩ => ⟨S640000, .i1⟩
  | .hbm, ⟨64, _⟩ => ⟨S_, .i32⟩
  | .hbm, ⟨65, _⟩ => ⟨S640000, .i32⟩
  | .hbm, ⟨66, _⟩ => ⟨S640000, .i32⟩
  | .hbm, ⟨67, _⟩ => ⟨S640000, .i32⟩
  | .hbm, ⟨68, _⟩ => ⟨S640000x1, .i32⟩
  | .hbm, ⟨69, _⟩ => ⟨S1, .i32⟩
  | .hbm, ⟨70, _⟩ => ⟨S_, .i32⟩
  | .hbm, ⟨71, _⟩ => ⟨S640000x1, .i32⟩
  | .hbm, ⟨72, _⟩ => ⟨S640000x1, .i1⟩
  | .hbm, ⟨73, _⟩ => ⟨S1x1, .i32⟩
  | .hbm, ⟨74, _⟩ => ⟨S640000x1, .i32⟩
  | .hbm, ⟨75, _⟩ => ⟨S640000x1, .i1⟩
  | .hbm, ⟨76, _⟩ => ⟨S640000x1, .i1⟩
  | .hbm, ⟨77, _⟩ => ⟨S_, .i1⟩
  | .hbm, ⟨78, _⟩ => ⟨S640000, .i1⟩
  | .hbm, ⟨79, _⟩ => ⟨S640000x128, .f32⟩
  | .hbm, ⟨80, _⟩ => ⟨S640000x128, .i1⟩
  | .hbm, ⟨81, _⟩ => ⟨S_, .f32⟩
  | .hbm, ⟨82, _⟩ => ⟨S640000x128, .f32⟩
  | .hbm, ⟨83, _⟩ => ⟨S640000x128, .f32⟩
  | .hbm, ⟨84, _⟩ => ⟨S_, .f32⟩
  | .hbm, ⟨85, _⟩ => ⟨S100000x128, .f32⟩
  | .hbm, ⟨86, _⟩ => ⟨S640000x1, .i32⟩
  | .hbm, ⟨87, _⟩ => ⟨S100000x128, .f32⟩
  | .hbm, ⟨88, _⟩ => ⟨S256x128, .f32⟩
  | .hbm, ⟨89, _⟩ => ⟨S1x128, .f32⟩
  | .hbm, ⟨90, _⟩ => ⟨S100000x128, .f32⟩
  | .hbm, ⟨91, _⟩ => ⟨S128x2, .f32⟩
  | .hbm, ⟨92, _⟩ => ⟨S100000x2, .f32⟩
  | .hbm, ⟨93, _⟩ => ⟨S_, .i32⟩
  | .hbm, ⟨94, _⟩ => ⟨S640000, .i32⟩
  | .hbm, ⟨95, _⟩ => ⟨S640000, .i1⟩
  | .hbm, ⟨96, _⟩ => ⟨S_, .i32⟩
  | .hbm, ⟨97, _⟩ => ⟨S640000, .i32⟩
  | .hbm, ⟨98, _⟩ => ⟨S640000, .i32⟩
  | .hbm, ⟨99, _⟩ => ⟨S640000, .i32⟩
  | .hbm, ⟨100, _⟩ => ⟨S640000x1, .i32⟩
  | .hbm, ⟨101, _⟩ => ⟨S1, .i32⟩
  | .hbm, ⟨102, _⟩ => ⟨S_, .i32⟩
  | .hbm, ⟨103, _⟩ => ⟨S640000x1, .i32⟩
  | .hbm, ⟨104, _⟩ => ⟨S640000x1, .i1⟩
  | .hbm, ⟨105, _⟩ => ⟨S1x1, .i32⟩
  | .hbm, ⟨106, _⟩ => ⟨S640000x1, .i32⟩
  | .hbm, ⟨107, _⟩ => ⟨S640000x1, .i1⟩
  | .hbm, ⟨108, _⟩ => ⟨S640000x1, .i1⟩
  | .hbm, ⟨109, _⟩ => ⟨S_, .i1⟩
  | .hbm, ⟨110, _⟩ => ⟨S640000, .i1⟩
  | .hbm, ⟨111, _⟩ => ⟨S640000x2, .f32⟩
  | .hbm, ⟨112, _⟩ => ⟨S640000x2, .i1⟩
  | .hbm, ⟨113, _⟩ => ⟨S_, .f32⟩
  | .hbm, ⟨114, _⟩ => ⟨S640000x2, .f32⟩
  | .hbm, ⟨115, _⟩ => ⟨S640000x2, .f32⟩
  | .hbm, ⟨116, _⟩ => ⟨S_, .f32⟩
  | .hbm, ⟨117, _⟩ => ⟨S100000x2, .f32⟩
  | .hbm, ⟨118, _⟩ => ⟨S640000x1, .i32⟩
  | .hbm, ⟨119, _⟩ => ⟨S100000x2, .f32⟩
  | .hbm, ⟨120, _⟩ => ⟨S128x2, .f32⟩
  | .hbm, ⟨121, _⟩ => ⟨S1x2, .f32⟩
  | .hbm, ⟨122, _⟩ => ⟨S100000x2, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x1, .f32⟩
  | .local _ .vmem, ⟨5, _⟩ => ⟨S1000x1, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S256x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x256, .f32⟩
  | .local _ .vmem, ⟨19, _⟩ => ⟨S1000x256, .f32⟩
  | .local _ .vmem, ⟨20, _⟩ => ⟨S1000x1, .f32⟩
  | .local _ .vmem, ⟨21, _⟩ => ⟨S1000x1, .f32⟩
  | .local _ .vmem, ⟨22, _⟩ => ⟨S256x128, .f32⟩
  | .local _ .vmem, ⟨23, _⟩ => ⟨S1x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S128x2, .f32⟩
  | .local _ .vmem, ⟨29, _⟩ => ⟨S1000x2, .f32⟩
  | .local _ .vmem, ⟨30, _⟩ => ⟨S1000x2, .f32⟩
  | .local _ .vmem, ⟨31, _⟩ => ⟨S1000x2, .f32⟩
  | .local _ .vmem, ⟨32, _⟩ => ⟨S1000x2, .f32⟩
  | .local _ .vmem, ⟨33, _⟩ => ⟨S1000x128, .f32⟩
  | .local _ .vmem, ⟨34, _⟩ => ⟨S1000x128, .f32⟩
  | .local _ .vmem, ⟨35, _⟩ => ⟨S1000x1, .f32⟩
  | .local _ .vmem, ⟨36, _⟩ => ⟨S1000x1, .f32⟩
  | .local _ .vmem, ⟨37, _⟩ => ⟨S128x2, .f32⟩
  | .local _ .vmem, ⟨38, _⟩ => ⟨S1x2, .f32⟩
  | .local _ .vmem, ⟨39, _⟩ => ⟨S1000x2, .f32⟩
  | .local _ .vmem, ⟨40, _⟩ => ⟨S1000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v13 : Ref sig .tc := ⟨.hbm, 50, rfl⟩
abbrev main_cst_3 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v23 : Ref sig .tc := ⟨.hbm, 83, rfl⟩
abbrev main_cst_4 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_c_1 : Ref sig .tc := ⟨.hbm, 101, rfl⟩
abbrev main_call2_c_2 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_3 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_call2_cst : Ref sig .tc := ⟨.hbm, 113, rfl⟩
abbrev main_call2_v15 : Ref sig .tc := ⟨.hbm, 114, rfl⟩
abbrev main_v32 : Ref sig .tc := ⟨.hbm, 115, rfl⟩
abbrev main_cst_5 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem5_0 : DmaSem sig := 39
abbrev cc4_sem5_1 : DmaSem sig := 40

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S_S100000x128 : S_.BroadcastsInDim S100000x128 (![] : Fin 0 → Fin S100000x128.rank)
  transposes_S256x128_S128x256_1_0 : S256x128.Transposes [1, 0] S128x256
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  transposes_S128x256_S256x128_1_0 : S128x256.Transposes [1, 0] S256x128
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reduces_S1000x128_S1000 : S1000x128.Reduces [1] S1000
  transposes_S2x128_S128x2_1_0 : S2x128.Transposes [1, 0] S128x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1000x2_S1000x2_0_0 : ∀ a, (![0, 0] : Fin 2 → Nat) a + S1000x2.size a ≤ S1000x2.size a
  h_S1000x2 : 0 < S1000x2.numel
  bcast_S640000_S640000x2_0 : S640000.BroadcastsInDim S640000x2 (![0] : Fin 1 → Fin S640000x2.rank)
  bcast_S_S640000x2 : S_.BroadcastsInDim S640000x2 (![] : Fin 0 → Fin S640000x2.rank)
  bcast_S_S100000x2 : S_.BroadcastsInDim S100000x2 (![] : Fin 0 → Fin S100000x2.rank)
  shapeCasts_S2_S1x2 : S2.ShapeCasts S1x2
  shapeCasts_S1000x2_S1000x2 : S1000x2.ShapeCasts S1000x2
  broadcasts_S1000x1_S1000x2 : S1000x1.Broadcasts S1000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  reduces_S1000x2_S1000 : S1000x2.Reduces [1] S1000
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S1000x128_S128x256_S1000x256_1_0_0_1_n_n_wf : DotDims.WF S1000x128 S128x256 S1000x256 [1] [0] [0] [1] [] []
  dot_S1000x256_S256x128_S1000x128_1_0_0_1_n_n_wf : DotDims.WF S1000x256 S256x128 S1000x128 [1] [0] [0] [1] [] []
  dot_S1000x128_S128x2_S1000x2_1_0_0_1_n_n_wf : DotDims.WF S1000x128 S128x2 S1000x2 [1] [0] [0] [1] [] []
  gather_S100000x2_S640000x1_S640000x2_1_0_n_n_0_1_12_wf : GatherDims.WF S100000x2 S640000x1 S640000x2 [1] [0] [] [0] [] 1 ![1, 2]
  scatter_S100000x2_S640000x1_S640000x2_1_0_0_1_wf : ScatterDims.WF S100000x2 S640000x1 S640000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S100000x128.size a
  hwx0_1 : ∀ i : grid0.Coords, EltTy.bits .f32 = 32 ∨ (Rect.block (s := S100000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S100000x1.size a
  hwx0_2 : ∀ i : grid0.Coords, EltTy.bits .f32 = 32 ∨ (Rect.block (s := S100000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S100000x256.size a
  hwx0_6 : ∀ i : grid0.Coords, EltTy.bits .f32 = 32 ∨ (Rect.block (s := S100000x256) S1000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S100000x256.size a
  hwx1_0 : ∀ i : grid1.Coords, EltTy.bits .f32 = 32 ∨ (Rect.block (s := S100000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S100000x128.size a
  hwx1_2 : ∀ i : grid1.Coords, EltTy.bits .f32 = 32 ∨ (Rect.block (s := S100000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S100000x256.size a
  hwx2_1 : ∀ i : grid2.Coords, EltTy.bits .f32 = 32 ∨ (Rect.block (s := S100000x256) S1000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S100000x1.size a
  hwx2_2 : ∀ i : grid2.Coords, EltTy.bits .f32 = 32 ∨ (Rect.block (s := S100000x1) S1000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x128.size a ≤ S100000x128.size a
  hwx2_5 : ∀ i : grid2.Coords, EltTy.bits .f32 = 32 ∨ (Rect.block (s := S100000x128) S1000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S100000x128.size a
  hwx3_0 : ∀ i : grid3.Coords, EltTy.bits .f32 = 32 ∨ (Rect.block (s := S100000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x2.size a ≤ S128x2.size a
  hwx3_1 : ∀ i : grid3.Coords, EltTy.bits .f32 = 32 ∨ (Rect.block (s := S128x2) S128x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x2.size a ≤ S100000x2.size a
  hwx3_2 : ∀ i : grid3.Coords, EltTy.bits .f32 = 32 ∨ (Rect.block (s := S100000x2) S1000x2.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x2.size a ≤ S100000x2.size a
  hwx4_0 : ∀ i : grid4.Coords, EltTy.bits .f32 = 32 ∨ (Rect.block (s := S100000x2) S1000x2.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x128.size a ≤ S100000x128.size a
  hwx4_1 : ∀ i : grid4.Coords, EltTy.bits .f32 = 32 ∨ (Rect.block (s := S100000x128) S1000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x1.size a ≤ S100000x1.size a
  hwx4_2 : ∀ i : grid4.Coords, EltTy.bits .f32 = 32 ∨ (Rect.block (s := S100000x1) S1000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x2.size a ≤ S128x2.size a
  hwx4_3 : ∀ i : grid4.Coords, EltTy.bits .f32 = 32 ∨ (Rect.block (s := S128x2) S128x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x2.size a ≤ S100000x2.size a
  hwx4_5 : ∀ i : grid4.Coords, EltTy.bits .f32 = 32 ∨ (Rect.block (s := S100000x2) S1000x2.size (cc4_transform_5 i) (hinb4_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x2_S1000x2_1_0_0_1_n_n : DotDims S1000x128 S128x2 S1000x2 where
  lhsContracting := [1]
  rhsContracting := [0]
  lhsNonContracting := [0]
  rhsNonContracting := [1]
  lhsBatch := []
  rhsBatch := []
  wf := dot_S1000x128_S128x2_S1000x2_1_0_0_1_n_n_wf
def gather_S100000x2_S640000x1_S640000x2_1_0_n_n_0_1_12 : GatherDims S100000x2 S640000x1 S640000x2 where
  offsetDims := [1]
  collapsedSliceDims := [0]
  operandBatchingDims := []
  startIndicesBatchingDims := []
  startIndexMap := [0]
  indexVectorDim := 1
  sliceSizes := ![1, 2]
  wf := gather_S100000x2_S640000x1_S640000x2_1_0_n_n_0_1_12_wf
def scatter_S100000x2_S640000x1_S640000x2_1_0_0_1 : ScatterDims S100000x2 S640000x1 S640000x2 where
  updateWindowDims := [1]
  insertedWindowDims := [0]
  scatterDimsToOperandDims := [0]
  indexVectorDim := 1
  wf := scatter_S100000x2_S640000x1_S640000x2_1_0_0_1_wf

abbrev win0_0 : Pipeline.Window sig grid0 :=
  Pipeline.Window.ofSpec (Memref.whole main_v16) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v26) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S1000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v29) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S128x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v35) S1000x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S1000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S1000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v36) S128x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v37) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v38) S1000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x128 : Shape := ⟨2, ![2, 128]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S640000x256 : Shape := ⟨2, ![640000, 256]⟩
abbrev S1x128 : Shape := ⟨2, ![1, 128]⟩
abbrev S128x2 : Shape := ⟨2, ![128, 2]⟩
abbrev S100000x2 : Shape := ⟨2, ![100000, 2]⟩
abbrev S1x2 : Shape := ⟨2, ![1, 2]⟩

abbrev nBuf : Space → Nat
  | .hbm => 165
  | .vmem => 0
  | .smem => 0
  | _ => 0

abbrev hbmTy0_0 (i : Nat) : BufTy := match i % 128 with
  | 0 => ⟨S100000x128, .f32⟩
  | 1 => ⟨S2x640000, .i32⟩
  | 2 => ⟨S256x128, .f32⟩
  | 3 => ⟨S256x128, .f32⟩
  | 4 => ⟨S256, .f32⟩
  | 5 => ⟨S128x256, .f32⟩
  | 6 => ⟨S128x256, .f32⟩
  | 7 => ⟨S128, .f32⟩
  | 8 => ⟨S2x128, .f32⟩
  | 9 => ⟨S2x128, .f32⟩
  | 10 => ⟨S2, .f32⟩
  | 11 => ⟨S1x640000, .i32⟩
  | 12 => ⟨S640000, .i32⟩
  | 13 => ⟨S1x640000, .i32⟩
  | 14 => ⟨S640000, .i32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S640000x128, .f32⟩
  | 24 => ⟨S_, .f32⟩
  | 25 => ⟨S100000x128, .f32⟩
  | 26 => ⟨S640000x1, .i32⟩
  | 27 => ⟨S100000x128, .f32⟩
  | 28 => ⟨S_, .f32⟩
  | 29 => ⟨S640000, .f32⟩
  | 30 => ⟨S_, .f32⟩
  | 31 => ⟨S100000, .f32⟩
  | 32 => ⟨S640000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S128x256, .f32⟩
  | 41 => ⟨S100000x256, .f32⟩
  | 42 => ⟨S1x256, .f32⟩
  | 43 => ⟨S100000x256, .f32⟩
  | 44 => ⟨S100000x256, .f32⟩
  | 45 => ⟨S128x256, .f32⟩
  | 46 => ⟨S100000x256, .f32⟩
  | 47 => ⟨S100000x256, .f32⟩
  | 48 => ⟨S100000x256, .f32⟩
  | 49 => ⟨S_, .f32⟩
  | 50 => ⟨S100000, .f32⟩
  | 51 => ⟨S100000x1, .f32⟩
  | 52 => ⟨S100000x1, .f32⟩
  | 53 => ⟨S_, .f32⟩
  | 54 => ⟨S100000x1, .f32⟩
  | 55 => ⟨S100000x1, .f32⟩
  | 56 => ⟨S100000x256, .f32⟩
  | 57 => ⟨S100000x256, .f32⟩
  | 58 => ⟨S_, .f32⟩
  | 59 => ⟨S100000x256, .f32⟩
  | 60 => ⟨S100000x256, .f32⟩
  | 61 => ⟨S_, .i32⟩
  | 62 => ⟨S640000, .i32⟩
  | 63 => ⟨S640000, .i1⟩
  | 64 => ⟨S_, .i32⟩
  | 65 => ⟨S640000, .i32⟩
  | 66 => ⟨S640000, .i32⟩
  | 67 => ⟨S640000, .i32⟩
  | 68 => ⟨S640000x1, .i32⟩
  | 69 => ⟨S640000x256, .f32⟩
  | 70 => ⟨S_, .f32⟩
  | 71 => ⟨S100000x256, .f32⟩
  | 72 => ⟨S640000x1, .i32⟩
  | 73 => ⟨S100000x256, .f32⟩
  | 74 => ⟨S_, .f32⟩
  | 75 => ⟨S640000, .f32⟩
  | 76 => ⟨S_, .f32⟩
  | 77 => ⟨S100000, .f32⟩
  | 78 => ⟨S640000x1, .i32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x256, .f32⟩
  | 85 => ⟨S100000x256, .f32⟩
  | 86 => ⟨S256x128, .f32⟩
  | 87 => ⟨S100000x128, .f32⟩
  | 88 => ⟨S1x128, .f32⟩
  | 89 => ⟨S100000x128, .f32⟩
  | 90 => ⟨S100000x128, .f32⟩
  | 91 => ⟨S256x128, .f32⟩
  | 92 => ⟨S100000x128, .f32⟩
  | 93 => ⟨S100000x128, .f32⟩
  | 94 => ⟨S100000x128, .f32⟩
  | 95 => ⟨S_, .f32⟩
  | 96 => ⟨S100000, .f32⟩
  | 97 => ⟨S100000x1, .f32⟩
  | 98 => ⟨S100000x1, .f32⟩
  | 99 => ⟨S_, .f32⟩
  | 100 => ⟨S100000x1, .f32⟩
  | 101 => ⟨S100000x1, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S_, .i32⟩
  | 108 => ⟨S640000, .i32⟩
  | 109 => ⟨S640000, .i1⟩
  | 110 => ⟨S_, .i32⟩
  | 111 => ⟨S640000, .i32⟩
  | 112 => ⟨S640000, .i32⟩
  | 113 => ⟨S640000, .i32⟩
  | 114 => ⟨S640000x1, .i32⟩
  | 115 => ⟨S640000x128, .f32⟩
  | 116 => ⟨S_, .f32⟩
  | 117 => ⟨S100000x128, .f32⟩
  | 118 => ⟨S640000x1, .i32⟩
  | 119 => ⟨S100000x128, .f32⟩
  | 120 => ⟨S_, .f32⟩
  | 121 => ⟨S640000, .f32⟩
  | 122 => ⟨S_, .f32⟩
  | 123 => ⟨S100000, .f32⟩
  | 124 => ⟨S640000x1, .i32⟩
  | 125 => ⟨S100000, .f32⟩
  | 126 => ⟨S_, .f32⟩
  | 127 => ⟨S100000, .f32⟩
  | _ => ⟨S100000x128, .f32⟩

abbrev hbmTy0_1 (i : Nat) : BufTy := match i % 128 with
  | 0 => ⟨S100000, .f32⟩
  | 1 => ⟨S100000x1, .f32⟩
  | 2 => ⟨S100000x128, .f32⟩
  | 3 => ⟨S100000x128, .f32⟩
  | 4 => ⟨S128x2, .f32⟩
  | 5 => ⟨S100000x2, .f32⟩
  | 6 => ⟨S1x2, .f32⟩
  | 7 => ⟨S100000x2, .f32⟩
  | 8 => ⟨S100000x2, .f32⟩
  | 9 => ⟨S128x2, .f32⟩
  | 10 => ⟨S100000x2, .f32⟩
  | 11 => ⟨S100000x2, .f32⟩
  | 12 => ⟨S100000x2, .f32⟩
  | 13 => ⟨S_, .f32⟩
  | 14 => ⟨S100000, .f32⟩
  | 15 => ⟨S100000x1, .f32⟩
  | 16 => ⟨S100000x1, .f32⟩
  | 17 => ⟨S_, .f32⟩
  | 18 => ⟨S100000x1, .f32⟩
  | 19 => ⟨S100000x1, .f32⟩
  | 20 => ⟨S100000x2, .f32⟩
  | 21 => ⟨S100000x2, .f32⟩
  | 22 => ⟨S_, .f32⟩
  | 23 => ⟨S100000, .f32⟩
  | 24 => ⟨S_, .f32⟩
  | 25 => ⟨S100000, .f32⟩
  | 26 => ⟨S100000, .f32⟩
  | 27 => ⟨S100000x1, .f32⟩
  | 28 => ⟨S100000x2, .f32⟩
  | 29 => ⟨S100000x2, .f32⟩
  | 30 => ⟨S100000x2, .f32⟩
  | 31 => ⟨S_, .f32⟩
  | 32 => ⟨S100000, .f32⟩
  | 33 => ⟨S100000x1, .f32⟩
  | 34 => ⟨S100000x1, .f32⟩
  | 35 => ⟨S100000x2, .f32⟩
  | 36 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_v0 : Ref sig .tc := ⟨.hbm, 48, rfl⟩
abbrev main_call0_cst : Ref sig .tc := ⟨.hbm, 49, rfl⟩
abbrev main_call0_v1 : Ref sig .tc := ⟨.hbm, 50, rfl⟩
abbrev main_call0_v2 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_cst : Ref sig .tc := ⟨.hbm, 58, rfl⟩
abbrev main_call1_v0 : Ref sig .tc := ⟨.hbm, 59, rfl⟩
abbrev main_v36 : Ref sig .tc := ⟨.hbm, 60, rfl⟩
abbrev main_c_5 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call2_v0 : Ref sig .tc := ⟨.hbm, 94, rfl⟩
abbrev main_call2_cst : Ref sig .tc := ⟨.hbm, 95, rfl⟩
abbrev main_call2_v1 : Ref sig .tc := ⟨.hbm, 96, rfl⟩
abbrev main_call2_v2 : Ref sig .tc := ⟨.hbm, 97, rfl⟩
abbrev main_v64 : Ref sig .tc := ⟨.hbm, 98, rfl⟩
abbrev main_cst_11 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call3_cst : Ref sig .tc := ⟨.hbm, 104, rfl⟩
abbrev main_call3_v0 : Ref sig .tc := ⟨.hbm, 105, rfl⟩
abbrev main_v69 : Ref sig .tc := ⟨.hbm, 106, rfl⟩
abbrev main_c_12 : Ref sig .tc := ⟨.hbm, 107, rfl⟩
abbrev main_v70 : Ref sig .tc := ⟨.hbm, 108, rfl⟩
abbrev main_v71 : Ref sig .tc := ⟨.hbm, 109, rfl⟩
abbrev main_c_13 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_14 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_15 : Ref sig .tc := ⟨.hbm, 120, rfl⟩
abbrev main_v80 : Ref sig .tc := ⟨.hbm, 121, rfl⟩
abbrev main_cst_16 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_call4_v0 : Ref sig .tc := ⟨.hbm, 140, rfl⟩
abbrev main_call4_cst : Ref sig .tc := ⟨.hbm, 141, rfl⟩
abbrev main_call4_v1 : Ref sig .tc := ⟨.hbm, 142, rfl⟩
abbrev main_call4_v2 : Ref sig .tc := ⟨.hbm, 143, rfl⟩
abbrev main_v97 : Ref sig .tc := ⟨.hbm, 144, rfl⟩
abbrev main_cst_18 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_call5_cst : Ref sig .tc := ⟨.hbm, 150, rfl⟩
abbrev main_call5_v0 : Ref sig .tc := ⟨.hbm, 151, rfl⟩
abbrev main_call5_cst_0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_call5_v5 : Ref sig .tc := ⟨.hbm, 157, rfl⟩
abbrev main_call5_v6 : Ref sig .tc := ⟨.hbm, 158, rfl⟩
abbrev main_call5_cst_1 : Ref sig .tc := ⟨.hbm, 159, rfl⟩
abbrev main_call5_v7 : Ref sig .tc := ⟨.hbm, 160, rfl⟩
abbrev main_call5_v8 : Ref sig .tc := ⟨.hbm, 161, rfl⟩
abbrev main_call5_v9 : Ref sig .tc := ⟨.hbm, 162, rfl⟩
abbrev main_call5_v10 : Ref sig .tc := ⟨.hbm, 163, rfl⟩
abbrev main_v102 : Ref sig .tc := ⟨.hbm, 164, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  bcast_S100000x1_S100000x2_0_1 : S100000x1.BroadcastsInDim S100000x2 (![0, 1] : Fin 2 → Fin S100000x2.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x256_S100000x256_1_0_0_1_n_n_wf : DotDims.WF S100000x128 S128x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x128_S100000x128_1_0_0_1_n_n_wf : DotDims.WF S100000x256 S256x128 S100000x128 [1] [0] [0] [1] [] []
  dot_S100000x128_S128x2_S100000x2_1_0_0_1_n_n_wf : DotDims.WF S100000x128 S128x2 S100000x2 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.Keep.lean ====
/-
  Which buffers of the kernel program keep their contents from one boundary of @main to a later one.

  @main is fourteen segments: stretches of host operations and five kernel regions. The contents at the
  boundaries are W0 (launch) … W14 (return). A buffer that no operation of a host stretch writes is unchanged
  over the stretch; a buffer that is not one of a region's arrays, or is one of its INPUT arrays, is unchanged
  over the region. Chaining these steps: the two rows of edge words (main_v1, main_v3) and the reciprocal
  in-degree (main_v12), computed before the first region, are still there at every later boundary that reads
  them; each layer's output (main_v20, main_v29) survives until the later region that reads it again; and every
  argument holds its launch contents wherever a host stretch reads it.
-/
import proofs.«408524_j60352880443980_3_alg».proof.Proof.Gen.KernelIdeal.Frame
import Idealize.ShloMosaic.PureOps.Ideal
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## A buffer that a stretch of host operations does not write, or that a region only reads, keeps its contents -/

/-- a buffer no operation of a host stretch writes keeps its contents over the stretch -/
macro "hkeep" : tactic => `(tactic| (
  refine StableHlo.after_of_forall_not_mem _ _ (List.forall_iff_forall_mem.mp ?_)
  simp only [hostOps0, hostOps0_1, hostOps0_2, hostOps1, hostOps2, hostOps2_1, hostOps3, hostOps4, hostOps4_1,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem r0_v12 : W4 m ρ c (Proc.devRef .tc main_v12) = W3 m ρ c (Proc.devRef .tc main_v12) :=
  (W4_arr m ρ c 2).trans (((dat0 (V3 m ρ) c).arrAt_in 2 rfl _).trans (A_eq0 (V3 m ρ) c 2))
theorem r1_v20 : W6 m ρ c (Proc.devRef .tc main_v20) = W5 m ρ c (Proc.devRef .tc main_v20) :=
  (W6_arr m ρ c 0).trans (((dat1 (V5 m ρ) c).arrAt_in 0 rfl _).trans (A_eq1 (V5 m ρ) c 0))
theorem r2_v12 : W9 m ρ c (Proc.devRef .tc main_v12) = W8 m ρ c (Proc.devRef .tc main_v12) :=
  (W9_arr m ρ c 2).trans (((dat2 (V8 m ρ) c).arrAt_in 2 rfl _).trans (A_eq2 (V8 m ρ) c 2))
theorem r3_v29 : W11 m ρ c (Proc.devRef .tc main_v29) = W10 m ρ c (Proc.devRef .tc main_v29) :=
  (W11_arr m ρ c 0).trans (((dat3 (V10 m ρ) c).arrAt_in 0 rfl _).trans (A_eq3 (V10 m ρ) c 0))

macro "wstep" : tactic => `(tactic| first
  | hkeep
  | exact W4_of_ne _ _ _ _ (by decide) | exact W6_of_ne _ _ _ _ (by decide) | exact W9_of_ne _ _ _ _ (by decide)
  | exact W11_of_ne _ _ _ _ (by decide) | exact W14_of_ne _ _ _ _ (by decide)
  | exact r0_v12 _ _ _ | exact r1_v20 _ _ _ | exact r2_v12 _ _ _ | exact r3_v29 _ _ _)

macro "wchain" : tactic => `(tactic| repeat (first | (with_reducible rfl) | (refine Eq.trans (by wstep) ?_)))

theorem v3_at2 : W2 m ρ c (Proc.devRef .tc main_v3) = W1 m ρ c (Proc.devRef .tc main_v3) := by wchain
set_option maxHeartbeats 4000000 in
theorem v3_at7 : W7 m ρ c (Proc.devRef .tc main_v3) = W1 m ρ c (Proc.devRef .tc main_v3) := by wchain
set_option maxHeartbeats 4000000 in
theorem v3_at12 : W12 m ρ c (Proc.devRef .tc main_v3) = W1 m ρ c (Proc.devRef .tc main_v3) :=
  Eq.trans (b := W7 m ρ c (Proc.devRef .tc main_v3)) (by wchain) (v3_at7 m ρ c)
set_option maxHeartbeats 4000000 in
theorem v1_at6 : W6 m ρ c (Proc.devRef .tc main_v1) = W1 m ρ c (Proc.devRef .tc main_v1) := by wchain
set_option maxHeartbeats 4000000 in
theorem v1_at11 : W11 m ρ c (Proc.devRef .tc main_v1) = W1 m ρ c (Proc.devRef .tc main_v1) :=
  Eq.trans (b := W6 m ρ c (Proc.devRef .tc main_v1)) (by wchain) (v1_at6 m ρ c)
theorem v12_at3 : W3 m ρ c (Proc.devRef .tc main_v12) = W1 m ρ c (Proc.devRef .tc main_v12) := by wchain
set_option maxHeartbeats 4000000 in
theorem v12_at8 : W8 m ρ c (Proc.devRef .tc main_v12) = W1 m ρ c (Proc.devRef .tc main_v12) :=
  Eq.trans (b := W3 m ρ c (Proc.devRef .tc main_v12)) (by wchain) (v12_at3 m ρ c)
set_option maxHeartbeats 4000000 in
theorem v12_at13 : W13 m ρ c (Proc.devRef .tc main_v12) = W1 m ρ c (Proc.devRef .tc main_v12) :=
  Eq.trans (b := W8 m ρ c (Proc.devRef .tc main_v12)) (by wchain) (v12_at8 m ρ c)
theorem v20_at5 : W5 m ρ c (Proc.devRef .tc main_v20) = W4 m ρ c (Proc.devRef .tc main_v20) := by wchain
set_option maxHeartbeats 4000000 in
theorem v20_at8 : W8 m ρ c (Proc.devRef .tc main_v20) = W4 m ρ c (Proc.devRef .tc main_v20) := by wchain
theorem v29_at10 : W10 m ρ c (Proc.devRef .tc main_v29) = W9 m ρ c (Proc.devRef .tc main_v29) := by wchain
set_option maxHeartbeats 4000000 in
theorem v29_at13 : W13 m ρ c (Proc.devRef .tc main_v29) = W9 m ρ c (Proc.devRef .tc main_v29) := by wchain

theorem arg0_at1 : W1 m ρ c (Proc.devRef .tc main_arg0) = m ((c : Thread nD τ).loc main_arg0) :=
  Eq.trans (b := W0 m ρ c (Proc.devRef .tc main_arg0)) (by wchain) rfl
theorem arg0_at3 : W3 m ρ c (Proc.devRef .tc main_arg0) = m ((c : Thread nD τ).loc main_arg0) :=
  Eq.trans (b := W1 m ρ c (Proc.devRef .tc main_arg0)) (by wchain) (arg0_at1 m ρ c)
theorem arg2_at2 : W2 m ρ c (Proc.devRef .tc main_arg2) = m ((c : Thread nD τ).loc main_arg2) :=
  Eq.trans (b := W0 m ρ c (Proc.devRef .tc main_arg2)) (by wchain) rfl
theorem arg3_at2 : W2 m ρ c (Proc.devRef .tc main_arg3) = m ((c : Thread nD τ).loc main_arg3) :=
  Eq.trans (b := W0 m ρ c (Proc.devRef .tc main_arg3)) (by wchain) rfl
theorem arg4_at2 : W2 m ρ c (Proc.devRef .tc main_arg4) = m ((c : Thread nD τ).loc main_arg4) :=
  Eq.trans (b := W0 m ρ c (Proc.devRef .tc main_arg4)) (by wchain) rfl
set_option maxHeartbeats 4000000 in
theorem arg5_at4 : W4 m ρ c (Proc.devRef .tc main_arg5) = m ((c : Thread nD τ).loc main_arg5) :=
  Eq.trans (b := W0 m ρ c (Proc.devRef .tc main_arg5)) (by wchain) rfl
set_option maxHeartbeats 4000000 in
theorem arg6_at7 : W7 m ρ c (Proc.devRef .tc main_arg6) = m ((c : Thread nD τ).loc main_arg6) :=
  Eq.trans (b := W0 m ρ c (Proc.devRef .tc main_arg6)) (by wchain) rfl
set_option maxHeartbeats 4000000 in
theorem arg7_at7 : W7 m ρ c (Proc.devRef .tc main_arg7) = m ((c : Thread nD τ).loc main_arg7) :=
  Eq.trans (b := W0 m ρ c (Proc.devRef .tc main_arg7)) (by wchain) rfl
set_option maxHeartbeats 4000000 in
theorem arg8_at9 : W9 m ρ c (Proc.devRef .tc main_arg8) = m ((c : Thread nD τ).loc main_arg8) :=
  Eq.trans (b := W0 m ρ c (Proc.devRef .tc main_arg8)) (by wchain) rfl
set_option maxHeartbeats 4000000 in
theorem arg9_at12 : W12 m ρ c (Proc.devRef .tc main_arg9) = m ((c : Thread nD τ).loc main_arg9) :=
  Eq.trans (b := W0 m ρ c (Proc.devRef .tc main_arg9)) (by wchain) rfl
set_option maxHeartbeats 4000000 in
theorem arg10_at12 : W12 m ρ c (Proc.devRef .tc main_arg10) = m ((c : Thread nD τ).loc main_arg10) :=
  Eq.trans (b := W0 m ρ c (Proc.devRef .tc main_arg10)) (by wchain) rfl

end Cert.KernelIdeal.Chain

end
-- ==== Proof.Spec.lean ====
/-
  The mathematics of one SAGEConv layer with mean aggregation, L2 row normalisation, relu and a final
  log-softmax, over the extended reals — as pure functions of rows, with no program in sight.

  A node's layer output depends on ONE row of each node-indexed operand (its own aggregated row, its own
  feature row, its own reciprocal in-degree) and on the whole weight matrices and bias, so everything below is
  stated for a single row: a row is a function Fin k → EReal, a weight matrix Fin k → Fin d → EReal
  (contracted over its FIRST index: row-vector times matrix), a bias Fin d → EReal.

  • vm a B          the row a times the matrix B:  (a B)_j = Σ_t a_t · B_{t j}
  • rnormalize z    z / max(‖z‖₂, ε), with ‖z‖₂ = √(Σ_j z_j²) and ε the f32 word 0x2B8CBCCC (1e-12 rounded)
  • rrelu z         max(z, 0) entrywise
  • rlsmK / rlsmR   the two spellings of log-softmax of a row y, with M = max_j y_j:
                      y_j − (M + log Σ_j' exp(y_j' − M))      and      (y_j − M) − log Σ_j' exp(y_j' − M)
  • the three pre-activation rows (a = the node's neighbour sum, x / h = its own features, iv = 1/deg, dg = deg):
      rowAggFirst   ((a · iv) Wl + x Wr) + b        aggregate, then project   (mean taken as a product with 1/deg)
      rowProjFirst  (a · iv + h Wr) + b             the neighbour sum is of ALREADY projected rows
      rowRef        ((a / dg) Wl + b) + h Wr        the textbook order, mean taken as a quotient
  • agg, cnt, deg   the neighbour sum and the in-degree of node r from an edge list given as a source-row
                    function g : Fin e → Fin n and a destination-word function dd : Fin e → ℤ:
                      agg g dd h r q = 0 + Σ_p [dd p = r] · h (g p) q ,   cnt dd r = 0 + Σ_p [dd p = r] · 1 ,
                      deg dd r = max (cnt dd r) 1
                    (an edge whose destination word names no node contributes to no sum).
-/
import Idealize.ShloMosaic.PureOps.Ideal

noncomputable section

open scoped BigOperators

namespace Cert.Spec

open Idealize.ShloMosaic

variable {n e k d c : ℕ}

/-- A row times a matrix (contraction over the matrix's first index). -/
def vm (a : Fin k → EReal) (B : Fin k → Fin d → EReal) (j : Fin d) : EReal := ∑ t : Fin k, a t * B t j

/-- The normalisation floor: the f32 word of 1e-12. -/
def eps : EReal := Ideal.ofBits .f32 0x2B8CBCCC#32

/-- The Euclidean norm of a row. -/
def rnrm (z : Fin d → EReal) : EReal := Ideal.sqrt (∑ j : Fin d, z j * z j)

/-- A row divided by its norm floored at ε. -/
def rnormalize (z : Fin d → EReal) (j : Fin d) : EReal := Ideal.div (z j) (max (rnrm z) eps)

/-- relu of a row. -/
def rrelu (z : Fin d → EReal) (j : Fin d) : EReal := max (z j) 0

/-- The maximum of a row, as a fold from −∞. -/
def rmax (y : Fin d → EReal) : EReal := (Finset.univ : Finset (Fin d)).fold max ⊥ y

/-- log-softmax of a row, the shift added back to the log-sum before subtracting. -/
def rlsmK (y : Fin d → EReal) (j : Fin d) : EReal :=
  y j - (rmax y + Ideal.log (∑ j' : Fin d, Ideal.exp (y j' - rmax y)))

/-- log-softmax of a row, the shifted row minus the log-sum. -/
def rlsmR (y : Fin d → EReal) (j : Fin d) : EReal :=
  (y j - rmax y) - Ideal.log (∑ j' : Fin d, Ideal.exp (y j' - rmax y))

/-- Pre-activation, aggregate first: ((a · iv) Wl + x Wr) + b. -/
def rowAggFirst (a x : Fin k → EReal) (iv : EReal) (Wl Wr : Fin k → Fin d → EReal) (b : Fin d → EReal) (j : Fin d) : EReal :=
  (vm (fun t => a t * iv) Wl j + vm x Wr j) + b j

/-- Pre-activation, project first: (a · iv + h Wr) + b, a the neighbour sum of projected rows. -/
def rowProjFirst (a : Fin d → EReal) (h : Fin k → EReal) (iv : EReal) (Wr : Fin k → Fin d → EReal) (b : Fin d → EReal) (j : Fin d) : EReal :=
  (a j * iv + vm h Wr j) + b j

/-- Pre-activation, the textbook order: ((a / dg) Wl + b) + h Wr. -/
def rowRef (a h : Fin k → EReal) (dg : EReal) (Wl Wr : Fin k → Fin d → EReal) (b : Fin d → EReal) (j : Fin d) : EReal :=
  (vm (fun t => Ideal.div (a t) dg) Wl j + b j) + vm h Wr j

/-- The neighbour sum of node r, column q. -/
def agg (g : Fin e → Fin n) (dd : Fin e → ℤ) (h : Fin n → Fin c → EReal) (r : Fin n) (q : Fin c) : EReal :=
  0 + ∑ p : Fin e, if dd p = (r.val : ℤ) then h (g p) q else 0

/-- The in-degree of node r. -/
def cnt (dd : Fin e → ℤ) (r : Fin n) : EReal := 0 + ∑ p : Fin e, if dd p = (r.val : ℤ) then (1 : EReal) else 0

/-- The in-degree floored at one (the mean's divisor). -/
def deg (dd : Fin e → ℤ) (r : Fin n) : EReal := max (cnt (n := n) dd r) 1

end Cert.Spec

end
-- ==== Proof.Edges.lean ====
/-
  The edge list as the two programs read it out of the [2, e] array of 32-bit words: row 0 holds each edge's
  source node, row 1 its destination node.

  • A source word s is first wrapped the numpy way (a negative word counts from the end: s + n), wrapw; the row it
    then names is clamped into [0, n − 1], as the gather of rows does: srcRow.
  • A destination word is read signed and used as it is (a word that names no node drops its edge): dstWord.
  • For −n ≤ s < n the wrapped word lies in [0, n − 1] (wrapw_inrange): the clamp does nothing and a fill-mode take
    keeps the row.
-/
import Idealize.ShloMosaic.PureOps.Ideal
import Idealize.ShloMosaic.Lib.ValueIdx

noncomputable section

namespace Cert.Edges

open Idealize.ShloMosaic Idealize.ShloMosaic.ValueIdx

/-- A source word wrapped: a negative word has the node count added. -/
def wrapw (s : BitVec 32) : BitVec 32 := Scalar.select (IntOp.cmpi .slt s 0#32) (IntOp.addi s 100000#32) s

theorem wrapw_of_neg {s : BitVec 32} (h : s.toInt < 0) : wrapw s = s + 100000#32 := by
  unfold wrapw Scalar.select IntOp.cmpi IntOp.addi
  have : s.slt 0#32 = true := by
    rw [BitVec.slt_iff_toInt_lt]; simpa using h
  simp [this]

theorem wrapw_of_nonneg {s : BitVec 32} (h : 0 ≤ s.toInt) : wrapw s = s := by
  unfold wrapw Scalar.select IntOp.cmpi IntOp.addi
  have : s.slt 0#32 = false := by
    rw [Bool.eq_false_iff, Ne, BitVec.slt_iff_toInt_lt]; simpa using h
  simp [this]

/-- A word in [−n, n) wraps into [0, n − 1]. -/
theorem wrapw_inrange (s : BitVec 32) (h1 : -100000 ≤ s.toInt) (h2 : s.toInt < 100000) :
    0 ≤ (wrapw s).toInt ∧ (wrapw s).toInt ≤ 99999 := by
  by_cases hs : s.toInt < 0
  · rw [wrapw_of_neg hs, BitVec.toInt_add]
    have h100 : (100000#32 : BitVec 32).toInt = 100000 := by decide
    rw [h100]
    have hb : (s.toInt + 100000).bmod (2 ^ 32) = s.toInt + 100000 := by
      apply Int.bmod_eq_of_le <;> omega
    rw [hb]; omega
  · rw [wrapw_of_nonneg (by omega)]; omega

/-- The row of the feature matrix edge p reads. -/
def srcRow (a1 : (⟨2, ![2, 640000]⟩ : Shape).Idx → BitVec 32) (p : Fin 640000) : Fin 100000 :=
  ⟨min (wrapw (a1 (ix2 (0 : Fin 2) p))).toInt.toNat (100000 - 1), by omega⟩

/-- The destination word of edge p, read signed. -/
def dstWord (a1 : (⟨2, ![2, 640000]⟩ : Shape).Idx → BitVec 32) (p : Fin 640000) : ℤ :=
  (a1 (ix2 (1 : Fin 2) p)).toInt

end Cert.Edges

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.HostK1.lean ====
/-
  The host stretches of the kernel program that prepare its operands, read at an index, from ANY contents
  Vv of the buffers before the stretch:

  • the edge words: the [2, e] array's row 0 (sources) and row 1 (destinations), each sliced out and
    flattened to [e] — entry p is the array's (0, p), resp. (1, p);
  • the in-degree reciprocal [n, 1]: ones scattered (added) over zeros at the destination words count the
    edges into each node, cnt r = 0 + Σ_p [dst p = r] · 1; the count is floored at one, deg r = max (cnt r) 1,
    and inverted, 1 / deg r; a reshape [n] → [n, 1] keeps the row-major position;
  • the weight layouts: each weight matrix is transposed, (Wᵀ)(t, j) = W(j, t), and each bias [d] is viewed
    as the row [1, d], entry (0, j) being b(j).
-/
import proofs.«408524_j60352880443980_3_alg».proof.Proof.Gen.KernelIdeal.Launch
import proofs.«408524_j60352880443980_3_alg».proof.Proof.Spec
import proofs.«408524_j60352880443980_3_alg».proof.Proof.Edges
import proofs.«408524_j60352880443980_3_alg».proof.Proof.LibRows
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.HostK

open Cert.KernelIdeal Cert.KernelIdeal.Gen Idealize.ShloMosaic Idealize.ShloMosaic.ValueIdx Idealize.ShloMosaic.StableHlo

variable (Vv : Valuation τ sig (Elt Ideal))

local notation "D" => Proc.devRef (Proc.tc : Proc τ)

/-! ## The edge words -/

/-- Row 0 of the [2, e] edge array, flattened: entry p is the array's (0, p). -/
theorem edgeRow0_apply (a1 : S2x640000.Idx → BitVec 32) (p : Fin 640000) :
    shapeCast S640000 (extractStridedSlice S1x640000 ![0, 0] a1 slices_S2x640000_S1x640000_0_0)
        shapeCasts_S1x640000_S640000 (ix1 p) = a1 (ix2 (0 : Fin 2) p) := by
  refine (shapeCast_apply _ shapeCasts_S1x640000_S640000 (ix1 p) (ix2 (0 : Fin 1) p) ?_).trans ?_
  · rewrite [Shape.rowMajor_val_two, Shape.rowMajor_val_one]; show 0 * 640000 + p.val = p.val; omega
  · exact extractStridedSlice_apply ![0, 0] _ slices_S2x640000_S1x640000_0_0 (ix2 (0 : Fin 1) p) (ix2 (0 : Fin 2) p)
      (fun a => match a with
        | ⟨0, _⟩ => by show (0 : Nat) = 0 + 0; omega
        | ⟨1, _⟩ => by show p.val = 0 + p.val; omega)

/-- Row 1 of the [2, e] edge array, flattened: entry p is the array's (1, p). -/
theorem edgeRow1_apply (a1 : S2x640000.Idx → BitVec 32) (p : Fin 640000) :
    shapeCast S640000 (extractStridedSlice S1x640000 ![1, 0] a1 slices_S2x640000_S1x640000_1_0)
        shapeCasts_S1x640000_S640000 (ix1 p) = a1 (ix2 (1 : Fin 2) p) := by
  refine (shapeCast_apply _ shapeCasts_S1x640000_S640000 (ix1 p) (ix2 (0 : Fin 1) p) ?_).trans ?_
  · rewrite [Shape.rowMajor_val_two, Shape.rowMajor_val_one]; show 0 * 640000 + p.val = p.val; omega
  · exact extractStridedSlice_apply ![1, 0] _ slices_S2x640000_S1x640000_1_0 (ix2 (0 : Fin 1) p) (ix2 (1 : Fin 2) p)
      (fun a => match a with
        | ⟨0, _⟩ => by show (1 : Nat) = 1 + 0; omega
        | ⟨1, _⟩ => by show p.val = 0 + p.val; omega)

/-- The source words: row 0 of the edge array. -/
theorem src_apply (p : Fin 640000) :
    StableHlo.after (hostOps0 (F := Ideal)) Vv (D main_v1) (ix1 p) = Vv (D main_arg1) (ix2 (0 : Fin 2) p) := by
  unfold hostOps0
  after_results
  exact edgeRow0_apply _ p

/-- The destination words: row 1 of the edge array. -/
theorem dst_apply (p : Fin 640000) :
    StableHlo.after (hostOps0 (F := Ideal)) Vv (D main_v3) (ix1 p) = Vv (D main_arg1) (ix2 (1 : Fin 2) p) := by
  unfold hostOps0
  after_results
  exact edgeRow1_apply _ p

/-! ## The in-degree reciprocal -/

/-- The in-degree reciprocal: ones scattered over zeros at the destination column count the edges into each
    node; the count is floored at one and inverted. -/
theorem inv_apply (r : Fin 100000) :
    StableHlo.after (hostOps0 (F := Ideal)) Vv (D main_v12) (ix2 r (0 : Fin 1))
      = Ideal.div 1 (Spec.deg (n := 100000) (Edges.dstWord (Vv (D main_arg1))) r) := by
  unfold hostOps0
  after_results
  -- the reshape [100000] → [100000, 1] keeps the row-major position
  refine (shapeCast_apply _ shapeCasts_S100000_S100000x1 (ix2 r (0 : Fin 1)) (ix1 r) ?_).trans ?_
  · rewrite [Shape.rowMajor_val_two, Shape.rowMajor_val_one]; show r.val = r.val * 1 + 0; omega
  refine (hostDivf_apply _ _ _).trans ?_
  refine congrArg₂ Ideal.div ?_ ?_
  · -- the numerator: the word of one, broadcast
    exact (broadcastInDim_scalar_apply _ _ _).trans Ideal.ofBits_one_f32
  · -- the divisor: max (count, 1)
    unfold Spec.deg
    refine congrArg₂ max ?_ ?_
    · -- the count: 0 + Σ_p [dst p = r] · 1
      unfold Spec.cnt
      refine (LibRows.rowScatterAdd1_apply (n := 100000) (e := 640000)
        Facts₀.scatter_S100000_S640000x1_S640000_n_0_0_1_wf _ _ _ r).trans ?_
      refine congrArg₂ (· + ·) ?_ ?_
      · exact (broadcastInDim_scalar_apply _ _ _).trans Ideal.ofBits_zero_f32
      · refine Finset.sum_congr rfl fun p _ => ?_
        refine if_congr (Iff.of_eq (congrArg (fun w : BitVec 32 => w.toInt = (r.val : ℤ)) ?_)) ?_ rfl
        · -- the index column [e, 1] read at (p, 0) is the destination word p
          refine (broadcastInDim_apply _ bcast_S640000_S640000x1_0 _ (ix2 p (0 : Fin 1)) (ix1 p) (fun a => match a with
            | ⟨0, _⟩ => by show p.val = if (640000 : Nat) = 1 then 0 else p.val; rw [if_neg (by decide)])).trans ?_
          exact edgeRow1_apply _ p
        · exact (broadcastInDim_scalar_apply _ _ _).trans Ideal.ofBits_one_f32
    · exact (broadcastInDim_scalar_apply _ _ _).trans Ideal.ofBits_one_f32

/-! ## The weight layouts -/

/-- Layer 1, neighbour weights transposed: entry (t, j) is W(j, t). -/
theorem w1l_apply (t : Fin 128) (j : Fin 256) :
    StableHlo.after (hostOps0_2 (F := Ideal)) Vv (D main_v17) (ix2 t j) = Vv (D main_arg2) (ix2 j t) := by
  unfold hostOps0_2
  after_results
  exact transpose_apply [1, 0] _ transposes_S256x128_S128x256_1_0 (ix2 t j) (ix2 j t) (fun b => match b with
    | ⟨0, _⟩ => rfl
    | ⟨1, _⟩ => rfl)

/-- Layer 1, root weights transposed: entry (t, j) is W(j, t). -/
theorem w1r_apply (t : Fin 128) (j : Fin 256) :
    StableHlo.after (hostOps0_2 (F := Ideal)) Vv (D main_v18) (ix2 t j) = Vv (D main_arg3) (ix2 j t) := by
  unfold hostOps0_2
  after_results
  exact transpose_apply [1, 0] _ transposes_S256x128_S128x256_1_0 (ix2 t j) (ix2 j t) (fun b => match b with
    | ⟨0, _⟩ => rfl
    | ⟨1, _⟩ => rfl)

/-- Layer 1, the bias as a row: entry (0, j) is b(j). -/
theorem b1_apply (j : Fin 256) :
    StableHlo.after (hostOps0_2 (F := Ideal)) Vv (D main_v19) (ix2 (0 : Fin 1) j) = Vv (D main_arg4) (ix1 j) := by
  unfold hostOps0_2
  after_results
  exact shapeCast_apply _ shapeCasts_S256_S1x256 (ix2 (0 : Fin 1) j) (ix1 j)
    (by rewrite [Shape.rowMajor_val_two, Shape.rowMajor_val_one]; show j.val = 0 * 256 + j.val; omega)

/-- Layer 2, neighbour weights transposed: entry (t, j) is W(j, t). -/
theorem w2l_apply (t : Fin 256) (j : Fin 128) :
    StableHlo.after (hostOps1 (F := Ideal)) Vv (D main_v21) (ix2 t j) = Vv (D main_arg5) (ix2 j t) := by
  unfold hostOps1
  after_results
  exact transpose_apply [1, 0] _ transposes_S128x256_S256x128_1_0 (ix2 t j) (ix2 j t) (fun b => match b with
    | ⟨0, _⟩ => rfl
    | ⟨1, _⟩ => rfl)

/-- Layer 2, root weights transposed: entry (t, j) is W(j, t). -/
theorem w2r_apply (t : Fin 256) (j : Fin 128) :
    StableHlo.after (hostOps2_1 (F := Ideal)) Vv (D main_v27) (ix2 t j) = Vv (D main_arg6) (ix2 j t) := by
  unfold hostOps2_1
  after_results
  exact transpose_apply [1, 0] _ transposes_S128x256_S256x128_1_0 (ix2 t j) (ix2 j t) (fun b => match b with
    | ⟨0, _⟩ => rfl
    | ⟨1, _⟩ => rfl)

/-- Layer 2, the bias as a row: entry (0, j) is b(j). -/
theorem b2_apply (j : Fin 128) :
    StableHlo.after (hostOps2_1 (F := Ideal)) Vv (D main_v28) (ix2 (0 : Fin 1) j) = Vv (D main_arg7) (ix1 j) := by
  unfold hostOps2_1
  after_results
  exact shapeCast_apply _ shapeCasts_S128_S1x128 (ix2 (0 : Fin 1) j) (ix1 j)
    (by rewrite [Shape.rowMajor_val_two, Shape.rowMajor_val_one]; show j.val = 0 * 128 + j.val; omega)

/-- Layer 3, neighbour weights transposed: entry (t, j) is W(j, t). -/
theorem w3l_apply (t : Fin 128) (j : Fin 2) :
    StableHlo.after (hostOps3 (F := Ideal)) Vv (D main_v30) (ix2 t j) = Vv (D main_arg8) (ix2 j t) := by
  unfold hostOps3
  after_results
  exact transpose_apply [1, 0] _ transposes_S2x128_S128x2_1_0 (ix2 t j) (ix2 j t) (fun b => match b with
    | ⟨0, _⟩ => rfl
    | ⟨1, _⟩ => rfl)

/-- Layer 3, root weights transposed: entry (t, j) is W(j, t). -/
theorem w3r_apply (t : Fin 128) (j : Fin 2) :
    StableHlo.after (hostOps4_1 (F := Ideal)) Vv (D main_v36) (ix2 t j) = Vv (D main_arg9) (ix2 j t) := by
  unfold hostOps4_1
  after_results
  exact transpose_apply [1, 0] _ transposes_S2x128_S128x2_1_0 (ix2 t j) (ix2 j t) (fun b => match b with
    | ⟨0, _⟩ => rfl
    | ⟨1, _⟩ => rfl)

/-- Layer 3, the bias as a row: entry (0, j) is b(j). -/
theorem b3_apply (j : Fin 2) :
    StableHlo.after (hostOps4_1 (F := Ideal)) Vv (D main_v37) (ix2 (0 : Fin 1) j) = Vv (D main_arg10) (ix1 j) := by
  unfold hostOps4_1
  after_results
  exact shapeCast_apply _ shapeCasts_S2_S1x2 (ix2 (0 : Fin 1) j) (ix1 j)
    (by rewrite [Shape.rowMajor_val_two, Shape.rowMajor_val_one]; show j.val = 0 * 2 + j.val; omega)

end Cert.KernelIdeal.HostK

end
-- ==== Proof.HostK2.lean ====
/-
  The host stretches of the kernel program that move rows along the edge list, read at an index, for arbitrary
  contents of the buffers before the stretch.

  • The three fill-mode takes (rows of a matrix at the source words). A source word s is wrapped
    (a negative s counts from the end: s + n) and made a column; the take gathers the operand's row at the wrapped word
    clamped into [0, n − 1], and replaces the row by a NaN row where the wrapped word lies outside [0, n − 1]
    (the mask (0 ≤ w) ∧ (w ≤ n − 1), reduced by "and" over its one-element axis). For −n ≤ s < n the wrapped
    word is in range, the mask is 1 everywhere and the take is the plain row: element (p, q) of the result is
    element (min w_p (n − 1), q) of the operand.

  • The three segment sums (rows added at the destination words, over zeros): element (r, q) of the result is
    0 + Σ_p [d_p = r] · u_{p q}, d_p the destination word of edge p read signed (a word that names no node
    adds nowhere).
-/
import proofs.«408524_j60352880443980_3_alg».proof.Proof.Gen.KernelIdeal.Launch
import proofs.«408524_j60352880443980_3_alg».proof.Proof.Spec
import proofs.«408524_j60352880443980_3_alg».proof.Proof.Edges
import proofs.«408524_j60352880443980_3_alg».proof.Proof.LibRows
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.HostK

open Cert.KernelIdeal Cert.KernelIdeal.Gen Idealize.ShloMosaic Idealize.ShloMosaic.ValueIdx Idealize.ShloMosaic.StableHlo

variable (Vv : Valuation τ sig (Elt Ideal))

local notation "D" => Proc.devRef (τ := τ) (Proc.tc : Proc τ)

/-! ## Shared readings -/

/-- A column made of a vector, read at row p: the vector's entry p. -/
theorem bcastCol_apply {α : Type} (x : S640000.Idx → α) (p : Fin 640000) :
    broadcastInDim S640000x1 ![0] bcast_S640000_S640000x1_0 x (ix2 p (0 : Fin 1)) = x (ix1 p) :=
  broadcastInDim_apply _ bcast_S640000_S640000x1_0 x (ix2 p (0 : Fin 1)) (ix1 p)
    (fun a => match a with | ⟨0, _⟩ => rfl)

/-- A fold of one-bit words by "and" from 1 over a set on which every word is 1 is 1. -/
theorem fold_andi_one {ι : Type} (S : Finset ι) (x : ι → BitVec 1) (hx : ∀ i ∈ S, x i = 1#1) :
    S.fold IntOp.andi 1#1 x = 1#1 := by
  classical
  induction S using Finset.induction_on with
  | empty => rfl
  | insert a S ha ih =>
    rw [Finset.fold_insert ha, hx a (Finset.mem_insert_self a S),
      ih (fun i hi => hx i (Finset.mem_insert_of_mem hi))]
    rfl

section Take

variable (s : IVec S640000 32)

/-- The source words wrapped (a negative word has the node count added), as a column: the program's spelling. -/
abbrev wcol : IVec S640000x1 32 :=
  broadcastInDim S640000x1 ![0] bcast_S640000_S640000x1_0
    (select (cmpi CmpIPredicate.slt s (broadcastInDim S640000 ![] bcast_S_S640000 (constantI S_ 32 0#32)))
      (addi s (broadcastInDim S640000 ![] bcast_S_S640000 (constantI S_ 32 100000#32))) s)

/-- The column at row p is the wrapped word p. -/
theorem wcol_apply (p : Fin 640000) : wcol s (ix2 p (0 : Fin 1)) = Edges.wrapw (s (ix1 p)) :=
  (bcastCol_apply _ p).trans rfl

/-- The in-range mask of the wrapped column, before its reduction over the one-element axis: 0 ≤ w and w ≤ n − 1. -/
abbrev wmask : IVec S640000x1 1 :=
  andi (cmpi CmpIPredicate.sge (wcol s) (broadcastInDim S640000x1 ![] bcast_S_S640000x1 (constantI S_ 32 0#32)))
    (cmpi CmpIPredicate.sle (wcol s)
      (broadcastInDim S640000x1 ![0, 1] bcast_S1x1_S640000x1_0_1
        (broadcastInDim S1x1 ![1] bcast_S1_S1x1_1 (constantI S1 32 99999#32))))

variable (hs : ∀ p : Fin 640000, -100000 ≤ (s (ix1 p)).toInt ∧ (s (ix1 p)).toInt < 100000)
include hs

/-- Under the range hypothesis every entry of the mask is 1. -/
theorem wmask_eq_one (i : S640000x1.Idx) : wmask s i = 1#1 := by
  obtain ⟨a, b, rfl⟩ : ∃ (a : Fin 640000) (b : Fin 1), i = ix2 a b := ⟨i 0, i 1, eq_ix2 i⟩
  obtain rfl : b = 0 := Subsingleton.elim _ _
  show IntOp.andi (IntOp.cmpi CmpIPredicate.sge (wcol s (ix2 a (0 : Fin 1))) 0#32)
      (IntOp.cmpi CmpIPredicate.sle (wcol s (ix2 a (0 : Fin 1))) 99999#32) = 1#1
  rw [wcol_apply]
  obtain ⟨h0, h1⟩ := Edges.wrapw_inrange (s (ix1 a)) (hs a).1 (hs a).2
  have e0 : (0#32 : BitVec 32).sle (Edges.wrapw (s (ix1 a))) = true := by
    rw [BitVec.sle_iff_toInt_le]; simpa using h0
  have e1 : (Edges.wrapw (s (ix1 a))).sle (99999#32 : BitVec 32) = true := by
    rw [BitVec.sle_iff_toInt_le]
    have : (99999#32 : BitVec 32).toInt = 99999 := by decide
    rw [this]; exact h1
  unfold IntOp.cmpi IntOp.andi
  simp only [e0, e1]
  rfl

/-- The mask reduced by "and" over the one-element axis, from 1: still 1 at every row. -/
theorem wmask_reduce_eq_one (j : S640000.Idx) :
    Host.reduce IntOp.andi (wmask s) (constantI S_ 1 1#1) reducesTo_S640000x1_S640000_d1 h_S_ j = 1#1 := by
  rw [Host.reduce_eq_fold]
  exact fold_andi_one _ _ (fun i _ => wmask_eq_one s hs i)

end Take

section TakeCore

variable {α : Type} {c : ℕ}

/-- THE FILL-MODE TAKE READ AT (p, q): the mask is 1 under the range hypothesis, so the select keeps the gathered
    row, which is the operand's row at the wrapped word p clamped into [0, n − 1]. -/
theorem take_core
    (hb1 : S640000.BroadcastsInDim ⟨2, ![640000, c]⟩ (![0] : Fin 1 → Fin 2))
    (wf : GatherDims.WF ⟨2, ![100000, c]⟩ ⟨2, ![640000, 1]⟩ ⟨2, ![640000, c]⟩ [1] [0] [] [0] [] 1 ![1, c])
    (s : IVec S640000 32)
    (hs : ∀ p : Fin 640000, -100000 ≤ (s (ix1 p)).toInt ∧ (s (ix1 p)).toInt < 100000)
    (x : (⟨2, ![100000, c]⟩ : Shape).Idx → α) (N : (⟨2, ![640000, c]⟩ : Shape).Idx → α)
    (p : Fin 640000) (q : Fin c) :
    select (broadcastInDim ⟨2, ![640000, c]⟩ ![0] hb1
        (Host.reduce IntOp.andi (wmask s) (constantI S_ 1 1#1) reducesTo_S640000x1_S640000_d1 h_S_))
      (Host.gather (LibRows.rowGatherDims 100000 640000 c wf) x (wcol s)) N (ix2 p q)
    = x (ix2 (⟨min (Edges.wrapw (s (ix1 p))).toInt.toNat (100000 - 1), by omega⟩ : Fin 100000) q) := by
  show Scalar.select (broadcastInDim ⟨2, ![640000, c]⟩ ![0] hb1
        (Host.reduce IntOp.andi (wmask s) (constantI S_ 1 1#1) reducesTo_S640000x1_S640000_d1 h_S_) (ix2 p q))
      (Host.gather (LibRows.rowGatherDims 100000 640000 c wf) x (wcol s) (ix2 p q)) (N (ix2 p q)) = _
  rw [broadcastInDim_apply _ hb1 _ (ix2 p q) (ix1 p) (fun a => match a with | ⟨0, _⟩ => rfl),
    wmask_reduce_eq_one s hs, LibRows.rowGather_apply (by omega) wf x (wcol s) p q]
  simp only [wcol_apply]
  rfl

end TakeCore

/-! ## The three takes -/

set_option maxHeartbeats 400000 in
theorem take1_apply
    (hr : ∀ p : Fin 640000, -100000 ≤ (Vv (D main_v1) (ix1 p)).toInt ∧ (Vv (D main_v1) (ix1 p)).toInt < 100000)
    (p : Fin 640000) (q : Fin 128) :
    @Eq EReal (StableHlo.after (hostOps0_1 (F := Ideal)) Vv (D main_v13) (ix2 p q))
      (Vv (D main_arg0) (ix2 (⟨min (Edges.wrapw (Vv (D main_v1) (ix1 p))).toInt.toNat (100000 - 1), by omega⟩ : Fin 100000) q)) := by
  unfold hostOps0_1
  after_results_simp
  simp only [TRef.toBuf, TRef.ofBuf, cast_eq]
  exact take_core bcast_S640000_S640000x128_0 gather_S100000x128_S640000x1_S640000x128_1_0_n_n_0_1_1128.wf
    (Vv (D main_v1)) hr (Vv (D main_arg0)) _ p q

set_option maxHeartbeats 400000 in
theorem take2_apply
    (hr : ∀ p : Fin 640000, -100000 ≤ (Vv (D main_v1) (ix1 p)).toInt ∧ (Vv (D main_v1) (ix1 p)).toInt < 100000)
    (p : Fin 640000) (q : Fin 128) :
    @Eq EReal (StableHlo.after (hostOps2 (F := Ideal)) Vv (D main_v23) (ix2 p q))
      (Vv (D main_v22) (ix2 (⟨min (Edges.wrapw (Vv (D main_v1) (ix1 p))).toInt.toNat (100000 - 1), by omega⟩ : Fin 100000) q)) := by
  unfold hostOps2
  after_results_simp
  simp only [TRef.toBuf, TRef.ofBuf, cast_eq]
  exact take_core bcast_S640000_S640000x128_0 gather_S100000x128_S640000x1_S640000x128_1_0_n_n_0_1_1128.wf
    (Vv (D main_v1)) hr (Vv (D main_v22)) _ p q

set_option maxHeartbeats 400000 in
theorem take3_apply
    (hr : ∀ p : Fin 640000, -100000 ≤ (Vv (D main_v1) (ix1 p)).toInt ∧ (Vv (D main_v1) (ix1 p)).toInt < 100000)
    (p : Fin 640000) (q : Fin 2) :
    @Eq EReal (StableHlo.after (hostOps4 (F := Ideal)) Vv (D main_v32) (ix2 p q))
      (Vv (D main_v31) (ix2 (⟨min (Edges.wrapw (Vv (D main_v1) (ix1 p))).toInt.toNat (100000 - 1), by omega⟩ : Fin 100000) q)) := by
  unfold hostOps4
  after_results_simp
  simp only [TRef.toBuf, TRef.ofBuf, cast_eq]
  exact take_core bcast_S640000_S640000x2_0 gather_S100000x2_S640000x1_S640000x2_1_0_n_n_0_1_12.wf
    (Vv (D main_v1)) hr (Vv (D main_v31)) _ p q

/-! ## The three segment sums -/

theorem scat1_apply (r : Fin 100000) (q : Fin 128) :
    @Eq EReal (StableHlo.after (hostOps0_2 (F := Ideal)) Vv (D main_v16) (ix2 r q))
      (0 + ∑ p : Fin 640000, ((if (Vv (D main_v3) (ix1 p)).toInt = (r.val : ℤ) then Vv (D main_v13) (ix2 p q) else 0) : EReal)) := by
  unfold hostOps0_2
  after_results
  have hd : (scatter_S100000x128_S640000x1_S640000x128_1_0_0_1 : ScatterDims S100000x128 S640000x1 S640000x128)
      = LibRows.rowScatterDims 100000 640000 128 scatter_S100000x128_S640000x1_S640000x128_1_0_0_1.wf := rfl
  rw [hd]
  refine (LibRows.rowScatterAdd_apply _ _ _ _ r q).trans ?_
  refine congrArg₂ (fun a b : EReal => a + b) ?_ ?_
  · rw [broadcastInDim_scalar_apply]; exact Ideal.ofBits_zero_f32
  · refine Finset.sum_congr rfl fun p _ => ?_
    rw [bcastCol_apply]

theorem scat2_apply (r : Fin 100000) (q : Fin 128) :
    @Eq EReal (StableHlo.after (hostOps2_1 (F := Ideal)) Vv (D main_v26) (ix2 r q))
      (0 + ∑ p : Fin 640000, ((if (Vv (D main_v3) (ix1 p)).toInt = (r.val : ℤ) then Vv (D main_v23) (ix2 p q) else 0) : EReal)) := by
  unfold hostOps2_1
  after_results
  have hd : (scatter_S100000x128_S640000x1_S640000x128_1_0_0_1 : ScatterDims S100000x128 S640000x1 S640000x128)
      = LibRows.rowScatterDims 100000 640000 128 scatter_S100000x128_S640000x1_S640000x128_1_0_0_1.wf := rfl
  rw [hd]
  refine (LibRows.rowScatterAdd_apply _ _ _ _ r q).trans ?_
  refine congrArg₂ (fun a b : EReal => a + b) ?_ ?_
  · rw [broadcastInDim_scalar_apply]; exact Ideal.ofBits_zero_f32
  · refine Finset.sum_congr rfl fun p _ => ?_
    rw [bcastCol_apply]

theorem scat3_apply (r : Fin 100000) (q : Fin 2) :
    @Eq EReal (StableHlo.after (hostOps4_1 (F := Ideal)) Vv (D main_v35) (ix2 r q))
      (0 + ∑ p : Fin 640000, ((if (Vv (D main_v3) (ix1 p)).toInt = (r.val : ℤ) then Vv (D main_v32) (ix2 p q) else 0) : EReal)) := by
  unfold hostOps4_1
  after_results
  have hd : (scatter_S100000x2_S640000x1_S640000x2_1_0_0_1 : ScatterDims S100000x2 S640000x1 S640000x2)
      = LibRows.rowScatterDims 100000 640000 2 scatter_S100000x2_S640000x1_S640000x2_1_0_0_1.wf := rfl
  rw [hd]
  refine (LibRows.rowScatterAdd_apply _ _ _ _ r q).trans ?_
  refine congrArg₂ (fun a b : EReal => a + b) ?_ ?_
  · rw [broadcastInDim_scalar_apply]; exact Ideal.ofBits_zero_f32
  · refine Finset.sum_congr rfl fun p _ => ?_
    rw [bcastCol_apply]

end Cert.KernelIdeal.HostK

end
-- ==== Proof.Reg0.lean ====
/-
  REGION 0 (aggregate first): the output array after the region, read at an index, is
  relu (normalise (((a · iv) Wl + x Wr) + b)) of row r of the node-indexed input arrays and of the whole weight
  matrices and bias.

  First the body's payload at one element of a block: the two matrix products as sums over the contraction
  coordinate, the three broadcasts (a column along the lanes, the bias row along the rows), the lane sum of squares,
  the keep-dimension cast of the row norms — each read at explicit coordinates — and their composition, which is the
  specification's row function of row p of the block's operands. Then the blocks: block t of every node-indexed
  window is rows [1000 t, 1000 t + 1000) of its array, the weights' and bias' windows are the whole arrays, so what
  point t writes back is block t of one function of the arrays; the hundred blocks cover the rows (row r lies in
  block r / 1000), hence the array ends holding that function.
-/
import proofs.«408524_j60352880443980_3_alg».proof.Proof.Gen.KernelIdeal.Frame
import proofs.«408524_j60352880443980_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx
open Idealize.ShloMosaic.Pipeline (Dat)

namespace Cert.KernelIdeal.Reg0

open Cert.KernelIdeal Cert.KernelIdeal.Gen

/-! ## The matrix product [1000,128] × [128,256] at an index -/

theorem lhs_dot_0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
theorem lhs_dot_1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q
theorem rhs_dot_0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q
theorem rhs_dot_1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

/-- The product into the zero accumulator, at (p, q): the sum over the contraction coordinate k of A (p, k) · B (k, q). -/
theorem matmul_at (A : FVec Ideal S1000x128 .f32) (B : FVec Ideal S128x256 .f32) (p : Fin 1000) (q : Fin 256) :
    matmul dot_S1000x128_S128x256_S1000x256_1_0_0_1_n_n (some .fp32) A B (constant (F := Ideal) S1000x256 .f32 0x00000000#32) (ix2 p q)
      = ∑ k : Fin 128, A (ix2 p k) * B (ix2 k q) := by
  simp only [matmul]
  rw [Ideal.matmul_constant_zero_apply, ← Equiv.sum_comp (ValueIdx.contrEquiv1 dot_S1000x128_S128x256_S1000x256_1_0_0_1_n_n 128 rfl rfl).symm]
  refine Finset.sum_congr rfl fun k _ => ?_
  have hk := ValueIdx.contrEquiv1_symm_val dot_S1000x128_S128x256_S1000x256_1_0_0_1_n_n 128 rfl rfl k
  have el : dot_S1000x128_S128x256_S1000x256_1_0_0_1_n_n.lhsIdx (ix2 p q) ((ValueIdx.contrEquiv1 dot_S1000x128_S128x256_S1000x256_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1000x128_S128x256_S1000x256_1_0_0_1_n_n.rhsIdx (ix2 p q) ((ValueIdx.contrEquiv1 dot_S1000x128_S128x256_S1000x256_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The broadcasts and the keep-dimension cast at an index -/

/-- A column [1000,1] along 128 lanes. -/
theorem bcast_col128_at (v : FVec Ideal S1000x1 .f32) (p : Fin 1000) (q : Fin 128) :
    broadcastTo S1000x128 v broadcasts_S1000x1_S1000x128 (ix2 p q) = v (ix2 p (0 : Fin 1)) :=
  broadcastTo_apply v broadcasts_S1000x1_S1000x128 (ix2 p q) (ix2 p (0 : Fin 1)) (fun a => by
    match a with
    | ⟨0, _⟩ => rfl
    | ⟨1, _⟩ => rfl)

/-- A column [1000,1] along 256 lanes. -/
theorem bcast_col256_at (v : FVec Ideal S1000x1 .f32) (p : Fin 1000) (q : Fin 256) :
    broadcastTo S1000x256 v broadcasts_S1000x1_S1000x256 (ix2 p q) = v (ix2 p (0 : Fin 1)) :=
  broadcastTo_apply v broadcasts_S1000x1_S1000x256 (ix2 p q) (ix2 p (0 : Fin 1)) (fun a => by
    match a with
    | ⟨0, _⟩ => rfl
    | ⟨1, _⟩ => rfl)

/-- The bias row [1,256] along the 1000 rows. -/
theorem bcast_row_at (v : FVec Ideal S1x256 .f32) (p : Fin 1000) (q : Fin 256) :
    broadcastTo S1000x256 v broadcasts_S1x256_S1000x256 (ix2 p q) = v (ix2 (0 : Fin 1) q) :=
  broadcastTo_apply v broadcasts_S1x256_S1000x256 (ix2 p q) (ix2 (0 : Fin 1) q) (fun a => by
    match a with
    | ⟨0, _⟩ => rfl
    | ⟨1, _⟩ => rfl)

/-- The lane sum of a [1000,256] vector at row p. -/
theorem lanesum_at (v : FVec Ideal S1000x256 .f32) (hφ : FKind.Formats .f32)
    (hacc : (0x00000000#32 : BitVec 32) = 0x00000000#32) (p : Fin 1000) :
    multiReduction (F := Ideal) .add [1] S1000 v 0x00000000#32 reduces_S1000x256_S1000 hφ hacc (ix1 p)
      = ∑ k : Fin 256, v (ix2 p k) := by
  refine (Ideal.multiReduction_add_single v 0x00000000#32 reduces_S1000x256_S1000 hφ hacc (ix1 p)).trans ?_
  refine Finset.sum_congr rfl fun k _ => congrArg v (funext fun a => Fin.ext ?_)
  match a with
  | ⟨0, _⟩ => rfl
  | ⟨1, _⟩ => rfl

/-- The row sums [1000] cast to a column [1000,1]. -/
theorem keepdim_at (v : FVec Ideal S1000 .f32) (p : Fin 1000) :
    shapeCast S1000x1 v shapeCasts_S1000_S1000x1 (ix2 p (0 : Fin 1)) = v (ix1 p) :=
  shapeCast_apply v shapeCasts_S1000_S1000x1 (ix2 p (0 : Fin 1)) (ix1 p) (by
    show ((⟨1, ![1000]⟩ : Shape).rowMajor (ix1 p)).val = ((⟨2, ![1000, 1]⟩ : Shape).rowMajor (ix2 p (0 : Fin 1))).val
    rw [Shape.rowMajor_val_one, Shape.rowMajor_val_two]
    show p.val = p.val * 1 + 0
    omega)

/-- The square root of a vector at an index. -/
theorem sqrt_at {s : Shape} (v : FVec Ideal s .f32) (i : s.Idx) : sqrt v i = Ideal.sqrt (v i) := rfl

/-! ## The payload at an index -/

/-- The pre-activation block ((a · iv) Wl + x Wr) + b, the identity casts of the printed body left out. -/
def pre (v0 : FVec Ideal S1000x128 .f32) (v2 : FVec Ideal S1000x1 .f32) (v6 : FVec Ideal S1000x128 .f32)
    (v7 v10 : FVec Ideal S128x256 .f32) (v14 : FVec Ideal S1x256 .f32) : FVec Ideal S1000x256 .f32 :=
  addf (addf (matmul dot_S1000x128_S128x256_S1000x256_1_0_0_1_n_n (some .fp32) (mulf v0 (broadcastTo S1000x128 v2 broadcasts_S1000x1_S1000x128)) v7 (constant (F := Ideal) S1000x256 .f32 0x00000000#32))
      (matmul dot_S1000x128_S128x256_S1000x256_1_0_0_1_n_n (some .fp32) v6 v10 (constant (F := Ideal) S1000x256 .f32 0x00000000#32)))
    (broadcastTo S1000x256 v14 broadcasts_S1x256_S1000x256)

/-- At (p, q) it is the specification's pre-activation of row p, column q. -/
theorem pre_at (v0 : FVec Ideal S1000x128 .f32) (v2 : FVec Ideal S1000x1 .f32) (v6 : FVec Ideal S1000x128 .f32)
    (v7 v10 : FVec Ideal S128x256 .f32) (v14 : FVec Ideal S1x256 .f32) (p : Fin 1000) (q : Fin 256) :
    pre v0 v2 v6 v7 v10 v14 (ix2 p q)
      = Spec.rowAggFirst (fun t : Fin 128 => v0 (ix2 p t)) (fun t : Fin 128 => v6 (ix2 p t)) (v2 (ix2 p (0 : Fin 1)))
          (fun (t : Fin 128) (j : Fin 256) => v7 (ix2 t j)) (fun (t : Fin 128) (j : Fin 256) => v10 (ix2 t j))
          (fun j : Fin 256 => v14 (ix2 (0 : Fin 1) j)) q := by
  unfold pre Spec.rowAggFirst Spec.vm
  rw [addf_apply, addf_apply, matmul_at, matmul_at, bcast_row_at]
  simp only [mulf_apply, bcast_col128_at]

/-- The body's payload, with the pre-activation block named. -/
theorem pay_eq (v0 : FVec Ideal S1000x128 .f32) (v2 : FVec Ideal S1000x1 .f32) (v6 : FVec Ideal S1000x128 .f32)
    (v7 v10 : FVec Ideal S128x256 .f32) (v14 : FVec Ideal S1x256 .f32) :
    k0_pay1 (F := Ideal) v0 v2 v6 v7 v10 v14
      = maximumf (divf (pre v0 v2 v6 v7 v10 v14)
          (broadcastTo S1000x256 (maximumf (sqrt (shapeCast S1000x1 (multiReduction (F := Ideal) .add [1] S1000 (mulf (pre v0 v2 v6 v7 v10 v14) (pre v0 v2 v6 v7 v10 v14)) 0x00000000#32 reduces_S1000x256_S1000 (.inl rfl) rfl) shapeCasts_S1000_S1000x1))
            (broadcast S1000x1 (Ideal.ofBits .f32 0x2B8CBCCC#32))) broadcasts_S1000x1_S1000x256))
          (broadcast S1000x256 (Ideal.ofBits .f32 0x00000000#32)) := by
  unfold k0_pay1 pre
  simp only [shapeCast_self]
  rfl

/-- The payload at (p, q): relu of the normalised pre-activation row p, at column q. -/
theorem pay_at (v0 : FVec Ideal S1000x128 .f32) (v2 : FVec Ideal S1000x1 .f32) (v6 : FVec Ideal S1000x128 .f32)
    (v7 v10 : FVec Ideal S128x256 .f32) (v14 : FVec Ideal S1x256 .f32) (p : Fin 1000) (q : Fin 256) :
    k0_pay1 (F := Ideal) v0 v2 v6 v7 v10 v14 (ix2 p q)
      = Spec.rrelu (Spec.rnormalize (Spec.rowAggFirst (fun t : Fin 128 => v0 (ix2 p t)) (fun t : Fin 128 => v6 (ix2 p t)) (v2 (ix2 p (0 : Fin 1)))
          (fun (t : Fin 128) (j : Fin 256) => v7 (ix2 t j)) (fun (t : Fin 128) (j : Fin 256) => v10 (ix2 t j))
          (fun j : Fin 256 => v14 (ix2 (0 : Fin 1) j)))) q := by
  rw [pay_eq]
  unfold Spec.rrelu Spec.rnormalize Spec.rnrm Spec.eps
  rw [maximumf_apply, divf_apply, broadcast_apply, bcast_col256_at, maximumf_apply, broadcast_apply, sqrt_at, keepdim_at, lanesum_at,
    Ideal.ofBits_zero_f32]
  simp only [mulf_apply, pre_at]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the hundred grid points: the node-indexed windows are at row block t,
    the weights' and the bias' at the one block there is. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Which array each window reads or writes. -/
example : Pipeline.arrRef spec0 0 = main_v16 := rfl
example : Pipeline.arrRef spec0 1 = main_arg0 := rfl
example : Pipeline.arrRef spec0 2 = main_v12 := rfl
example : Pipeline.arrRef spec0 3 = main_v17 := rfl
example : Pipeline.arrRef spec0 4 = main_v18 := rfl
example : Pipeline.arrRef spec0 5 = main_v19 := rfl
example : Pipeline.arrRef spec0 6 = main_v20 := rfl

/-- The arrays as the region finds them, at their literal types. -/
abbrev arrA (c : Dev nD) : FVec Ideal S100000x128 .f32 := V c main_v16
abbrev arrX (c : Dev nD) : FVec Ideal S100000x128 .f32 := V c main_arg0
abbrev arrIv (c : Dev nD) : FVec Ideal S100000x1 .f32 := V c main_v12
abbrev arrWl (c : Dev nD) : FVec Ideal S128x256 .f32 := V c main_v17
abbrev arrWr (c : Dev nD) : FVec Ideal S128x256 .f32 := V c main_v18
abbrev arrB (c : Dev nD) : FVec Ideal S1x256 .f32 := V c main_v19

/-- The input blocks at point t, at their literal types. -/
abbrev blkA (c : Dev nD) (t : Fin cfg0.N) : FVec Ideal S1000x128 .f32 := iblk0 V c 0 t
abbrev blkX (c : Dev nD) (t : Fin cfg0.N) : FVec Ideal S1000x128 .f32 := iblk0 V c 1 t
abbrev blkIv (c : Dev nD) (t : Fin cfg0.N) : FVec Ideal S1000x1 .f32 := iblk0 V c 2 t
abbrev blkWl (c : Dev nD) (t : Fin cfg0.N) : FVec Ideal S128x256 .f32 := iblk0 V c 3 t
abbrev blkWr (c : Dev nD) (t : Fin cfg0.N) : FVec Ideal S128x256 .f32 := iblk0 V c 4 t
abbrev blkB (c : Dev nD) (t : Fin cfg0.N) : FVec Ideal S1x256 .f32 := iblk0 V c 5 t

/-- Row p of the neighbour-sum block at point t is row 1000 t + p of the array. -/
theorem blkA_at (c : Dev nD) (t : Fin cfg0.N) (p : Fin 1000) (k : Fin 128) (r : Fin 100000) (hr : r.val = 1000 * t.val + p.val) :
    blkA V c t (ix2 p k) = arrA V c (ix2 r k) := by
  obtain ⟨e0, e1, -⟩ := idx_facts t
  unfold blkA arrA iblk0
  rw [View.read_apply]
  show V c main_v16 _ = V c main_v16 _
  congr 1
  funext a
  apply Fin.ext
  match a with
  | ⟨0, _⟩ => show win0_0.index t 0 * 1000 + 1 * p.val = r.val; rw [e0, hr]; omega
  | ⟨1, _⟩ => show win0_0.index t 1 * 128 + 1 * k.val = k.val; rw [e1]; omega

/-- Row p of the feature block at point t is row 1000 t + p of the array. -/
theorem blkX_at (c : Dev nD) (t : Fin cfg0.N) (p : Fin 1000) (k : Fin 128) (r : Fin 100000) (hr : r.val = 1000 * t.val + p.val) :
    blkX V c t (ix2 p k) = arrX V c (ix2 r k) := by
  obtain ⟨-, -, e0, e1, -⟩ := idx_facts t
  unfold blkX arrX iblk0
  rw [View.read_apply]
  show V c main_arg0 _ = V c main_arg0 _
  congr 1
  funext a
  apply Fin.ext
  match a with
  | ⟨0, _⟩ => show win0_1.index t 0 * 1000 + 1 * p.val = r.val; rw [e0, hr]; omega
  | ⟨1, _⟩ => show win0_1.index t 1 * 128 + 1 * k.val = k.val; rw [e1]; omega

/-- Row p of the reciprocal-degree block at point t is row 1000 t + p of the array. -/
theorem blkIv_at (c : Dev nD) (t : Fin cfg0.N) (p : Fin 1000) (r : Fin 100000) (hr : r.val = 1000 * t.val + p.val) :
    blkIv V c t (ix2 p (0 : Fin 1)) = arrIv V c (ix2 r (0 : Fin 1)) := by
  obtain ⟨-, -, -, -, e0, e1, -⟩ := idx_facts t
  unfold blkIv arrIv iblk0
  rw [View.read_apply]
  show V c main_v12 _ = V c main_v12 _
  congr 1
  funext a
  apply Fin.ext
  match a with
  | ⟨0, _⟩ => show win0_2.index t 0 * 1000 + 1 * p.val = r.val; rw [e0, hr]; omega
  | ⟨1, _⟩ => show win0_2.index t 1 * 1 + 1 * (0 : Fin 1).val = (0 : Fin 1).val; rw [e1]; rfl

/-- The left weights' block at every point is the whole matrix. -/
theorem blkWl_at (c : Dev nD) (t : Fin cfg0.N) (k : Fin 128) (q : Fin 256) :
    blkWl V c t (ix2 k q) = arrWl V c (ix2 k q) := by
  obtain ⟨-, -, -, -, -, -, e0, e1, -⟩ := idx_facts t
  unfold blkWl arrWl iblk0
  rw [View.read_apply]
  show V c main_v17 _ = V c main_v17 _
  congr 1
  funext a
  apply Fin.ext
  match a with
  | ⟨0, _⟩ => show win0_3.index t 0 * 128 + 1 * k.val = k.val; rw [e0]; omega
  | ⟨1, _⟩ => show win0_3.index t 1 * 256 + 1 * q.val = q.val; rw [e1]; omega

/-- The right weights' block at every point is the whole matrix. -/
theorem blkWr_at (c : Dev nD) (t : Fin cfg0.N) (k : Fin 128) (q : Fin 256) :
    blkWr V c t (ix2 k q) = arrWr V c (ix2 k q) := by
  obtain ⟨-, -, -, -, -, -, -, -, e0, e1, -⟩ := idx_facts t
  unfold blkWr arrWr iblk0
  rw [View.read_apply]
  show V c main_v18 _ = V c main_v18 _
  congr 1
  funext a
  apply Fin.ext
  match a with
  | ⟨0, _⟩ => show win0_4.index t 0 * 128 + 1 * k.val = k.val; rw [e0]; omega
  | ⟨1, _⟩ => show win0_4.index t 1 * 256 + 1 * q.val = q.val; rw [e1]; omega

/-- The bias' block at every point is the whole row. -/
theorem blkB_at (c : Dev nD) (t : Fin cfg0.N) (q : Fin 256) :
    blkB V c t (ix2 (0 : Fin 1) q) = arrB V c (ix2 (0 : Fin 1) q) := by
  obtain ⟨-, -, -, -, -, -, -, -, -, -, e0, e1, -⟩ := idx_facts t
  unfold blkB arrB iblk0
  rw [View.read_apply]
  show V c main_v19 _ = V c main_v19 _
  congr 1
  funext a
  apply Fin.ext
  match a with
  | ⟨0, _⟩ => show win0_5.index t 0 * 1 + 1 * (0 : Fin 1).val = (0 : Fin 1).val; rw [e0]; rfl
  | ⟨1, _⟩ => show win0_5.index t 1 * 256 + 1 * q.val = q.val; rw [e1]; omega

/-- The layer's output at node r, column q, from the arrays: relu of the normalised pre-activation row. -/
def rowOut (c : Dev nD) (r : Fin 100000) (q : Fin 256) : EReal :=
  Spec.rrelu (Spec.rnormalize (Spec.rowAggFirst (fun t : Fin 128 => arrA V c (ix2 r t)) (fun t : Fin 128 => arrX V c (ix2 r t))
    (arrIv V c (ix2 r (0 : Fin 1))) (fun (t : Fin 128) (j : Fin 256) => arrWl V c (ix2 t j)) (fun (t : Fin 128) (j : Fin 256) => arrWr V c (ix2 t j))
    (fun j : Fin 256 => arrB V c (ix2 (0 : Fin 1) j)))) q

/-- The whole output array as one function of the input arrays. -/
def outArr (c : Dev nD) : FVec Ideal S100000x256 .f32 := fun i => rowOut V c (i 0) (i 1)

/-- What the body leaves at point t, read at (p, q), is the layer's output at node 1000 t + p. -/
theorem block_at (c : Dev nD) (t : Fin cfg0.N) (p : Fin 1000) (q : Fin 256) (r : Fin 100000) (hr : r.val = 1000 * t.val + p.val) :
    k0_pay1 (F := Ideal) (blkA V c t) (blkIv V c t) (blkX V c t) (blkWl V c t) (blkWr V c t) (blkB V c t) (ix2 p q) = rowOut V c r q := by
  refine (pay_at (blkA V c t) (blkIv V c t) (blkX V c t) (blkWl V c t) (blkWr V c t) (blkB V c t) p q).trans ?_
  have eA : (fun k : Fin 128 => blkA V c t (ix2 p k)) = fun k : Fin 128 => arrA V c (ix2 r k) := funext fun k => blkA_at V c t p k r hr
  have eX : (fun k : Fin 128 => blkX V c t (ix2 p k)) = fun k : Fin 128 => arrX V c (ix2 r k) := funext fun k => blkX_at V c t p k r hr
  have eWl : (fun (k : Fin 128) (j : Fin 256) => blkWl V c t (ix2 k j)) = fun (k : Fin 128) (j : Fin 256) => arrWl V c (ix2 k j) :=
    funext fun k => funext fun j => blkWl_at V c t k j
  have eWr : (fun (k : Fin 128) (j : Fin 256) => blkWr V c t (ix2 k j)) = fun (k : Fin 128) (j : Fin 256) => arrWr V c (ix2 k j) :=
    funext fun k => funext fun j => blkWr_at V c t k j
  have eB : (fun j : Fin 256 => blkB V c t (ix2 (0 : Fin 1) j)) = fun j : Fin 256 => arrB V c (ix2 (0 : Fin 1) j) := funext fun j => blkB_at V c t j
  unfold rowOut
  rw [eA, eX, eWl, eWr, eB, blkIv_at V c t p r hr]

/-- WHAT POINT t WRITES BACK is block t of the output function of the arrays. -/
theorem flushed_eq (c : Dev nD) (t : Fin cfg0.N) :
    (dat0 (F := Ideal) V c).flushed 6 t = ((cfg0.win 6).blk t).view.read (Elt Ideal) (outArr V c) := by
  show (cfg0.win 6).cut (grid0.coords t) ((dat0 (F := Ideal) V c).after 6 t) = _
  rw [after0_6]
  unfold out0_6
  rw [View.canon_unit_zero hz]
  simp only [View.ld_unit_zero (S := S1000x128) hz, View.ld_unit_zero (S := S1000x1) hz, View.ld_unit_zero (S := S128x256) hz,
    View.ld_unit_zero (S := S1x256) hz]
  obtain ⟨-, -, -, -, -, -, -, -, -, -, -, -, e0, e1⟩ := idx_facts t
  funext j
  obtain ⟨p, q, rfl⟩ : ∃ (p : Fin 1000) (q : Fin 256), j = ix2 p q := ⟨j 0, j 1, eq_ix2 j⟩
  have hp : p.val < 1000 := p.isLt
  have ht : t.val < 100 := t.isLt
  show k0_pay1 (F := Ideal) (blkA V c t) (blkIv V c t) (blkX V c t) (blkWl V c t) (blkWr V c t) (blkB V c t) (ix2 p q)
    = outArr V c (((cfg0.win 6).blk t).view.emb (ix2 p q))
  refine (block_at V c t p q ⟨1000 * t.val + p.val, by omega⟩ rfl).trans ?_
  unfold outArr
  congr 1
  · apply Fin.ext
    show 1000 * t.val + p.val = win0_6.index t 0 * 1000 + 1 * p.val
    rw [e0]; omega
  · apply Fin.ext
    show q.val = win0_6.index t 1 * 256 + 1 * q.val
    rw [e1]; omega

/-- An index of the array is in point t's block iff each coordinate is in the block's range on its axis. -/
theorem mem_blk (t : Fin cfg0.N) (i : S100000x256.Idx) :
    i ∈ ((cfg0.win 6).blk t).view.set ↔ ∀ a : Fin 2, win0_6.index t a * S1000x256.size a ≤ (i a).val ∧ (i a).val < win0_6.index t a * S1000x256.size a + S1000x256.size a := by
  show i ∈ ((View.whole main_v20).slice (win0_6.rect t)).set ↔ _
  rw [View.set_slice_whole, Rect.mem_set_unit]
  exact Iff.rfl

/-- The hundred row blocks cover the array: row r lies in block r / 1000. -/
theorem cover (i : S100000x256.Idx) : ∃ t : Fin cfg0.N, (cfg0.win 6).flush t = true ∧ i ∈ ((cfg0.win 6).blk t).view.set := by
  have h0 : (i 0).val < 100000 := (i 0).isLt
  have h1 : (i 1).val < 256 := (i 1).isLt
  have hN : cfg0.N = 100 := N_0
  obtain ⟨t, ht⟩ : ∃ t : Fin cfg0.N, t.val = (i 0).val / 1000 := ⟨⟨(i 0).val / 1000, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ => show win0_6.index t 0 * 1000 ≤ (i 0).val ∧ (i 0).val < win0_6.index t 0 * 1000 + 1000; rw [e0, ht]; omega
  | ⟨1, _⟩ => show win0_6.index t 1 * 256 ≤ (i 1).val ∧ (i 1).val < win0_6.index t 1 * 256 + 256; rw [e1]; omega

/-- THE ARRAY after the region: the output function of the arrays the region found. -/
theorem arr_eq (c : Dev nD) : (dat0 (F := Ideal) V c).arrAt 6 cfg0.N = outArr V c :=
  (dat0 (F := Ideal) V c).arrAt_eq_of_cover 6 (outArr V c) (fun t _ => flushed_eq V c t) cover

/-- The output array after region 0 at (r, q): relu of the normalised aggregate-first pre-activation of row r of the
    arrays the region found, at column q. -/
theorem final (c : Dev nD) (r : Fin 100000) (q : Fin 256) :
    (dat0 (F := Ideal) V c).arrAt 6 cfg0.N (ix2 r q)
      = Spec.rrelu (Spec.rnormalize (Spec.rowAggFirst (fun t : Fin 128 => V c main_v16 (ix2 r t)) (fun t : Fin 128 => V c main_arg0 (ix2 r t))
          (V c main_v12 (ix2 r (0 : Fin 1))) (fun (t : Fin 128) (j : Fin 256) => V c main_v17 (ix2 t j)) (fun (t : Fin 128) (j : Fin 256) => V c main_v18 (ix2 t j))
          (fun j : Fin 256 => V c main_v19 (ix2 (0 : Fin 1) j)))) q := by
  rw [arr_eq]
  rfl

end Cert.KernelIdeal.Reg0

end
-- ==== Proof.Reg1.lean ====
/-
  Region 1: the plain projection, a grid of 100 row blocks.

  Point t of the grid multiplies rows [1000 t, 1000 t + 1000) of the node-indexed operand A (100000 × 256) by the
  whole weight matrix B (256 × 128) into the zero accumulator and stores the product as rows
  [1000 t, 1000 t + 1000) of the result. So after the last point the result array, read at (r, q), is
      Σ_k A (r, k) · B (k, q),
  the row r of A times B, entry q — whatever the arrays held when the region was entered.

  The steps: the contraction of the block product read at an index (the four coordinate facts of the product's
  operand indices, then the sum re-indexed by its one contraction coordinate); each block as rows of its array
  (a block's coordinate is block index × block extent + the coordinate inside the block); the block each point writes back
  as the block of ONE whole-array function; every row r lies in the block of point r / 1000.
-/
import proofs.«408524_j60352880443980_3_alg».proof.Proof.Gen.KernelIdeal.Frame
import proofs.«408524_j60352880443980_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg1

open Cert.KernelIdeal Cert.KernelIdeal.Gen

/-! ## The block product at an index -/

/-- The left operand's row coordinate is the output's row. -/
theorem lhs_0 (i : S1000x128.Idx) (q : dot_S1000x256_S256x128_S1000x128_1_0_0_1_n_n.contr.Idx) :
    (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
/-- The left operand's column coordinate is the contraction coordinate. -/
theorem lhs_1 (i : S1000x128.Idx) (q : dot_S1000x256_S256x128_S1000x128_1_0_0_1_n_n.contr.Idx) :
    (dot_S1000x256_S256x128_S1000x128_1_0_0_1_n_n.lhsIdx i q 1).val = (q ⟨0, by decide⟩).val :=
  dot_S1000x256_S256x128_S1000x128_1_0_0_1_n_n.lhsIdx_val_of_single rfl i q
/-- The right operand's row coordinate is the contraction coordinate. -/
theorem rhs_0 (i : S1000x128.Idx) (q : dot_S1000x256_S256x128_S1000x128_1_0_0_1_n_n.contr.Idx) :
    (dot_S1000x256_S256x128_S1000x128_1_0_0_1_n_n.rhsIdx i q 0).val = (q ⟨0, by decide⟩).val :=
  dot_S1000x256_S256x128_S1000x128_1_0_0_1_n_n.rhsIdx_val_of_single rfl i q
/-- The right operand's column coordinate is the output's column. -/
theorem rhs_1 (i : S1000x128.Idx) (q : dot_S1000x256_S256x128_S1000x128_1_0_0_1_n_n.contr.Idx) :
    (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- The body's payload at (p, q): row p of the first block times the second block, entry q. -/
theorem pay_apply (x0 : Vec Ideal S1000x256 .f32) (x1 : Vec Ideal S256x128 .f32) (p : Fin 1000) (q : Fin 128) :
    k1_pay1 (F := Ideal) x0 x1 (ix2 p q)
      = Spec.vm (fun t : Fin 256 => x0 (ix2 p t)) (fun (t : Fin 256) (j : Fin 128) => x1 (ix2 t j)) q := by
  unfold k1_pay1
  simp only [shapeCast_self, matmul]
  rw [Ideal.matmul_constant_zero_apply, ← Equiv.sum_comp (ValueIdx.contrEquiv1 dot_S1000x256_S256x128_S1000x128_1_0_0_1_n_n 256 rfl rfl).symm]
  unfold Spec.vm
  refine Finset.sum_congr rfl fun k _ => ?_
  have hk := ValueIdx.contrEquiv1_symm_val dot_S1000x256_S256x128_S1000x128_1_0_0_1_n_n 256 rfl rfl k
  have el : dot_S1000x256_S256x128_S1000x128_1_0_0_1_n_n.lhsIdx (ix2 p q) ((ValueIdx.contrEquiv1 dot_S1000x256_S256x128_S1000x128_1_0_0_1_n_n 256 rfl rfl).symm k) = ix2 p k := funext fun a => Fin.ext (by
    match a with
    | ⟨0, _⟩ => exact lhs_0 _ _
    | ⟨1, _⟩ => exact (lhs_1 _ _).trans hk)
  have er : dot_S1000x256_S256x128_S1000x128_1_0_0_1_n_n.rhsIdx (ix2 p q) ((ValueIdx.contrEquiv1 dot_S1000x256_S256x128_S1000x128_1_0_0_1_n_n 256 rfl rfl).symm k) = ix2 k q := funext fun a => Fin.ext (by
    match a with
    | ⟨0, _⟩ => exact (rhs_0 _ _).trans hk
    | ⟨1, _⟩ => exact rhs_1 _ _)
  rw [el, er]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node-indexed windows sit at block (t, 0), the weight window at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The result array as ONE function of the operand arrays: row (i 0) of A times B, entry (i 1). -/
abbrev G (A : S100000x256.Idx → EReal) (B : S256x128.Idx → EReal) : S100000x128.Idx → EReal :=
  fun i => Spec.vm (fun t : Fin 256 => A (ix2 (i 0) t)) (fun (t : Fin 256) (j : Fin 128) => B (ix2 t j)) (i 1)

/-- Row p of point t's block is row 1000 t + p of the array. -/
theorem row_lt (t : Fin cfg1.N) (p : Fin 1000) : 1000 * t.val + p.val < 100000 := by
  have h : t.val < 100 := lt_of_lt_of_eq t.isLt N_1
  have := p.isLt; omega

/-- The first window's block at point t, read at (p, k), is the array at (1000 t + p, k). -/
theorem iblk0_apply (c : Dev nD) (t : Fin cfg1.N) (p : Fin 1000) (k : Fin 256) :
    (iblk1 V c 0 t : Vec Ideal S1000x256 .f32) (ix2 p k)
      = (V c main_v20 : S100000x256.Idx → EReal) (ix2 ⟨1000 * t.val + p.val, row_lt t p⟩ k) := by
  obtain ⟨e0, e1, -⟩ := idx_facts t
  unfold iblk1
  rw [View.read_apply]
  show V c main_v20 _ = V c main_v20 _
  congr 1
  funext a; apply Fin.ext
  match a with
  | ⟨0, _⟩ => show win1_0.index t (0 : Fin 2) * 1000 + 1 * p.val = 1000 * t.val + p.val; rw [e0]; omega
  | ⟨1, _⟩ => show win1_0.index t (1 : Fin 2) * 256 + 1 * k.val = k.val; rw [e1]; omega

/-- The second window's block at every point is the whole weight array. -/
theorem iblk1_apply (c : Dev nD) (t : Fin cfg1.N) (k : Fin 256) (j : Fin 128) :
    (iblk1 V c 1 t : Vec Ideal S256x128 .f32) (ix2 k j) = (V c main_v21 : S256x128.Idx → EReal) (ix2 k j) := by
  obtain ⟨-, -, e2, e3, -⟩ := idx_facts t
  unfold iblk1
  rw [View.read_apply]
  show V c main_v21 _ = V c main_v21 _
  congr 1
  funext a; apply Fin.ext
  match a with
  | ⟨0, _⟩ => show win1_1.index t (0 : Fin 2) * 256 + 1 * k.val = k.val; rw [e2]; omega
  | ⟨1, _⟩ => show win1_1.index t (1 : Fin 2) * 128 + 1 * j.val = j.val; rw [e3]; omega

/-- The output window's block at point t sits at rows 1000 t … of the result array. -/
theorem emb2_apply (t : Fin cfg1.N) (p : Fin 1000) (q : Fin 128) :
    ((cfg1.win 2).blk t).view.emb (ix2 p q) = (ix2 ⟨1000 * t.val + p.val, row_lt t p⟩ q : S100000x128.Idx) := by
  obtain ⟨-, -, -, -, e4, e5⟩ := idx_facts t
  funext a; apply Fin.ext
  match a with
  | ⟨0, _⟩ => show win1_2.index t (0 : Fin 2) * 1000 + 1 * p.val = 1000 * t.val + p.val; rw [e4]; omega
  | ⟨1, _⟩ => show win1_2.index t (1 : Fin 2) * 128 + 1 * q.val = q.val; rw [e5]; omega

/-- WHAT POINT t WRITES BACK is block t of G of the operand arrays as the region finds them. -/
theorem flushed_eq (c : Dev nD) (t : Fin cfg1.N) :
    (dat1 (F := Ideal) V c).flushed 2 t
      = ((cfg1.win 2).blk t).view.read (Elt Ideal) (G (V c main_v20) (V c main_v21)) := by
  show (cfg1.win 2).cut (grid1.coords t) ((dat1 V c).after 2 t) = _
  rw [after1_2]
  unfold out1_2
  rw [View.canon_unit_zero hz]
  simp only [View.ld_unit_zero (S := S1000x256) hz, View.ld_unit_zero (S := S256x128) hz]
  funext j
  obtain ⟨p, q, rfl⟩ : ∃ (p : Fin 1000) (q : Fin 128), j = ix2 p q := ⟨j 0, j 1, eq_ix2 j⟩
  refine (pay_apply (iblk1 V c 0 t) (iblk1 V c 1 t) p q).trans ?_
  show _ = G (V c main_v20) (V c main_v21) (((cfg1.win 2).blk t).view.emb (ix2 p q))
  rw [emb2_apply t p q]
  show Spec.vm _ _ q = Spec.vm _ _ q
  congr 1
  · funext k; exact iblk0_apply V c t p k
  · funext k j; exact iblk1_apply V c t k j

/-- An index of the result array is in point t's block iff each coordinate is in the block's range on its axis. -/
theorem mem_blk (t : Fin cfg1.N) (i : S100000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v22).slice (win1_2.rect t)).set ↔ _
  rw [View.set_slice_whole, Rect.mem_set_unit]
  exact Iff.rfl

/-- Every index of the result array is in the block of the point its row names: row r is in block r / 1000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 1000 :=
    ⟨⟨(i 0).val / 1000, lt_of_lt_of_eq (by omega : (i 0).val / 1000 < 100) N_1.symm⟩, rfl⟩
  obtain ⟨-, -, -, -, e4, e5⟩ := idx_facts t
  refine ⟨t, flush1_2 t, ?_⟩
  rw [mem_blk]
  intro a
  match a with
  | ⟨0, _⟩ => show win1_2.index t (0 : Fin 2) * 1000 ≤ (i 0).val ∧ (i 0).val < win1_2.index t (0 : Fin 2) * 1000 + 1000; rw [e4, ht]; omega
  | ⟨1, _⟩ => show win1_2.index t (1 : Fin 2) * 128 ≤ (i 1).val ∧ (i 1).val < win1_2.index t (1 : Fin 2) * 128 + 128; rw [e5]; omega

/-- THE RESULT ARRAY after the region, read at (r, q): row r of the first operand times the weights, entry q. -/
theorem final (c : Dev nD) (r : Fin 100000) (q : Fin 128) :
    (dat1 (F := Ideal) V c).arrAt 2 cfg1.N (ix2 r q)
      = Spec.vm (fun t : Fin 256 => V c main_v20 (ix2 r t)) (fun (t : Fin 256) (j : Fin 128) => V c main_v21 (ix2 t j)) q := by
  rw [(dat1 V c).arrAt_eq_of_cover 2 (G (V c main_v20) (V c main_v21)) (fun t _ => flushed_eq V c t) cover]

end Cert.KernelIdeal.Reg1

end
-- ==== Proof.Reg2.lean ====
/-
  The first project-first layer's region, read as mathematics: after the region the output array holds, at (r, q),
  relu of the L2-normalised pre-activation row  (a_r · iv_r + h_r Wr) + b  of node r, where a is the neighbour sum of
  already projected rows, h the node's features, iv its reciprocal in-degree.

  The body's value at a block coordinate (p, q) is read operation by operation (the lane broadcasts of a column, the
  matrix product as a sum over the contraction index, the lane sum of squares); the block at grid point t is rows
  1000 t … 1000 t + 999 of each node-indexed array and the whole of the weight matrix and bias; the point r / 1000 covers row r.
-/
import proofs.«408524_j60352880443980_3_alg».proof.Proof.Gen.KernelIdeal.Frame
import proofs.«408524_j60352880443980_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Reg2
open Cert Cert.KernelIdeal Cert.KernelIdeal.Gen

/-! ## Layout and reduction operations of a row-blocked body, read at coordinates -/

/-- A column [a,1] broadcast along the lanes to [a,b] reads, at (p, q), the column's entry of row p. -/
theorem bcastCol_apply {a b : ℕ} {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a,1] reads, at (p, z), the vector's entry p. -/
theorem castCol_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- The sum over the lanes of a [a,b] block, read at row p: the sum of the row's entries. -/
theorem laneSum_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v ?_
  funext c; apply Fin.ext
  match c with
  | ⟨0, _⟩ => rfl
  | ⟨1, _⟩ => rfl

/-- The maximum over the lanes of a [a,b] block, read at row p: the fold of max over the row from the accumulator's value. -/
theorem laneMax_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  refine congrArg (fun f => (Finset.univ : Finset (Fin b)).fold max (Ideal.ofBits .f32 0xFF800000#32) f) ?_
  funext k
  refine congrArg v ?_
  funext c; apply Fin.ext
  match c with
  | ⟨0, _⟩ => rfl
  | ⟨1, _⟩ => rfl

/-! ## The body's matrix product read at coordinates -/

theorem lhs_0 (i : S1000x128.Idx) (q : dot_S1000x256_S256x128_S1000x128_1_0_0_1_n_n.contr.Idx) :
    (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
theorem lhs_1 (i : S1000x128.Idx) (q : dot_S1000x256_S256x128_S1000x128_1_0_0_1_n_n.contr.Idx) :
    (dot_S1000x256_S256x128_S1000x128_1_0_0_1_n_n.lhsIdx i q 1).val = (q ⟨0, by decide⟩).val :=
  dot_S1000x256_S256x128_S1000x128_1_0_0_1_n_n.lhsIdx_val_of_single rfl i q
theorem rhs_0 (i : S1000x128.Idx) (q : dot_S1000x256_S256x128_S1000x128_1_0_0_1_n_n.contr.Idx) :
    (dot_S1000x256_S256x128_S1000x128_1_0_0_1_n_n.rhsIdx i q 0).val = (q ⟨0, by decide⟩).val :=
  dot_S1000x256_S256x128_S1000x128_1_0_0_1_n_n.rhsIdx_val_of_single rfl i q
theorem rhs_1 (i : S1000x128.Idx) (q : dot_S1000x256_S256x128_S1000x128_1_0_0_1_n_n.contr.Idx) :
    (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- The block's matrix product into the zero accumulator, at (p, q): row p of the left factor times column q of the right. -/
theorem matmul_apply (l : FVec Ideal S1000x256 .f32) (r : FVec Ideal S256x128 .f32) (p : Fin 1000) (q : Fin 128) :
    matmul dot_S1000x256_S256x128_S1000x128_1_0_0_1_n_n (some .fp32) l r (constant (F := Ideal) S1000x128 .f32 0x00000000#32) (ix2 p q)
      = ∑ k : Fin 256, l (ix2 p k) * r (ix2 k q) := by
  refine (Ideal.matmul_constant_zero_apply dot_S1000x256_S256x128_S1000x128_1_0_0_1_n_n (some .fp32) l r (ix2 p q)).trans ?_
  rw [← Equiv.sum_comp (ValueIdx.contrEquiv1 dot_S1000x256_S256x128_S1000x128_1_0_0_1_n_n 256 rfl rfl).symm]
  refine Finset.sum_congr rfl fun k _ => ?_
  have hk := ValueIdx.contrEquiv1_symm_val dot_S1000x256_S256x128_S1000x128_1_0_0_1_n_n 256 rfl rfl k
  have el : dot_S1000x256_S256x128_S1000x128_1_0_0_1_n_n.lhsIdx (ix2 p q) ((ValueIdx.contrEquiv1 dot_S1000x256_S256x128_S1000x128_1_0_0_1_n_n 256 rfl rfl).symm k) = ix2 p k := funext fun a => Fin.ext (by
    match a with
    | ⟨0, _⟩ => exact lhs_0 _ _
    | ⟨1, _⟩ => exact (lhs_1 _ _).trans hk)
  have er : dot_S1000x256_S256x128_S1000x128_1_0_0_1_n_n.rhsIdx (ix2 p q) ((ValueIdx.contrEquiv1 dot_S1000x256_S256x128_S1000x128_1_0_0_1_n_n 256 rfl rfl).symm k) = ix2 k q := funext fun a => Fin.ext (by
    match a with
    | ⟨0, _⟩ => exact (rhs_0 _ _).trans hk
    | ⟨1, _⟩ => exact rhs_1 _ _)
  rw [el, er]

/-! ## The body's payload read at coordinates -/

/-- The pre-activation block: (a · iv + h Wr) + b over the loaded blocks, as the body computes it. -/
def pre (x0 : Vec Ideal S1000x128 .f32) (x2 : Vec Ideal S1000x1 .f32) (x1 : Vec Ideal S1000x256 .f32) (x3 : Vec Ideal S256x128 .f32) (x4 : Vec Ideal S1x128 .f32) : FVec Ideal S1000x128 .f32 :=
  addf (addf (mulf (shapeCast S1000x128 x0 shapeCasts_S1000x128_S1000x128 : FVec Ideal S1000x128 .f32)
        (broadcastTo S1000x128 (shapeCast S1000x1 x2 shapeCasts_S1000x1_S1000x1 : FVec Ideal S1000x1 .f32) broadcasts_S1000x1_S1000x128))
      (matmul dot_S1000x256_S256x128_S1000x128_1_0_0_1_n_n (some .fp32) (shapeCast S1000x256 x1 shapeCasts_S1000x256_S1000x256 : FVec Ideal S1000x256 .f32)
        (shapeCast S256x128 x3 shapeCasts_S256x128_S256x128 : FVec Ideal S256x128 .f32) (constant (F := Ideal) S1000x128 .f32 0x00000000#32)))
    (broadcastTo S1000x128 (shapeCast S1x128 x4 shapeCasts_S1x128_S1x128 : FVec Ideal S1x128 .f32) broadcasts_S1x128_S1000x128)

/-- The payload is relu of the pre-activation block divided by its rows' floored norms. -/
theorem pay_eq (x0 : Vec Ideal S1000x128 .f32) (x2 : Vec Ideal S1000x1 .f32) (x1 : Vec Ideal S1000x256 .f32) (x3 : Vec Ideal S256x128 .f32) (x4 : Vec Ideal S1x128 .f32) :
    k2_pay1 (F := Ideal) x0 x2 x1 x3 x4
      = maximumf (divf (pre x0 x2 x1 x3 x4)
          (broadcastTo S1000x128 (maximumf (sqrt (shapeCast S1000x1
              (multiReduction .add [1] S1000 (mulf (pre x0 x2 x1 x3 x4) (pre x0 x2 x1 x3 x4)) 0x00000000#32 reduces_S1000x128_S1000 (.inl rfl) rfl)
              shapeCasts_S1000_S1000x1 : FVec Ideal S1000x1 .f32))
            (broadcast S1000x1 (Scalar.ofBits (F := Ideal) .f32 0x2B8CBCCC#32))) broadcasts_S1000x1_S1000x128))
        (broadcast S1000x128 (Scalar.ofBits (F := Ideal) .f32 0x00000000#32)) := rfl

/-- The pre-activation block at (p, j) is the project-first row of the loaded rows. -/
theorem pre_apply (x0 : Vec Ideal S1000x128 .f32) (x2 : Vec Ideal S1000x1 .f32) (x1 : Vec Ideal S1000x256 .f32) (x3 : Vec Ideal S256x128 .f32) (x4 : Vec Ideal S1x128 .f32) (p : Fin 1000) (j : Fin 128) :
    pre x0 x2 x1 x3 x4 (ix2 p j)
      = Spec.rowProjFirst (fun j : Fin 128 => x0 (ix2 p j)) (fun t : Fin 256 => x1 (ix2 p t)) (x2 (ix2 p (0 : Fin 1)))
          (fun (t : Fin 256) (j : Fin 128) => x3 (ix2 t j)) (fun j : Fin 128 => x4 (ix2 (0 : Fin 1) j)) j := by
  unfold pre
  simp only [shapeCast_self]
  rw [addf_apply, addf_apply, mulf_apply, bcastCol_apply, matmul_apply, broadcastTo_1b_ab_apply]
  rfl

/-- The payload at (p, q): relu of the normalised project-first row. -/
theorem pay_apply (x0 : Vec Ideal S1000x128 .f32) (x2 : Vec Ideal S1000x1 .f32) (x1 : Vec Ideal S1000x256 .f32) (x3 : Vec Ideal S256x128 .f32) (x4 : Vec Ideal S1x128 .f32) (p : Fin 1000) (q : Fin 128) :
    k2_pay1 (F := Ideal) x0 x2 x1 x3 x4 (ix2 p q)
      = Spec.rrelu (Spec.rnormalize (Spec.rowProjFirst (fun j : Fin 128 => x0 (ix2 p j)) (fun t : Fin 256 => x1 (ix2 p t)) (x2 (ix2 p (0 : Fin 1)))
          (fun (t : Fin 256) (j : Fin 128) => x3 (ix2 t j)) (fun j : Fin 128 => x4 (ix2 (0 : Fin 1) j)))) q := by
  have hs : multiReduction .add [1] S1000 (mulf (pre x0 x2 x1 x3 x4) (pre x0 x2 x1 x3 x4)) 0x00000000#32 reduces_S1000x128_S1000 (.inl rfl) rfl (ix1 p)
      = ∑ k : Fin 128, Spec.rowProjFirst (fun j : Fin 128 => x0 (ix2 p j)) (fun t : Fin 256 => x1 (ix2 p t)) (x2 (ix2 p (0 : Fin 1)))
          (fun (t : Fin 256) (j : Fin 128) => x3 (ix2 t j)) (fun j : Fin 128 => x4 (ix2 (0 : Fin 1) j)) k
        * Spec.rowProjFirst (fun j : Fin 128 => x0 (ix2 p j)) (fun t : Fin 256 => x1 (ix2 p t)) (x2 (ix2 p (0 : Fin 1)))
          (fun (t : Fin 256) (j : Fin 128) => x3 (ix2 t j)) (fun j : Fin 128 => x4 (ix2 (0 : Fin 1) j)) k :=
    (laneSum_apply (mulf (pre x0 x2 x1 x3 x4) (pre x0 x2 x1 x3 x4)) reduces_S1000x128_S1000 (.inl rfl) rfl p).trans
      (Finset.sum_congr rfl fun k _ => by rw [mulf_apply, pre_apply])
  rw [pay_eq]
  rw [maximumf_apply, divf_apply, bcastCol_apply, maximumf_apply]
  show max (Ideal.div (pre x0 x2 x1 x3 x4 (ix2 p q)) (max (Ideal.sqrt (shapeCast S1000x1 _ shapeCasts_S1000_S1000x1 (ix2 p (0 : Fin 1)))) (Ideal.ofBits .f32 0x2B8CBCCC#32))) (Ideal.ofBits .f32 0x00000000#32) = _
  rw [castCol_apply, hs, pre_apply, Ideal.ofBits_zero_f32]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Two blocks of a rank-2 shape agree when they agree at every pair of coordinates. -/
theorem ext2 {a b : ℕ} {α : Type} (f g : (⟨2, ![a, b]⟩ : Shape).Idx → α) (h : ∀ (p : Fin a) (q : Fin b), f (ix2 p q) = g (ix2 p q)) : f = g :=
  funext fun y => by rw [eq_ix2 y]; exact h _ _

/-- Row r of the layer's output: relu of the normalised project-first row of the input arrays' rows r. -/
def row (c : Dev nD) (r : Fin 100000) (q : Fin 128) : EReal :=
  Spec.rrelu (Spec.rnormalize (Spec.rowProjFirst (fun j : Fin 128 => V c main_v26 (ix2 r j)) (fun t : Fin 256 => V c main_v20 (ix2 r t))
    (V c main_v12 (ix2 r (0 : Fin 1))) (fun (t : Fin 256) (j : Fin 128) => V c main_v27 (ix2 t j)) (fun j : Fin 128 => V c main_v28 (ix2 (0 : Fin 1) j)))) q

/-- The layer's output array as one function of the input arrays. -/
def G (c : Dev nD) : S100000x128.Idx → EReal := fun i => row V c (i 0) (i 1)

/-- The printed index maps over the grid: node-indexed windows sit at block (t, 0), weights and bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block t of the neighbour-sum window is rows 1000 t … 1000 t + 999 of its array. -/
theorem blk0_apply (c : Dev nD) (t : Fin cfg2.N) (p : Fin 1000) (j : Fin 128) (r : Fin 100000) (hr : r.val = 1000 * t.val + p.val) :
    (iblk2 V c 0 t : Vec Ideal S1000x128 .f32) (ix2 p j) = V c main_v26 (ix2 r j) := by
  obtain ⟨e0, e1, -⟩ := idx_facts t
  unfold iblk2
  rw [View.read_apply]
  show V c main_v26 _ = V c main_v26 _
  refine congrArg (V c main_v26) (funext fun a => Fin.ext ?_)
  match a with
  | ⟨0, _⟩ => show win2_0.index t (0 : Fin 2) * 1000 + 1 * p.val = r.val; rw [e0, hr]; omega
  | ⟨1, _⟩ => show win2_0.index t (1 : Fin 2) * 128 + 1 * j.val = j.val; rw [e1]; omega

/-- Block t of the feature window is rows 1000 t … 1000 t + 999 of its array. -/
theorem blk1_apply (c : Dev nD) (t : Fin cfg2.N) (p : Fin 1000) (j : Fin 256) (r : Fin 100000) (hr : r.val = 1000 * t.val + p.val) :
    (iblk2 V c 1 t : Vec Ideal S1000x256 .f32) (ix2 p j) = V c main_v20 (ix2 r j) := by
  obtain ⟨-, -, e0, e1, -⟩ := idx_facts t
  unfold iblk2
  rw [View.read_apply]
  show V c main_v20 _ = V c main_v20 _
  refine congrArg (V c main_v20) (funext fun a => Fin.ext ?_)
  match a with
  | ⟨0, _⟩ => show win2_1.index t (0 : Fin 2) * 1000 + 1 * p.val = r.val; rw [e0, hr]; omega
  | ⟨1, _⟩ => show win2_1.index t (1 : Fin 2) * 256 + 1 * j.val = j.val; rw [e1]; omega

/-- Block t of the reciprocal-degree window is rows 1000 t … 1000 t + 999 of its column. -/
theorem blk2_apply (c : Dev nD) (t : Fin cfg2.N) (p : Fin 1000) (j : Fin 1) (r : Fin 100000) (hr : r.val = 1000 * t.val + p.val) :
    (iblk2 V c 2 t : Vec Ideal S1000x1 .f32) (ix2 p j) = V c main_v12 (ix2 r j) := by
  obtain ⟨-, -, -, -, e0, e1, -⟩ := idx_facts t
  unfold iblk2
  rw [View.read_apply]
  show V c main_v12 _ = V c main_v12 _
  refine congrArg (V c main_v12) (funext fun a => Fin.ext ?_)
  match a with
  | ⟨0, _⟩ => show win2_2.index t (0 : Fin 2) * 1000 + 1 * p.val = r.val; rw [e0, hr]; omega
  | ⟨1, _⟩ => show win2_2.index t (1 : Fin 2) * 1 + 1 * j.val = j.val; rw [e1]; omega

/-- The weight window's block is the whole matrix at every point. -/
theorem blk3_apply (c : Dev nD) (t : Fin cfg2.N) (k : Fin 256) (j : Fin 128) :
    (iblk2 V c 3 t : Vec Ideal S256x128 .f32) (ix2 k j) = V c main_v27 (ix2 k j) := by
  obtain ⟨-, -, -, -, -, -, e0, e1, -⟩ := idx_facts t
  unfold iblk2
  rw [View.read_apply]
  show V c main_v27 _ = V c main_v27 _
  refine congrArg (V c main_v27) (funext fun a => Fin.ext ?_)
  match a with
  | ⟨0, _⟩ => show win2_3.index t (0 : Fin 2) * 256 + 1 * k.val = k.val; rw [e0]; omega
  | ⟨1, _⟩ => show win2_3.index t (1 : Fin 2) * 128 + 1 * j.val = j.val; rw [e1]; omega

/-- The bias window's block is the whole row at every point. -/
theorem blk4_apply (c : Dev nD) (t : Fin cfg2.N) (k : Fin 1) (j : Fin 128) :
    (iblk2 V c 4 t : Vec Ideal S1x128 .f32) (ix2 k j) = V c main_v28 (ix2 k j) := by
  obtain ⟨-, -, -, -, -, -, -, -, e0, e1, -⟩ := idx_facts t
  unfold iblk2
  rw [View.read_apply]
  show V c main_v28 _ = V c main_v28 _
  refine congrArg (V c main_v28) (funext fun a => Fin.ext ?_)
  match a with
  | ⟨0, _⟩ => show win2_4.index t (0 : Fin 2) * 1 + 1 * k.val = k.val; rw [e0]; omega
  | ⟨1, _⟩ => show win2_4.index t (1 : Fin 2) * 128 + 1 * j.val = j.val; rw [e1]; omega

/-- What point t writes back is block t of G. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S1000x128) hz, View.ld_unit_zero (S := S1000x1) hz, View.ld_unit_zero (S := S1000x256) hz,
    View.ld_unit_zero (S := S256x128) hz, View.ld_unit_zero (S := S1x128) hz]
  refine ext2 (a := 1000) (b := 128) _ _ fun p q => ?_
  have hN : cfg2.N = 100 := N_2
  have ht : t.val < 100 := hN ▸ t.isLt
  have hr : 1000 * t.val + p.val < 100000 := by have := p.isLt; omega
  refine (pay_apply (iblk2 V c 0 t) (iblk2 V c 2 t) (iblk2 V c 1 t) (iblk2 V c 3 t) (iblk2 V c 4 t) p q).trans ?_
  obtain ⟨-, -, -, -, -, -, -, -, -, -, e0, e1⟩ := idx_facts t
  have hemb : ((cfg2.win 5).blk t).view.emb (ix2 p q) = (ix2 (⟨1000 * t.val + p.val, hr⟩ : Fin 100000) q : S100000x128.Idx) := by
    funext a; apply Fin.ext
    match a with
    | ⟨0, _⟩ => show win2_5.index t (0 : Fin 2) * 1000 + 1 * p.val = 1000 * t.val + p.val; rw [e0]; omega
    | ⟨1, _⟩ => show win2_5.index t (1 : Fin 2) * 128 + 1 * q.val = q.val; rw [e1]; omega
  rw [View.read_apply, hemb]
  show _ = row V c ⟨1000 * t.val + p.val, hr⟩ q
  unfold row
  simp only [blk0_apply V c t p _ ⟨1000 * t.val + p.val, hr⟩ rfl, blk1_apply V c t p _ ⟨1000 * t.val + p.val, hr⟩ rfl,
    blk2_apply V c t p _ ⟨1000 * t.val + p.val, hr⟩ rfl, blk3_apply V c t, blk4_apply V c t]

/-- An index of the array is in point t's block iff each coordinate is in the block's range. -/
theorem mem_blk (t : Fin cfg2.N) (i : S100000x128.Idx) :
    i ∈ ((cfg2.win 5).blk t).view.set ↔ ∀ a : Fin 2, win2_5.index t a * S1000x128.size a ≤ (i a).val ∧ (i a).val < win2_5.index t a * S1000x128.size a + S1000x128.size a := by
  show i ∈ ((View.whole main_v29).slice (win2_5.rect t)).set ↔ _
  rw [View.set_slice_whole, Rect.mem_set_unit]
  exact Iff.rfl

/-- Every row lies in the block of the point r / 1000. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 100 := N_2
  let t : Fin cfg2.N := ⟨(i 0).val / 1000, by rw [hN]; omega⟩
  obtain ⟨-, -, -, -, -, -, -, -, -, -, e0, e1⟩ := idx_facts t
  have e0' : win2_5.index t (0 : Fin 2) = (i 0).val / 1000 := e0
  refine ⟨t, flush2_5 t, ?_⟩
  rw [mem_blk]
  intro a
  match a with
  | ⟨0, _⟩ => show win2_5.index t (0 : Fin 2) * 1000 ≤ (i 0).val ∧ (i 0).val < win2_5.index t (0 : Fin 2) * 1000 + 1000; rw [e0']; omega
  | ⟨1, _⟩ => show win2_5.index t (1 : Fin 2) * 128 ≤ (i 1).val ∧ (i 1).val < win2_5.index t (1 : Fin 2) * 128 + 128; rw [e1]; omega

/-- The output array after the region is G of the input arrays. -/
theorem arr_eq (c : Dev nD) : (dat2 V c).arrAt 5 cfg2.N = G V c :=
  (dat2 V c).arrAt_eq_of_cover 5 (G V c) (fun t _ => flushed_eq V c t) (cover)

/-- THE REGION'S OUTPUT at (r, q): relu of the normalised project-first row of the input arrays' rows r. -/
theorem final (c : Dev nD) (r : Fin 100000) (q : Fin 128) :
    (dat2 (F := Ideal) V c).arrAt 5 cfg2.N (ix2 r q)
      = Spec.rrelu (Spec.rnormalize (Spec.rowProjFirst (fun j : Fin 128 => V c main_v26 (ix2 r j)) (fun t : Fin 256 => V c main_v20 (ix2 r t))
          (V c main_v12 (ix2 r (0 : Fin 1))) (fun (t : Fin 256) (j : Fin 128) => V c main_v27 (ix2 t j)) (fun j : Fin 128 => V c main_v28 (ix2 (0 : Fin 1) j)))) q := by
  rw [arr_eq]
  rfl

end Cert.KernelIdeal.Reg2

end
-- ==== Proof.Reg3.lean ====
/-
  Region 3: the second plain projection, a grid of 100 row blocks.

  Point t of the grid multiplies rows [1000 t, 1000 t + 1000) of the node-indexed operand A (100000 × 128) by the
  whole weight matrix B (128 × 2) into the zero accumulator and stores the product as rows
  [1000 t, 1000 t + 1000) of the result. So after the last point the result array, read at (r, q), is
      Σ_k A (r, k) · B (k, q),
  the row r of A times B, entry q — whatever the arrays held when the region was entered.

  The steps: the contraction of the block product read at an index (the four coordinate facts of the product's
  operand indices, then the sum re-indexed by its one contraction coordinate); each block as rows of its array
  (a block's coordinate is block index × block extent + the coordinate inside the block); the block each point writes back
  as the block of ONE whole-array function; every row r lies in the block of point r / 1000.
-/
import proofs.«408524_j60352880443980_3_alg».proof.Proof.Gen.KernelIdeal.Frame
import proofs.«408524_j60352880443980_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg3

open Cert.KernelIdeal Cert.KernelIdeal.Gen

/-! ## The block product at an index -/

/-- The left operand's row coordinate is the output's row. -/
theorem lhs_0 (i : S1000x2.Idx) (q : dot_S1000x128_S128x2_S1000x2_1_0_0_1_n_n.contr.Idx) :
    (dot_S1000x128_S128x2_S1000x2_1_0_0_1_n_n.lhsIdx i q 0).val = (i 0).val := by
  unfold DotDims.lhsIdx
  rw [dif_neg (show ¬(0 : Fin S1000x128.rank) ∈ dot_S1000x128_S128x2_S1000x2_1_0_0_1_n_n.lhsBatch by decide), dif_pos (show (0 : Fin S1000x128.rank) ∈ dot_S1000x128_S128x2_S1000x2_1_0_0_1_n_n.lhsNonContracting by decide)]
  rfl
/-- The left operand's column coordinate is the contraction coordinate. -/
theorem lhs_1 (i : S1000x2.Idx) (q : dot_S1000x128_S128x2_S1000x2_1_0_0_1_n_n.contr.Idx) :
    (dot_S1000x128_S128x2_S1000x2_1_0_0_1_n_n.lhsIdx i q 1).val = (q ⟨0, by decide⟩).val :=
  dot_S1000x128_S128x2_S1000x2_1_0_0_1_n_n.lhsIdx_val_of_single rfl i q
/-- The right operand's row coordinate is the contraction coordinate. -/
theorem rhs_0 (i : S1000x2.Idx) (q : dot_S1000x128_S128x2_S1000x2_1_0_0_1_n_n.contr.Idx) :
    (dot_S1000x128_S128x2_S1000x2_1_0_0_1_n_n.rhsIdx i q 0).val = (q ⟨0, by decide⟩).val :=
  dot_S1000x128_S128x2_S1000x2_1_0_0_1_n_n.rhsIdx_val_of_single rfl i q
/-- The right operand's column coordinate is the output's column. -/
theorem rhs_1 (i : S1000x2.Idx) (q : dot_S1000x128_S128x2_S1000x2_1_0_0_1_n_n.contr.Idx) :
    (dot_S1000x128_S128x2_S1000x2_1_0_0_1_n_n.rhsIdx i q 1).val = (i 1).val := by
  unfold DotDims.rhsIdx
  rw [dif_neg (show ¬(1 : Fin S128x2.rank) ∈ dot_S1000x128_S128x2_S1000x2_1_0_0_1_n_n.rhsBatch by decide), dif_pos (show (1 : Fin S128x2.rank) ∈ dot_S1000x128_S128x2_S1000x2_1_0_0_1_n_n.rhsNonContracting by decide)]
  rfl

/-- The body's payload at (p, q): row p of the first block times the second block, entry q. -/
theorem pay_apply (x0 : Vec Ideal S1000x128 .f32) (x1 : Vec Ideal S128x2 .f32) (p : Fin 1000) (q : Fin 2) :
    k3_pay1 (F := Ideal) x0 x1 (ix2 p q)
      = Spec.vm (fun t : Fin 128 => x0 (ix2 p t)) (fun (t : Fin 128) (j : Fin 2) => x1 (ix2 t j)) q := by
  unfold k3_pay1
  simp only [shapeCast_self, matmul]
  rw [Ideal.matmul_constant_zero_apply, ← Equiv.sum_comp (ValueIdx.contrEquiv1 dot_S1000x128_S128x2_S1000x2_1_0_0_1_n_n 128 rfl rfl).symm]
  unfold Spec.vm
  refine Finset.sum_congr rfl fun k _ => ?_
  have hk := ValueIdx.contrEquiv1_symm_val dot_S1000x128_S128x2_S1000x2_1_0_0_1_n_n 128 rfl rfl k
  have el : dot_S1000x128_S128x2_S1000x2_1_0_0_1_n_n.lhsIdx (ix2 p q) ((ValueIdx.contrEquiv1 dot_S1000x128_S128x2_S1000x2_1_0_0_1_n_n 128 rfl rfl).symm k) = ix2 p k := funext fun a => Fin.ext (by
    match a with
    | ⟨0, _⟩ => exact lhs_0 _ _
    | ⟨1, _⟩ => exact (lhs_1 _ _).trans hk)
  have er : dot_S1000x128_S128x2_S1000x2_1_0_0_1_n_n.rhsIdx (ix2 p q) ((ValueIdx.contrEquiv1 dot_S1000x128_S128x2_S1000x2_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node-indexed windows sit at block (t, 0), the weight window at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The result array as ONE function of the operand arrays: row (i 0) of A times B, entry (i 1). -/
abbrev G (A : S100000x128.Idx → EReal) (B : S128x2.Idx → EReal) : S100000x2.Idx → EReal :=
  fun i => Spec.vm (fun t : Fin 128 => A (ix2 (i 0) t)) (fun (t : Fin 128) (j : Fin 2) => B (ix2 t j)) (i 1)

/-- Row p of point t's block is row 1000 t + p of the array. -/
theorem row_lt (t : Fin cfg3.N) (p : Fin 1000) : 1000 * t.val + p.val < 100000 := by
  have h : t.val < 100 := lt_of_lt_of_eq t.isLt N_3
  have := p.isLt; omega

/-- The first window's block at point t, read at (p, k), is the array at (1000 t + p, k). -/
theorem iblk0_apply (c : Dev nD) (t : Fin cfg3.N) (p : Fin 1000) (k : Fin 128) :
    (iblk3 V c 0 t : Vec Ideal S1000x128 .f32) (ix2 p k)
      = (V c main_v29 : S100000x128.Idx → EReal) (ix2 ⟨1000 * t.val + p.val, row_lt t p⟩ k) := by
  obtain ⟨e0, e1, -⟩ := idx_facts t
  unfold iblk3
  rw [View.read_apply]
  show V c main_v29 _ = V c main_v29 _
  congr 1
  funext a; apply Fin.ext
  match a with
  | ⟨0, _⟩ => show win3_0.index t (0 : Fin 2) * 1000 + 1 * p.val = 1000 * t.val + p.val; rw [e0]; omega
  | ⟨1, _⟩ => show win3_0.index t (1 : Fin 2) * 128 + 1 * k.val = k.val; rw [e1]; omega

/-- The second window's block at every point is the whole weight array. -/
theorem iblk1_apply (c : Dev nD) (t : Fin cfg3.N) (k : Fin 128) (j : Fin 2) :
    (iblk3 V c 1 t : Vec Ideal S128x2 .f32) (ix2 k j) = (V c main_v30 : S128x2.Idx → EReal) (ix2 k j) := by
  obtain ⟨-, -, e2, e3, -⟩ := idx_facts t
  unfold iblk3
  rw [View.read_apply]
  show V c main_v30 _ = V c main_v30 _
  congr 1
  funext a; apply Fin.ext
  match a with
  | ⟨0, _⟩ => show win3_1.index t (0 : Fin 2) * 128 + 1 * k.val = k.val; rw [e2]; omega
  | ⟨1, _⟩ => show win3_1.index t (1 : Fin 2) * 2 + 1 * j.val = j.val; rw [e3]; omega

/-- The output window's block at point t sits at rows 1000 t … of the result array. -/
theorem emb2_apply (t : Fin cfg3.N) (p : Fin 1000) (q : Fin 2) :
    ((cfg3.win 2).blk t).view.emb (ix2 p q) = (ix2 ⟨1000 * t.val + p.val, row_lt t p⟩ q : S100000x2.Idx) := by
  obtain ⟨-, -, -, -, e4, e5⟩ := idx_facts t
  funext a; apply Fin.ext
  match a with
  | ⟨0, _⟩ => show win3_2.index t (0 : Fin 2) * 1000 + 1 * p.val = 1000 * t.val + p.val; rw [e4]; omega
  | ⟨1, _⟩ => show win3_2.index t (1 : Fin 2) * 2 + 1 * q.val = q.val; rw [e5]; omega

/-- WHAT POINT t WRITES BACK is block t of G of the operand arrays as the region finds them. -/
theorem flushed_eq (c : Dev nD) (t : Fin cfg3.N) :
    (dat3 (F := Ideal) V c).flushed 2 t
      = ((cfg3.win 2).blk t).view.read (Elt Ideal) (G (V c main_v29) (V c main_v30)) := by
  show (cfg3.win 2).cut (grid3.coords t) ((dat3 V c).after 2 t) = _
  rw [after3_2]
  unfold out3_2
  rw [View.canon_unit_zero hz]
  simp only [View.ld_unit_zero (S := S1000x128) hz, View.ld_unit_zero (S := S128x2) hz]
  funext j
  obtain ⟨p, q, rfl⟩ : ∃ (p : Fin 1000) (q : Fin 2), j = ix2 p q := ⟨j 0, j 1, eq_ix2 j⟩
  refine (pay_apply (iblk3 V c 0 t) (iblk3 V c 1 t) p q).trans ?_
  show _ = G (V c main_v29) (V c main_v30) (((cfg3.win 2).blk t).view.emb (ix2 p q))
  rw [emb2_apply t p q]
  show Spec.vm _ _ q = Spec.vm _ _ q
  congr 1
  · funext k; exact iblk0_apply V c t p k
  · funext k j; exact iblk1_apply V c t k j

/-- An index of the result array is in point t's block iff each coordinate is in the block's range on its axis. -/
theorem mem_blk (t : Fin cfg3.N) (i : S100000x2.Idx) :
    i ∈ ((cfg3.win 2).blk t).view.set ↔ ∀ a : Fin 2, win3_2.index t a * S1000x2.size a ≤ (i a).val ∧ (i a).val < win3_2.index t a * S1000x2.size a + S1000x2.size a := by
  show i ∈ ((View.whole main_v31).slice (win3_2.rect t)).set ↔ _
  rw [View.set_slice_whole, Rect.mem_set_unit]
  exact Iff.rfl

/-- Every index of the result array is in the block of the point its row names: row r is in block r / 1000. -/
theorem cover (i : S100000x2.Idx) :
    ∃ t : Fin cfg3.N, (cfg3.win 2).flush t = true ∧ i ∈ ((cfg3.win 2).blk t).view.set := by
  have hi0 : (i 0).val < 100000 := (i 0).isLt
  have hi1 : (i 1).val < 2 := (i 1).isLt
  obtain ⟨t, ht⟩ : ∃ t : Fin cfg3.N, t.val = (i 0).val / 1000 :=
    ⟨⟨(i 0).val / 1000, lt_of_lt_of_eq (by omega : (i 0).val / 1000 < 100) N_3.symm⟩, rfl⟩
  obtain ⟨-, -, -, -, e4, e5⟩ := idx_facts t
  refine ⟨t, flush3_2 t, ?_⟩
  rw [mem_blk]
  intro a
  match a with
  | ⟨0, _⟩ => show win3_2.index t (0 : Fin 2) * 1000 ≤ (i 0).val ∧ (i 0).val < win3_2.index t (0 : Fin 2) * 1000 + 1000; rw [e4, ht]; omega
  | ⟨1, _⟩ => show win3_2.index t (1 : Fin 2) * 2 ≤ (i 1).val ∧ (i 1).val < win3_2.index t (1 : Fin 2) * 2 + 2; rw [e5]; omega

/-- THE RESULT ARRAY after the region, read at (r, q): row r of the first operand times the weights, entry q. -/
theorem final (c : Dev nD) (r : Fin 100000) (q : Fin 2) :
    (dat3 (F := Ideal) V c).arrAt 2 cfg3.N (ix2 r q)
      = Spec.vm (fun t : Fin 128 => V c main_v29 (ix2 r t)) (fun (t : Fin 128) (j : Fin 2) => V c main_v30 (ix2 t j)) q := by
  rw [(dat3 V c).arrAt_eq_of_cover 2 (G (V c main_v29) (V c main_v30)) (fun t _ => flushed_eq V c t) cover]

end Cert.KernelIdeal.Reg3

end
-- ==== Proof.Reg4.lean ====
/-
  The second project-first layer's region, read as mathematics: after the region the output array holds, at (r, q),
  the log-softmax, in the spelling  y_q − (M + log Σ_j exp(y_j − M))  with M the row maximum folded from −∞, of the
  L2-normalised pre-activation row  y = normalise((a_r · iv_r + h_r Wr) + b)  of node r, where a is the neighbour sum of
  already projected rows, h the node's hidden features, iv its reciprocal in-degree.

  The body's value at a block coordinate (p, q) is read operation by operation (the lane broadcasts of a column, the
  matrix product as a sum over the contraction index, the lane sums, the lane maximum); the block at grid point t is rows
  1000 t … 1000 t + 999 of each node-indexed array and the whole of the weight matrix and bias; the point r / 1000 covers row r.
-/
import proofs.«408524_j60352880443980_3_alg».proof.Proof.Gen.KernelIdeal.Frame
import proofs.«408524_j60352880443980_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Reg4
open Cert Cert.KernelIdeal Cert.KernelIdeal.Gen

/-! ## Layout and reduction operations of a row-blocked body, read at coordinates -/

/-- A column [a,1] broadcast along the lanes to [a,b] reads, at (p, q), the column's entry of row p. -/
theorem bcastCol_apply {a b : ℕ} {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a,1] reads, at (p, z), the vector's entry p. -/
theorem castCol_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- The sum over the lanes of a [a,b] block, read at row p: the sum of the row's entries. -/
theorem laneSum_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v ?_
  funext c; apply Fin.ext
  match c with
  | ⟨0, _⟩ => rfl
  | ⟨1, _⟩ => rfl

/-- The maximum over the lanes of a [a,b] block, read at row p: the fold of max over the row from the accumulator's value. -/
theorem laneMax_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  refine congrArg (fun f => (Finset.univ : Finset (Fin b)).fold max (Ideal.ofBits .f32 0xFF800000#32) f) ?_
  funext k
  refine congrArg v ?_
  funext c; apply Fin.ext
  match c with
  | ⟨0, _⟩ => rfl
  | ⟨1, _⟩ => rfl

/-! ## The body's matrix product read at coordinates -/

theorem lhs_0 (i : S1000x2.Idx) (q : dot_S1000x128_S128x2_S1000x2_1_0_0_1_n_n.contr.Idx) :
    (dot_S1000x128_S128x2_S1000x2_1_0_0_1_n_n.lhsIdx i q 0).val = (i 0).val := by
  unfold DotDims.lhsIdx
  rw [dif_neg (show ¬(0 : Fin S1000x128.rank) ∈ dot_S1000x128_S128x2_S1000x2_1_0_0_1_n_n.lhsBatch by decide), dif_pos (show (0 : Fin S1000x128.rank) ∈ dot_S1000x128_S128x2_S1000x2_1_0_0_1_n_n.lhsNonContracting by decide)]
  rfl
theorem lhs_1 (i : S1000x2.Idx) (q : dot_S1000x128_S128x2_S1000x2_1_0_0_1_n_n.contr.Idx) :
    (dot_S1000x128_S128x2_S1000x2_1_0_0_1_n_n.lhsIdx i q 1).val = (q ⟨0, by decide⟩).val :=
  dot_S1000x128_S128x2_S1000x2_1_0_0_1_n_n.lhsIdx_val_of_single rfl i q
theorem rhs_0 (i : S1000x2.Idx) (q : dot_S1000x128_S128x2_S1000x2_1_0_0_1_n_n.contr.Idx) :
    (dot_S1000x128_S128x2_S1000x2_1_0_0_1_n_n.rhsIdx i q 0).val = (q ⟨0, by decide⟩).val :=
  dot_S1000x128_S128x2_S1000x2_1_0_0_1_n_n.rhsIdx_val_of_single rfl i q
theorem rhs_1 (i : S1000x2.Idx) (q : dot_S1000x128_S128x2_S1000x2_1_0_0_1_n_n.contr.Idx) :
    (dot_S1000x128_S128x2_S1000x2_1_0_0_1_n_n.rhsIdx i q 1).val = (i 1).val := by
  unfold DotDims.rhsIdx
  rw [dif_neg (show ¬(1 : Fin S128x2.rank) ∈ dot_S1000x128_S128x2_S1000x2_1_0_0_1_n_n.rhsBatch by decide), dif_pos (show (1 : Fin S128x2.rank) ∈ dot_S1000x128_S128x2_S1000x2_1_0_0_1_n_n.rhsNonContracting by decide)]
  rfl

/-- The block's matrix product into the zero accumulator, at (p, q): row p of the left factor times column q of the right. -/
theorem matmul_apply (l : FVec Ideal S1000x128 .f32) (r : FVec Ideal S128x2 .f32) (p : Fin 1000) (q : Fin 2) :
    matmul dot_S1000x128_S128x2_S1000x2_1_0_0_1_n_n (some .fp32) l r (constant (F := Ideal) S1000x2 .f32 0x00000000#32) (ix2 p q)
      = ∑ k : Fin 128, l (ix2 p k) * r (ix2 k q) := by
  refine (Ideal.matmul_constant_zero_apply dot_S1000x128_S128x2_S1000x2_1_0_0_1_n_n (some .fp32) l r (ix2 p q)).trans ?_
  rw [← Equiv.sum_comp (ValueIdx.contrEquiv1 dot_S1000x128_S128x2_S1000x2_1_0_0_1_n_n 128 rfl rfl).symm]
  refine Finset.sum_congr rfl fun k _ => ?_
  have hk := ValueIdx.contrEquiv1_symm_val dot_S1000x128_S128x2_S1000x2_1_0_0_1_n_n 128 rfl rfl k
  have el : dot_S1000x128_S128x2_S1000x2_1_0_0_1_n_n.lhsIdx (ix2 p q) ((ValueIdx.contrEquiv1 dot_S1000x128_S128x2_S1000x2_1_0_0_1_n_n 128 rfl rfl).symm k) = ix2 p k := funext fun a => Fin.ext (by
    match a with
    | ⟨0, _⟩ => exact lhs_0 _ _
    | ⟨1, _⟩ => exact (lhs_1 _ _).trans hk)
  have er : dot_S1000x128_S128x2_S1000x2_1_0_0_1_n_n.rhsIdx (ix2 p q) ((ValueIdx.contrEquiv1 dot_S1000x128_S128x2_S1000x2_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The body's payload read at coordinates -/

/-- The f32 word of −∞ is the bottom of the extended reals. -/
theorem ofBits_negInf : Ideal.ofBits .f32 0xFF800000#32 = ⊥ := by simp [Ideal.ofBits, Ideal.ieee]

/-- The pre-activation block: (a · iv + h Wr) + b over the loaded blocks, as the body computes it. -/
def pre (x0 : Vec Ideal S1000x2 .f32) (x2 : Vec Ideal S1000x1 .f32) (x1 : Vec Ideal S1000x128 .f32) (x3 : Vec Ideal S128x2 .f32) (x4 : Vec Ideal S1x2 .f32) : FVec Ideal S1000x2 .f32 :=
  addf (addf (mulf (shapeCast S1000x2 x0 shapeCasts_S1000x2_S1000x2 : FVec Ideal S1000x2 .f32)
        (broadcastTo S1000x2 (shapeCast S1000x1 x2 shapeCasts_S1000x1_S1000x1 : FVec Ideal S1000x1 .f32) broadcasts_S1000x1_S1000x2))
      (matmul dot_S1000x128_S128x2_S1000x2_1_0_0_1_n_n (some .fp32) (shapeCast S1000x128 x1 shapeCasts_S1000x128_S1000x128 : FVec Ideal S1000x128 .f32)
        (shapeCast S128x2 x3 shapeCasts_S128x2_S128x2 : FVec Ideal S128x2 .f32) (constant (F := Ideal) S1000x2 .f32 0x00000000#32)))
    (broadcastTo S1000x2 (shapeCast S1x2 x4 shapeCasts_S1x2_S1x2 : FVec Ideal S1x2 .f32) broadcasts_S1x2_S1000x2)

/-- The normalised block: the pre-activation block divided by its rows' floored norms. -/
def nrm (x0 : Vec Ideal S1000x2 .f32) (x2 : Vec Ideal S1000x1 .f32) (x1 : Vec Ideal S1000x128 .f32) (x3 : Vec Ideal S128x2 .f32) (x4 : Vec Ideal S1x2 .f32) : FVec Ideal S1000x2 .f32 :=
  divf (pre x0 x2 x1 x3 x4)
    (broadcastTo S1000x2 (maximumf (sqrt (shapeCast S1000x1
        (multiReduction .add [1] S1000 (mulf (pre x0 x2 x1 x3 x4) (pre x0 x2 x1 x3 x4)) 0x00000000#32 reduces_S1000x2_S1000 (.inl rfl) rfl)
        shapeCasts_S1000_S1000x1 : FVec Ideal S1000x1 .f32))
      (broadcast S1000x1 (Scalar.ofBits (F := Ideal) .f32 0x2B8CBCCC#32))) broadcasts_S1000x1_S1000x2)

/-- The column of the normalised block's row maxima, folded from −∞. -/
def mx (x0 : Vec Ideal S1000x2 .f32) (x2 : Vec Ideal S1000x1 .f32) (x1 : Vec Ideal S1000x128 .f32) (x3 : Vec Ideal S128x2 .f32) (x4 : Vec Ideal S1x2 .f32) : FVec Ideal S1000x1 .f32 :=
  shapeCast S1000x1 (multiReduction .maximumf [1] S1000 (nrm x0 x2 x1 x3 x4) 0xFF800000#32 reduces_S1000x2_S1000 (.inl rfl) rfl) shapeCasts_S1000_S1000x1

/-- The payload is the normalised block minus (its row maximum plus the log of the row sum of exponentials of the shifted block). -/
theorem pay_eq (x0 : Vec Ideal S1000x2 .f32) (x2 : Vec Ideal S1000x1 .f32) (x1 : Vec Ideal S1000x128 .f32) (x3 : Vec Ideal S128x2 .f32) (x4 : Vec Ideal S1x2 .f32) :
    k4_pay1 (F := Ideal) x0 x2 x1 x3 x4
      = subf (nrm x0 x2 x1 x3 x4)
          (broadcastTo S1000x2 (addf (mx x0 x2 x1 x3 x4) (log (shapeCast S1000x1
              (multiReduction .add [1] S1000 (exp (subf (nrm x0 x2 x1 x3 x4) (broadcastTo S1000x2 (mx x0 x2 x1 x3 x4) broadcasts_S1000x1_S1000x2)))
                0x00000000#32 reduces_S1000x2_S1000 (.inl rfl) rfl)
              shapeCasts_S1000_S1000x1 : FVec Ideal S1000x1 .f32))) broadcasts_S1000x1_S1000x2) := rfl

/-- The pre-activation block at (p, j) is the project-first row of the loaded rows. -/
theorem pre_apply (x0 : Vec Ideal S1000x2 .f32) (x2 : Vec Ideal S1000x1 .f32) (x1 : Vec Ideal S1000x128 .f32) (x3 : Vec Ideal S128x2 .f32) (x4 : Vec Ideal S1x2 .f32) (p : Fin 1000) (j : Fin 2) :
    pre x0 x2 x1 x3 x4 (ix2 p j) = (Spec.rowProjFirst (fun j : Fin 2 => x0 (ix2 p j)) (fun t : Fin 128 => x1 (ix2 p t)) (x2 (ix2 p (0 : Fin 1)))
          (fun (t : Fin 128) (j : Fin 2) => x3 (ix2 t j)) (fun j : Fin 2 => x4 (ix2 (0 : Fin 1) j))) j := by
  unfold pre
  simp only [shapeCast_self]
  rw [addf_apply, addf_apply, mulf_apply, bcastCol_apply, matmul_apply, broadcastTo_1b_ab_apply]
  rfl

/-- The normalised block at (p, j) is the normalised project-first row. -/
theorem nrm_apply (x0 : Vec Ideal S1000x2 .f32) (x2 : Vec Ideal S1000x1 .f32) (x1 : Vec Ideal S1000x128 .f32) (x3 : Vec Ideal S128x2 .f32) (x4 : Vec Ideal S1x2 .f32) (p : Fin 1000) (j : Fin 2) :
    nrm x0 x2 x1 x3 x4 (ix2 p j) = Spec.rnormalize (Spec.rowProjFirst (fun j : Fin 2 => x0 (ix2 p j)) (fun t : Fin 128 => x1 (ix2 p t)) (x2 (ix2 p (0 : Fin 1)))
          (fun (t : Fin 128) (j : Fin 2) => x3 (ix2 t j)) (fun j : Fin 2 => x4 (ix2 (0 : Fin 1) j))) j := by
  have hs : multiReduction .add [1] S1000 (mulf (pre x0 x2 x1 x3 x4) (pre x0 x2 x1 x3 x4)) 0x00000000#32 reduces_S1000x2_S1000 (.inl rfl) rfl (ix1 p)
      = ∑ k : Fin 2, (Spec.rowProjFirst (fun j : Fin 2 => x0 (ix2 p j)) (fun t : Fin 128 => x1 (ix2 p t)) (x2 (ix2 p (0 : Fin 1)))
          (fun (t : Fin 128) (j : Fin 2) => x3 (ix2 t j)) (fun j : Fin 2 => x4 (ix2 (0 : Fin 1) j))) k * (Spec.rowProjFirst (fun j : Fin 2 => x0 (ix2 p j)) (fun t : Fin 128 => x1 (ix2 p t)) (x2 (ix2 p (0 : Fin 1)))
          (fun (t : Fin 128) (j : Fin 2) => x3 (ix2 t j)) (fun j : Fin 2 => x4 (ix2 (0 : Fin 1) j))) k :=
    (laneSum_apply (mulf (pre x0 x2 x1 x3 x4) (pre x0 x2 x1 x3 x4)) reduces_S1000x2_S1000 (.inl rfl) rfl p).trans
      (Finset.sum_congr rfl fun k _ => by rw [mulf_apply, pre_apply])
  unfold nrm
  rw [divf_apply, bcastCol_apply, maximumf_apply]
  show Ideal.div (pre x0 x2 x1 x3 x4 (ix2 p j)) (max (Ideal.sqrt (shapeCast S1000x1 _ shapeCasts_S1000_S1000x1 (ix2 p (0 : Fin 1)))) (Ideal.ofBits .f32 0x2B8CBCCC#32)) = _
  rw [castCol_apply, hs, pre_apply]
  rfl

/-- The column of row maxima at (p, z) is the maximum of the normalised project-first row. -/
theorem mx_apply (x0 : Vec Ideal S1000x2 .f32) (x2 : Vec Ideal S1000x1 .f32) (x1 : Vec Ideal S1000x128 .f32) (x3 : Vec Ideal S128x2 .f32) (x4 : Vec Ideal S1x2 .f32) (p : Fin 1000) (z : Fin 1) :
    mx x0 x2 x1 x3 x4 (ix2 p z) = Spec.rmax (Spec.rnormalize (Spec.rowProjFirst (fun j : Fin 2 => x0 (ix2 p j)) (fun t : Fin 128 => x1 (ix2 p t)) (x2 (ix2 p (0 : Fin 1)))
          (fun (t : Fin 128) (j : Fin 2) => x3 (ix2 t j)) (fun j : Fin 2 => x4 (ix2 (0 : Fin 1) j)))) := by
  unfold mx
  rw [castCol_apply]
  refine (laneMax_apply (nrm x0 x2 x1 x3 x4) reduces_S1000x2_S1000 (.inl rfl) rfl p).trans ?_
  rw [ofBits_negInf]
  unfold Spec.rmax
  exact congrArg (fun f => (Finset.univ : Finset (Fin 2)).fold max ⊥ f) (funext fun k => nrm_apply x0 x2 x1 x3 x4 p k)

/-- The payload at (p, q): log-softmax of the normalised project-first row. -/
theorem pay_apply (x0 : Vec Ideal S1000x2 .f32) (x2 : Vec Ideal S1000x1 .f32) (x1 : Vec Ideal S1000x128 .f32) (x3 : Vec Ideal S128x2 .f32) (x4 : Vec Ideal S1x2 .f32) (p : Fin 1000) (q : Fin 2) :
    k4_pay1 (F := Ideal) x0 x2 x1 x3 x4 (ix2 p q) = Spec.rlsmK (Spec.rnormalize (Spec.rowProjFirst (fun j : Fin 2 => x0 (ix2 p j)) (fun t : Fin 128 => x1 (ix2 p t)) (x2 (ix2 p (0 : Fin 1)))
          (fun (t : Fin 128) (j : Fin 2) => x3 (ix2 t j)) (fun j : Fin 2 => x4 (ix2 (0 : Fin 1) j)))) q := by
  have hs : multiReduction .add [1] S1000 (exp (subf (nrm x0 x2 x1 x3 x4) (broadcastTo S1000x2 (mx x0 x2 x1 x3 x4) broadcasts_S1000x1_S1000x2)))
        0x00000000#32 reduces_S1000x2_S1000 (.inl rfl) rfl (ix1 p)
      = ∑ k : Fin 2, Ideal.exp (Spec.rnormalize (Spec.rowProjFirst (fun j : Fin 2 => x0 (ix2 p j)) (fun t : Fin 128 => x1 (ix2 p t)) (x2 (ix2 p (0 : Fin 1)))
          (fun (t : Fin 128) (j : Fin 2) => x3 (ix2 t j)) (fun j : Fin 2 => x4 (ix2 (0 : Fin 1) j))) k - Spec.rmax (Spec.rnormalize (Spec.rowProjFirst (fun j : Fin 2 => x0 (ix2 p j)) (fun t : Fin 128 => x1 (ix2 p t)) (x2 (ix2 p (0 : Fin 1)))
          (fun (t : Fin 128) (j : Fin 2) => x3 (ix2 t j)) (fun j : Fin 2 => x4 (ix2 (0 : Fin 1) j))))) :=
    (laneSum_apply (exp (subf (nrm x0 x2 x1 x3 x4) (broadcastTo S1000x2 (mx x0 x2 x1 x3 x4) broadcasts_S1000x1_S1000x2))) reduces_S1000x2_S1000 (.inl rfl) rfl p).trans
      (Finset.sum_congr rfl fun k _ => by
        show Ideal.exp (nrm x0 x2 x1 x3 x4 (ix2 p k) - broadcastTo S1000x2 (mx x0 x2 x1 x3 x4) broadcasts_S1000x1_S1000x2 (ix2 p k)) = _
        rw [bcastCol_apply, nrm_apply, mx_apply])
  rw [pay_eq, subf_apply, bcastCol_apply, addf_apply]
  show nrm x0 x2 x1 x3 x4 (ix2 p q) - (mx x0 x2 x1 x3 x4 (ix2 p (0 : Fin 1)) + Ideal.log (shapeCast S1000x1 _ shapeCasts_S1000_S1000x1 (ix2 p (0 : Fin 1)))) = _
  rw [castCol_apply, hs, nrm_apply, mx_apply]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Two blocks of a rank-2 shape agree when they agree at every pair of coordinates. -/
theorem ext2 {a b : ℕ} {α : Type} (f g : (⟨2, ![a, b]⟩ : Shape).Idx → α) (h : ∀ (p : Fin a) (q : Fin b), f (ix2 p q) = g (ix2 p q)) : f = g :=
  funext fun y => by rw [eq_ix2 y]; exact h _ _

/-- Row r of the layer's output: log-softmax of the normalised project-first row of the input arrays' rows r. -/
def row (c : Dev nD) (r : Fin 100000) (q : Fin 2) : EReal :=
  Spec.rlsmK (Spec.rnormalize (Spec.rowProjFirst (fun j : Fin 2 => V c main_v35 (ix2 r j)) (fun t : Fin 128 => V c main_v29 (ix2 r t))
    (V c main_v12 (ix2 r (0 : Fin 1))) (fun (t : Fin 128) (j : Fin 2) => V c main_v36 (ix2 t j)) (fun j : Fin 2 => V c main_v37 (ix2 (0 : Fin 1) j)))) q

/-- The layer's output array as one function of the input arrays. -/
def G (c : Dev nD) : S100000x2.Idx → EReal := fun i => row V c (i 0) (i 1)

/-- The printed index maps over the grid: node-indexed windows sit at block (t, 0), weights and bias at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Block t of the neighbour-sum window is rows 1000 t … 1000 t + 999 of its array. -/
theorem blk0_apply (c : Dev nD) (t : Fin cfg4.N) (p : Fin 1000) (j : Fin 2) (r : Fin 100000) (hr : r.val = 1000 * t.val + p.val) :
    (iblk4 V c 0 t : Vec Ideal S1000x2 .f32) (ix2 p j) = V c main_v35 (ix2 r j) := by
  obtain ⟨e0, e1, -⟩ := idx_facts t
  unfold iblk4
  rw [View.read_apply]
  show V c main_v35 _ = V c main_v35 _
  refine congrArg (V c main_v35) (funext fun a => Fin.ext ?_)
  match a with
  | ⟨0, _⟩ => show win4_0.index t (0 : Fin 2) * 1000 + 1 * p.val = r.val; rw [e0, hr]; omega
  | ⟨1, _⟩ => show win4_0.index t (1 : Fin 2) * 2 + 1 * j.val = j.val; rw [e1]; omega

/-- Block t of the feature window is rows 1000 t … 1000 t + 999 of its array. -/
theorem blk1_apply (c : Dev nD) (t : Fin cfg4.N) (p : Fin 1000) (j : Fin 128) (r : Fin 100000) (hr : r.val = 1000 * t.val + p.val) :
    (iblk4 V c 1 t : Vec Ideal S1000x128 .f32) (ix2 p j) = V c main_v29 (ix2 r j) := by
  obtain ⟨-, -, e0, e1, -⟩ := idx_facts t
  unfold iblk4
  rw [View.read_apply]
  show V c main_v29 _ = V c main_v29 _
  refine congrArg (V c main_v29) (funext fun a => Fin.ext ?_)
  match a with
  | ⟨0, _⟩ => show win4_1.index t (0 : Fin 2) * 1000 + 1 * p.val = r.val; rw [e0, hr]; omega
  | ⟨1, _⟩ => show win4_1.index t (1 : Fin 2) * 128 + 1 * j.val = j.val; rw [e1]; omega

/-- Block t of the reciprocal-degree window is rows 1000 t … 1000 t + 999 of its column. -/
theorem blk2_apply (c : Dev nD) (t : Fin cfg4.N) (p : Fin 1000) (j : Fin 1) (r : Fin 100000) (hr : r.val = 1000 * t.val + p.val) :
    (iblk4 V c 2 t : Vec Ideal S1000x1 .f32) (ix2 p j) = V c main_v12 (ix2 r j) := by
  obtain ⟨-, -, -, -, e0, e1, -⟩ := idx_facts t
  unfold iblk4
  rw [View.read_apply]
  show V c main_v12 _ = V c main_v12 _
  refine congrArg (V c main_v12) (funext fun a => Fin.ext ?_)
  match a with
  | ⟨0, _⟩ => show win4_2.index t (0 : Fin 2) * 1000 + 1 * p.val = r.val; rw [e0, hr]; omega
  | ⟨1, _⟩ => show win4_2.index t (1 : Fin 2) * 1 + 1 * j.val = j.val; rw [e1]; omega

/-- The weight window's block is the whole matrix at every point. -/
theorem blk3_apply (c : Dev nD) (t : Fin cfg4.N) (k : Fin 128) (j : Fin 2) :
    (iblk4 V c 3 t : Vec Ideal S128x2 .f32) (ix2 k j) = V c main_v36 (ix2 k j) := by
  obtain ⟨-, -, -, -, -, -, e0, e1, -⟩ := idx_facts t
  unfold iblk4
  rw [View.read_apply]
  show V c main_v36 _ = V c main_v36 _
  refine congrArg (V c main_v36) (funext fun a => Fin.ext ?_)
  match a with
  | ⟨0, _⟩ => show win4_3.index t (0 : Fin 2) * 128 + 1 * k.val = k.val; rw [e0]; omega
  | ⟨1, _⟩ => show win4_3.index t (1 : Fin 2) * 2 + 1 * j.val = j.val; rw [e1]; omega

/-- The bias window's block is the whole row at every point. -/
theorem blk4_apply (c : Dev nD) (t : Fin cfg4.N) (k : Fin 1) (j : Fin 2) :
    (iblk4 V c 4 t : Vec Ideal S1x2 .f32) (ix2 k j) = V c main_v37 (ix2 k j) := by
  obtain ⟨-, -, -, -, -, -, -, -, e0, e1, -⟩ := idx_facts t
  unfold iblk4
  rw [View.read_apply]
  show V c main_v37 _ = V c main_v37 _
  refine congrArg (V c main_v37) (funext fun a => Fin.ext ?_)
  match a with
  | ⟨0, _⟩ => show win4_4.index t (0 : Fin 2) * 1 + 1 * k.val = k.val; rw [e0]; omega
  | ⟨1, _⟩ => show win4_4.index t (1 : Fin 2) * 2 + 1 * j.val = j.val; rw [e1]; omega

/-- What point t writes back is block t of G. -/
theorem flushed_eq (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero hz]
  simp only [View.ld_unit_zero (S := S1000x2) hz, View.ld_unit_zero (S := S1000x1) hz, View.ld_unit_zero (S := S1000x128) hz,
    View.ld_unit_zero (S := S128x2) hz, View.ld_unit_zero (S := S1x2) hz]
  refine ext2 (a := 1000) (b := 2) _ _ fun p q => ?_
  have hN : cfg4.N = 100 := N_4
  have ht : t.val < 100 := hN ▸ t.isLt
  have hr : 1000 * t.val + p.val < 100000 := by have := p.isLt; omega
  refine (pay_apply (iblk4 V c 0 t) (iblk4 V c 2 t) (iblk4 V c 1 t) (iblk4 V c 3 t) (iblk4 V c 4 t) p q).trans ?_
  obtain ⟨-, -, -, -, -, -, -, -, -, -, e0, e1⟩ := idx_facts t
  have hemb : ((cfg4.win 5).blk t).view.emb (ix2 p q) = (ix2 (⟨1000 * t.val + p.val, hr⟩ : Fin 100000) q : S100000x2.Idx) := by
    funext a; apply Fin.ext
    match a with
    | ⟨0, _⟩ => show win4_5.index t (0 : Fin 2) * 1000 + 1 * p.val = 1000 * t.val + p.val; rw [e0]; omega
    | ⟨1, _⟩ => show win4_5.index t (1 : Fin 2) * 2 + 1 * q.val = q.val; rw [e1]; omega
  rw [View.read_apply, hemb]
  show _ = row V c ⟨1000 * t.val + p.val, hr⟩ q
  unfold row
  simp only [blk0_apply V c t p _ ⟨1000 * t.val + p.val, hr⟩ rfl, blk1_apply V c t p _ ⟨1000 * t.val + p.val, hr⟩ rfl,
    blk2_apply V c t p _ ⟨1000 * t.val + p.val, hr⟩ rfl, blk3_apply V c t, blk4_apply V c t]

/-- An index of the array is in point t's block iff each coordinate is in the block's range. -/
theorem mem_blk (t : Fin cfg4.N) (i : S100000x2.Idx) :
    i ∈ ((cfg4.win 5).blk t).view.set ↔ ∀ a : Fin 2, win4_5.index t a * S1000x2.size a ≤ (i a).val ∧ (i a).val < win4_5.index t a * S1000x2.size a + S1000x2.size a := by
  show i ∈ ((View.whole main_v38).slice (win4_5.rect t)).set ↔ _
  rw [View.set_slice_whole, Rect.mem_set_unit]
  exact Iff.rfl

/-- Every row lies in the block of the point r / 1000. -/
theorem cover (i : S100000x2.Idx) : ∃ t : Fin cfg4.N, (cfg4.win 5).flush t = true ∧ i ∈ ((cfg4.win 5).blk t).view.set := by
  have hi0 : (i 0).val < 100000 := (i 0).isLt
  have hi1 : (i 1).val < 2 := (i 1).isLt
  have hN : cfg4.N = 100 := N_4
  let t : Fin cfg4.N := ⟨(i 0).val / 1000, by rw [hN]; omega⟩
  obtain ⟨-, -, -, -, -, -, -, -, -, -, e0, e1⟩ := idx_facts t
  have e0' : win4_5.index t (0 : Fin 2) = (i 0).val / 1000 := e0
  refine ⟨t, flush4_5 t, ?_⟩
  rw [mem_blk]
  intro a
  match a with
  | ⟨0, _⟩ => show win4_5.index t (0 : Fin 2) * 1000 ≤ (i 0).val ∧ (i 0).val < win4_5.index t (0 : Fin 2) * 1000 + 1000; rw [e0']; omega
  | ⟨1, _⟩ => show win4_5.index t (1 : Fin 2) * 2 ≤ (i 1).val ∧ (i 1).val < win4_5.index t (1 : Fin 2) * 2 + 2; rw [e1]; omega

/-- The output array after the region is G of the input arrays. -/
theorem arr_eq (c : Dev nD) : (dat4 V c).arrAt 5 cfg4.N = G V c :=
  (dat4 V c).arrAt_eq_of_cover 5 (G V c) (fun t _ => flushed_eq V c t) (cover)

/-- THE REGION'S OUTPUT at (r, q): log-softmax of the normalised project-first row of the input arrays' rows r. -/
theorem final (c : Dev nD) (r : Fin 100000) (q : Fin 2) :
    (dat4 (F := Ideal) V c).arrAt 5 cfg4.N (ix2 r q)
      = Spec.rlsmK (Spec.rnormalize (Spec.rowProjFirst (fun j : Fin 2 => V c main_v35 (ix2 r j)) (fun t : Fin 128 => V c main_v29 (ix2 r t))
          (V c main_v12 (ix2 r (0 : Fin 1))) (fun (t : Fin 128) (j : Fin 2) => V c main_v36 (ix2 t j)) (fun j : Fin 2 => V c main_v37 (ix2 (0 : Fin 1) j)))) q := by
  rw [arr_eq]
  rfl

end Cert.KernelIdeal.Reg4

end
-- ==== Proof.Net.lean ====
/-
  The whole three-layer network at one node, in the two orders the two programs compute it.

  Weights are taken contracted over their FIRST index (a matrix Fin k → Fin d is "x @ W.T" 's W.T), a node-indexed
  feature matrix is Fin n → Fin k → EReal, the edge list is a source-row function g and a destination-word function dd
  (Spec.agg, Spec.deg).

  • layerR   a layer in the textbook order: normalise(((Σ_nbr h / deg) Wl + b) + h Wr)
  • layerK1  the same layer with the mean taken as a product with 1/deg and the bias added last
  • layerK2  the layer with Wl applied BEFORE the neighbour sum: normalise((Σ_nbr (h Wl) · (1/deg) + h Wr) + b)
  • netR = log-softmax ∘ layerR ∘ relu ∘ layerR ∘ relu ∘ layerR,
    netK = log-softmax ∘ layerK2 ∘ relu ∘ layerK2 ∘ relu ∘ layerK1  (each with its own spelling of log-softmax).
-/
import proofs.«408524_j60352880443980_3_alg».proof.Proof.Spec

noncomputable section

namespace Cert.Spec

open Idealize.ShloMosaic

variable {n e k d : ℕ}

/-- A layer at node r, textbook order. -/
def layerR (g : Fin e → Fin n) (dd : Fin e → ℤ) (H : Fin n → Fin k → EReal) (Wl Wr : Fin k → Fin d → EReal)
    (b : Fin d → EReal) (r : Fin n) : Fin d → EReal :=
  rnormalize (rowRef (fun t => agg g dd H r t) (H r) (deg dd r) Wl Wr b)

/-- A layer at node r, aggregate first, mean as a product. -/
def layerK1 (g : Fin e → Fin n) (dd : Fin e → ℤ) (H : Fin n → Fin k → EReal) (Wl Wr : Fin k → Fin d → EReal)
    (b : Fin d → EReal) (r : Fin n) : Fin d → EReal :=
  rnormalize (rowAggFirst (fun t => agg g dd H r t) (H r) (Ideal.div 1 (deg dd r)) Wl Wr b)

/-- A layer at node r, project first. -/
def layerK2 (g : Fin e → Fin n) (dd : Fin e → ℤ) (H : Fin n → Fin k → EReal) (Wl Wr : Fin k → Fin d → EReal)
    (b : Fin d → EReal) (r : Fin n) : Fin d → EReal :=
  rnormalize (rowProjFirst (fun j => agg g dd (fun r' => vm (H r') Wl) r j) (H r) (Ideal.div 1 (deg dd r)) Wr b)

/-- The network at node r, textbook order. -/
def netR (g : Fin e → Fin n) (dd : Fin e → ℤ) (X : Fin n → Fin 128 → EReal)
    (W1l W1r : Fin 128 → Fin 256 → EReal) (b1 : Fin 256 → EReal)
    (W2l W2r : Fin 256 → Fin 128 → EReal) (b2 : Fin 128 → EReal)
    (W3l W3r : Fin 128 → Fin 2 → EReal) (b3 : Fin 2 → EReal) (r : Fin n) : Fin 2 → EReal :=
  rlsmR (layerR g dd (fun r' => rrelu (layerR g dd (fun r'' => rrelu (layerR g dd X W1l W1r b1 r'')) W2l W2r b2 r')) W3l W3r b3 r)

/-- The network at node r, the kernel's order. -/
def netK (g : Fin e → Fin n) (dd : Fin e → ℤ) (X : Fin n → Fin 128 → EReal)
    (W1l W1r : Fin 128 → Fin 256 → EReal) (b1 : Fin 256 → EReal)
    (W2l W2r : Fin 256 → Fin 128 → EReal) (b2 : Fin 128 → EReal)
    (W3l W3r : Fin 128 → Fin 2 → EReal) (b3 : Fin 2 → EReal) (r : Fin n) : Fin 2 → EReal :=
  rlsmK (layerK2 g dd (fun r' => rrelu (layerK2 g dd (fun r'' => rrelu (layerK1 g dd X W1l W1r b1 r'')) W2l W2r b2 r')) W3l W3r b3 r)

end Cert.Spec

end
-- ==== Proof.Chain.lean ====
/-
  The kernel program's result as the three-layer network in the kernel's own order, read at node r and class q.

  Boundary by boundary through @main: the first host stretch leaves the two rows of edge words and the reciprocal
  in-degree 1/deg; each layer's take-and-segment-sum stretch leaves the neighbour sum Spec.agg of the matrix it
  reads (under the range hypothesis on the source words the fill-mode take keeps every row); the transposes leave
  the weights contracted over their input axis; each region's output array is its row function of the arrays it
  finds at entry (Reg0 … Reg4), and what a later boundary reads of an earlier one is still there (Keep). So region
  0's output is relu(layerK1 x), region 1's the projection of it, region 2's relu(layerK2 ·) of that, region 3's its
  projection, and region 4's log-softmax(layerK2 ·): Spec.netK.
-/
import proofs.«408524_j60352880443980_3_alg».proof.Proof.Keep
import proofs.«408524_j60352880443980_3_alg».proof.Proof.HostK1
import proofs.«408524_j60352880443980_3_alg».proof.Proof.HostK2
import proofs.«408524_j60352880443980_3_alg».proof.Proof.Reg0
import proofs.«408524_j60352880443980_3_alg».proof.Proof.Reg1
import proofs.«408524_j60352880443980_3_alg».proof.Proof.Reg2
import proofs.«408524_j60352880443980_3_alg».proof.Proof.Reg3
import proofs.«408524_j60352880443980_3_alg».proof.Proof.Reg4
import proofs.«408524_j60352880443980_3_alg».proof.Proof.Net
import proofs.«408524_j60352880443980_3_alg».proof.Proof.Edges

set_option maxRecDepth 16384

noncomputable section

open scoped BigOperators

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The edge words and the reciprocal in-degree, as the first stretch leaves them -/

/-- the edge words at launch -/
abbrev a1 : (⟨2, ![2, 640000]⟩ : Shape).Idx → BitVec 32 := m ((c : Thread nD τ).loc main_arg1)
abbrev gS : Fin 640000 → Fin 100000 := Edges.srcRow (a1 m c)
abbrev dS : Fin 640000 → ℤ := Edges.dstWord (a1 m c)
abbrev X (r : Fin 100000) (t : Fin 128) : EReal := m ((c : Thread nD τ).loc main_arg0) (ix2 r t)
abbrev W1l (t : Fin 128) (j : Fin 256) : EReal := m ((c : Thread nD τ).loc main_arg2) (ix2 j t)
abbrev W1r (t : Fin 128) (j : Fin 256) : EReal := m ((c : Thread nD τ).loc main_arg3) (ix2 j t)
abbrev b1 (j : Fin 256) : EReal := m ((c : Thread nD τ).loc main_arg4) (ix1 j)
abbrev W2l (t : Fin 256) (j : Fin 128) : EReal := m ((c : Thread nD τ).loc main_arg5) (ix2 j t)
abbrev W2r (t : Fin 256) (j : Fin 128) : EReal := m ((c : Thread nD τ).loc main_arg6) (ix2 j t)
abbrev b2 (j : Fin 128) : EReal := m ((c : Thread nD τ).loc main_arg7) (ix1 j)
abbrev W3l (t : Fin 128) (j : Fin 2) : EReal := m ((c : Thread nD τ).loc main_arg8) (ix2 j t)
abbrev W3r (t : Fin 128) (j : Fin 2) : EReal := m ((c : Thread nD τ).loc main_arg9) (ix2 j t)
abbrev b3 (j : Fin 2) : EReal := m ((c : Thread nD τ).loc main_arg10) (ix1 j)

/-- the range hypothesis on the source words -/
abbrev InRange : Prop := ∀ p : Fin 640000, -100000 ≤ (a1 m c (ix2 (0 : Fin 2) p)).toInt ∧ (a1 m c (ix2 (0 : Fin 2) p)).toInt < 100000

/-- the same row is read when the source words are equal -/
theorem take_row {cc : ℕ} (f : (⟨2, ![100000, cc]⟩ : Shape).Idx → EReal) {s s' : BitVec 32} (h : s = s') (t : Fin cc) :
    f (ix2 (⟨min (Edges.wrapw s).toInt.toNat (100000 - 1), by omega⟩ : Fin 100000) t)
      = f (ix2 (⟨min (Edges.wrapw s').toInt.toNat (100000 - 1), by omega⟩ : Fin 100000) t) := by
  subst h; rfl
/-- a summand of a neighbour sum depends on the destination word and the gathered entry only -/
theorem ite_eq {w w' : BitVec 32} {x x' : EReal} (k : ℤ) (hw : w = w') (hx : x = x') :
    (if w.toInt = k then x else 0) = (if w'.toInt = k then x' else 0) := by
  subst hw; subst hx; rfl

theorem src1 (p : Fin 640000) : W1 m ρ c (Proc.devRef .tc main_v1) (ix1 p) = a1 m c (ix2 (0 : Fin 2) p) :=
  HostK.src_apply (W0 m ρ c) p
theorem dst1 (p : Fin 640000) : W1 m ρ c (Proc.devRef .tc main_v3) (ix1 p) = a1 m c (ix2 (1 : Fin 2) p) :=
  HostK.dst_apply (W0 m ρ c) p
theorem inv1 (r : Fin 100000) : W1 m ρ c (Proc.devRef .tc main_v12) (ix2 r (0 : Fin 1)) = Ideal.div 1 (Spec.deg (dS m c) r) :=
  HostK.inv_apply (W0 m ρ c) r
theorem hr1 (hr : InRange m c) : ∀ p : Fin 640000, -100000 ≤ (W1 m ρ c (Proc.devRef .tc main_v1) (ix1 p)).toInt ∧ (W1 m ρ c (Proc.devRef .tc main_v1) (ix1 p)).toInt < 100000 :=
  fun p => (src1 m ρ c p).symm ▸ hr p

/-! ## Layer 1 -/

theorem agg1 (hr : InRange m c) (r : Fin 100000) (t : Fin 128) :
    V3 m ρ c main_v16 (ix2 r t) = Spec.agg (gS m c) (dS m c) (X m c) r t := by
  refine (HostK.scat1_apply (W2 m ρ c) r t).trans ?_
  unfold Spec.agg
  refine congrArg (fun s : EReal => (0 : EReal) + s) (Finset.sum_congr rfl fun p _ => ?_)
  have hc : W2 m ρ c (Proc.devRef .tc main_v3) (ix1 p) = a1 m c (ix2 (1 : Fin 2) p) :=
    (congrFun (v3_at2 m ρ c) (ix1 p)).trans (dst1 m ρ c p)
  have hs : W1 m ρ c (Proc.devRef .tc main_v1) (ix1 p) = a1 m c (ix2 (0 : Fin 2) p) := src1 m ρ c p
  have hv : @Eq EReal (W2 m ρ c (Proc.devRef .tc main_v13) (ix2 p t)) (X m c (gS m c p) t) :=
    (HostK.take1_apply (W1 m ρ c) (hr1 m ρ c hr) p t).trans ((take_row _ hs t).trans (congrFun (arg0_at1 m ρ c) _))
  exact ite_eq _ hc hv
theorem x3 (r : Fin 100000) (t : Fin 128) : V3 m ρ c main_arg0 (ix2 r t) = X m c r t := by
  show W3 m ρ c (Proc.devRef .tc main_arg0) (ix2 r t) = _
  rw [arg0_at3]
theorem inv3 (r : Fin 100000) : V3 m ρ c main_v12 (ix2 r (0 : Fin 1)) = Ideal.div 1 (Spec.deg (dS m c) r) := by
  show W3 m ρ c (Proc.devRef .tc main_v12) (ix2 r (0 : Fin 1)) = _
  rw [v12_at3, inv1]
theorem w1l3 (t : Fin 128) (j : Fin 256) : V3 m ρ c main_v17 (ix2 t j) = W1l m c t j := by
  refine (HostK.w1l_apply (W2 m ρ c) t j).trans ?_
  rw [arg2_at2]
theorem w1r3 (t : Fin 128) (j : Fin 256) : V3 m ρ c main_v18 (ix2 t j) = W1r m c t j := by
  refine (HostK.w1r_apply (W2 m ρ c) t j).trans ?_
  rw [arg3_at2]
theorem b13 (j : Fin 256) : V3 m ρ c main_v19 (ix2 (0 : Fin 1) j) = b1 m c j := by
  refine (HostK.b1_apply (W2 m ρ c) j).trans ?_
  rw [arg4_at2]

/-- layer 1's output, as region 0 leaves it -/
abbrev H1 (r : Fin 100000) (j : Fin 256) : EReal := W4 m ρ c (Proc.devRef .tc main_v20) (ix2 r j)

theorem h1_eq (hr : InRange m c) (r : Fin 100000) (j : Fin 256) :
    H1 m ρ c r j = Spec.rrelu (Spec.layerK1 (gS m c) (dS m c) (X m c) (W1l m c) (W1r m c) (b1 m c) r) j := by
  refine (congrFun (W4_arr m ρ c 6) (ix2 r j)).trans ((Reg0.final (V3 m ρ) c r j).trans ?_)
  unfold Spec.layerK1
  have e1 : (fun t : Fin 128 => V3 m ρ c main_v16 (ix2 r t)) = fun t => Spec.agg (gS m c) (dS m c) (X m c) r t :=
    funext fun t => agg1 m ρ c hr r t
  have e2 : (fun t : Fin 128 => V3 m ρ c main_arg0 (ix2 r t)) = X m c r := funext fun t => x3 m ρ c r t
  have e3 := inv3 m ρ c r
  have e4 : (fun (t : Fin 128) (j : Fin 256) => V3 m ρ c main_v17 (ix2 t j)) = W1l m c := funext fun t => funext fun j => w1l3 m ρ c t j
  have e5 : (fun (t : Fin 128) (j : Fin 256) => V3 m ρ c main_v18 (ix2 t j)) = W1r m c := funext fun t => funext fun j => w1r3 m ρ c t j
  have e6 : (fun j : Fin 256 => V3 m ρ c main_v19 (ix2 (0 : Fin 1) j)) = b1 m c := funext fun j => b13 m ρ c j
  rw [e1, e2, e3, e4, e5, e6]

/-! ## Layer 2 -/

theorem w2l5 (t : Fin 256) (j : Fin 128) : V5 m ρ c main_v21 (ix2 t j) = W2l m c t j := by
  refine (HostK.w2l_apply (W4 m ρ c) t j).trans ?_
  rw [arg5_at4]
theorem h1_5 (r : Fin 100000) (t : Fin 256) : V5 m ρ c main_v20 (ix2 r t) = H1 m ρ c r t := by
  show W5 m ρ c (Proc.devRef .tc main_v20) (ix2 r t) = _
  rw [v20_at5]

/-- layer 2's projected features, as region 1 leaves them -/
abbrev P2 (r : Fin 100000) (j : Fin 128) : EReal := W6 m ρ c (Proc.devRef .tc main_v22) (ix2 r j)

theorem p2_eq (r : Fin 100000) (j : Fin 128) : P2 m ρ c r j = Spec.vm (H1 m ρ c r) (W2l m c) j := by
  refine (congrFun (W6_arr m ρ c 2) (ix2 r j)).trans ((Reg1.final (V5 m ρ) c r j).trans ?_)
  have e1 : (fun t : Fin 256 => V5 m ρ c main_v20 (ix2 r t)) = H1 m ρ c r := funext fun t => h1_5 m ρ c r t
  have e2 : (fun (t : Fin 256) (j : Fin 128) => V5 m ρ c main_v21 (ix2 t j)) = W2l m c := funext fun t => funext fun j => w2l5 m ρ c t j
  rw [e1, e2]

theorem hr6 (hr : InRange m c) : ∀ p : Fin 640000, -100000 ≤ (W6 m ρ c (Proc.devRef .tc main_v1) (ix1 p)).toInt ∧ (W6 m ρ c (Proc.devRef .tc main_v1) (ix1 p)).toInt < 100000 :=
  fun p => ((congrFun (v1_at6 m ρ c) (ix1 p)).trans (src1 m ρ c p)).symm ▸ hr p

theorem agg2 (hr : InRange m c) (r : Fin 100000) (j : Fin 128) :
    V8 m ρ c main_v26 (ix2 r j) = Spec.agg (gS m c) (dS m c) (P2 m ρ c) r j := by
  refine (HostK.scat2_apply (W7 m ρ c) r j).trans ?_
  unfold Spec.agg
  refine congrArg (fun s : EReal => (0 : EReal) + s) (Finset.sum_congr rfl fun p _ => ?_)
  have hc : W7 m ρ c (Proc.devRef .tc main_v3) (ix1 p) = a1 m c (ix2 (1 : Fin 2) p) :=
    (congrFun (v3_at7 m ρ c) (ix1 p)).trans (dst1 m ρ c p)
  have hs : W6 m ρ c (Proc.devRef .tc main_v1) (ix1 p) = a1 m c (ix2 (0 : Fin 2) p) := (congrFun (v1_at6 m ρ c) (ix1 p)).trans (src1 m ρ c p)
  have hv : @Eq EReal (W7 m ρ c (Proc.devRef .tc main_v23) (ix2 p j)) (P2 m ρ c (gS m c p) j) :=
    (HostK.take2_apply (W6 m ρ c) (hr6 m ρ c hr) p j).trans ((take_row _ hs j).trans rfl)
  exact ite_eq _ hc hv
theorem h1_8 (r : Fin 100000) (t : Fin 256) : V8 m ρ c main_v20 (ix2 r t) = H1 m ρ c r t := by
  show W8 m ρ c (Proc.devRef .tc main_v20) (ix2 r t) = _
  rw [v20_at8]
theorem inv8 (r : Fin 100000) : V8 m ρ c main_v12 (ix2 r (0 : Fin 1)) = Ideal.div 1 (Spec.deg (dS m c) r) := by
  show W8 m ρ c (Proc.devRef .tc main_v12) (ix2 r (0 : Fin 1)) = _
  rw [v12_at8, inv1]
theorem w2r8 (t : Fin 256) (j : Fin 128) : V8 m ρ c main_v27 (ix2 t j) = W2r m c t j := by
  refine (HostK.w2r_apply (W7 m ρ c) t j).trans ?_
  rw [arg6_at7]
theorem b28 (j : Fin 128) : V8 m ρ c main_v28 (ix2 (0 : Fin 1) j) = b2 m c j := by
  refine (HostK.b2_apply (W7 m ρ c) j).trans ?_
  rw [arg7_at7]

/-- layer 2's output, as region 2 leaves it -/
abbrev H2 (r : Fin 100000) (j : Fin 128) : EReal := W9 m ρ c (Proc.devRef .tc main_v29) (ix2 r j)

theorem h2_eq (hr : InRange m c) (r : Fin 100000) (j : Fin 128) :
    H2 m ρ c r j = Spec.rrelu (Spec.layerK2 (gS m c) (dS m c) (H1 m ρ c) (W2l m c) (W2r m c) (b2 m c) r) j := by
  refine (congrFun (W9_arr m ρ c 5) (ix2 r j)).trans ((Reg2.final (V8 m ρ) c r j).trans ?_)
  unfold Spec.layerK2
  have hp : P2 m ρ c = fun r' => Spec.vm (H1 m ρ c r') (W2l m c) := funext fun r' => funext fun j' => p2_eq m ρ c r' j'
  have e1 : (fun j : Fin 128 => V8 m ρ c main_v26 (ix2 r j)) = fun j => Spec.agg (gS m c) (dS m c) (fun r' => Spec.vm (H1 m ρ c r') (W2l m c)) r j :=
    funext fun j => (agg2 m ρ c hr r j).trans (by rw [hp])
  have e2 : (fun t : Fin 256 => V8 m ρ c main_v20 (ix2 r t)) = H1 m ρ c r := funext fun t => h1_8 m ρ c r t
  have e3 := inv8 m ρ c r
  have e4 : (fun (t : Fin 256) (j : Fin 128) => V8 m ρ c main_v27 (ix2 t j)) = W2r m c := funext fun t => funext fun j => w2r8 m ρ c t j
  have e5 : (fun j : Fin 128 => V8 m ρ c main_v28 (ix2 (0 : Fin 1) j)) = b2 m c := funext fun j => b28 m ρ c j
  rw [e1, e2, e3, e4, e5]

/-! ## Layer 3 and the log-softmax -/

theorem w3l10 (t : Fin 128) (j : Fin 2) : V10 m ρ c main_v30 (ix2 t j) = W3l m c t j := by
  refine (HostK.w3l_apply (W9 m ρ c) t j).trans ?_
  rw [arg8_at9]
theorem h2_10 (r : Fin 100000) (t : Fin 128) : V10 m ρ c main_v29 (ix2 r t) = H2 m ρ c r t := by
  show W10 m ρ c (Proc.devRef .tc main_v29) (ix2 r t) = _
  rw [v29_at10]

abbrev P3 (r : Fin 100000) (j : Fin 2) : EReal := W11 m ρ c (Proc.devRef .tc main_v31) (ix2 r j)

theorem p3_eq (r : Fin 100000) (j : Fin 2) : P3 m ρ c r j = Spec.vm (H2 m ρ c r) (W3l m c) j := by
  refine (congrFun (W11_arr m ρ c 2) (ix2 r j)).trans ((Reg3.final (V10 m ρ) c r j).trans ?_)
  have e1 : (fun t : Fin 128 => V10 m ρ c main_v29 (ix2 r t)) = H2 m ρ c r := funext fun t => h2_10 m ρ c r t
  have e2 : (fun (t : Fin 128) (j : Fin 2) => V10 m ρ c main_v30 (ix2 t j)) = W3l m c := funext fun t => funext fun j => w3l10 m ρ c t j
  rw [e1, e2]

theorem hr11 (hr : InRange m c) : ∀ p : Fin 640000, -100000 ≤ (W11 m ρ c (Proc.devRef .tc main_v1) (ix1 p)).toInt ∧ (W11 m ρ c (Proc.devRef .tc main_v1) (ix1 p)).toInt < 100000 :=
  fun p => ((congrFun (v1_at11 m ρ c) (ix1 p)).trans (src1 m ρ c p)).symm ▸ hr p

theorem agg3 (hr : InRange m c) (r : Fin 100000) (j : Fin 2) :
    V13 m ρ c main_v35 (ix2 r j) = Spec.agg (gS m c) (dS m c) (P3 m ρ c) r j := by
  refine (HostK.scat3_apply (W12 m ρ c) r j).trans ?_
  unfold Spec.agg
  refine congrArg (fun s : EReal => (0 : EReal) + s) (Finset.sum_congr rfl fun p _ => ?_)
  have hc : W12 m ρ c (Proc.devRef .tc main_v3) (ix1 p) = a1 m c (ix2 (1 : Fin 2) p) :=
    (congrFun (v3_at12 m ρ c) (ix1 p)).trans (dst1 m ρ c p)
  have hs : W11 m ρ c (Proc.devRef .tc main_v1) (ix1 p) = a1 m c (ix2 (0 : Fin 2) p) := (congrFun (v1_at11 m ρ c) (ix1 p)).trans (src1 m ρ c p)
  have hv : @Eq EReal (W12 m ρ c (Proc.devRef .tc main_v32) (ix2 p j)) (P3 m ρ c (gS m c p) j) :=
    (HostK.take3_apply (W11 m ρ c) (hr11 m ρ c hr) p j).trans ((take_row _ hs j).trans rfl)
  exact ite_eq _ hc hv
theorem h2_13 (r : Fin 100000) (t : Fin 128) : V13 m ρ c main_v29 (ix2 r t) = H2 m ρ c r t := by
  show W13 m ρ c (Proc.devRef .tc main_v29) (ix2 r t) = _
  rw [v29_at13]
theorem inv13 (r : Fin 100000) : V13 m ρ c main_v12 (ix2 r (0 : Fin 1)) = Ideal.div 1 (Spec.deg (dS m c) r) := by
  show W13 m ρ c (Proc.devRef .tc main_v12) (ix2 r (0 : Fin 1)) = _
  rw [v12_at13, inv1]
theorem w3r13 (t : Fin 128) (j : Fin 2) : V13 m ρ c main_v36 (ix2 t j) = W3r m c t j := by
  refine (HostK.w3r_apply (W12 m ρ c) t j).trans ?_
  rw [arg9_at12]
theorem b313 (j : Fin 2) : V13 m ρ c main_v37 (ix2 (0 : Fin 1) j) = b3 m c j := by
  refine (HostK.b3_apply (W12 m ρ c) j).trans ?_
  rw [arg10_at12]

/-- THE KERNEL PROGRAM'S RESULT, read at node r and class q: the network in the kernel's order. -/
theorem result_eq (hr : InRange m c) (r : Fin 100000) (q : Fin 2) :
    W14 m ρ c (Proc.devRef .tc main_v38) (ix2 r q)
      = Spec.netK (gS m c) (dS m c) (X m c) (W1l m c) (W1r m c) (b1 m c) (W2l m c) (W2r m c) (b2 m c) (W3l m c) (W3r m c) (b3 m c) r q := by
  refine (congrFun (W14_arr m ρ c 5) (ix2 r q)).trans ((Reg4.final (V13 m ρ) c r q).trans ?_)
  have hp3 : P3 m ρ c = fun r' => Spec.vm (H2 m ρ c r') (W3l m c) := funext fun r' => funext fun j' => p3_eq m ρ c r' j'
  have hh2 : H2 m ρ c = fun r' => Spec.rrelu (Spec.layerK2 (gS m c) (dS m c) (H1 m ρ c) (W2l m c) (W2r m c) (b2 m c) r') :=
    funext fun r' => funext fun j' => h2_eq m ρ c hr r' j'
  have hh1 : H1 m ρ c = fun r' => Spec.rrelu (Spec.layerK1 (gS m c) (dS m c) (X m c) (W1l m c) (W1r m c) (b1 m c) r') :=
    funext fun r' => funext fun j' => h1_eq m ρ c hr r' j'
  have e1 : (fun j : Fin 2 => V13 m ρ c main_v35 (ix2 r j)) = fun j => Spec.agg (gS m c) (dS m c) (fun r' => Spec.vm (H2 m ρ c r') (W3l m c)) r j :=
    funext fun j => (agg3 m ρ c hr r j).trans (by rw [hp3])
  have e2 : (fun t : Fin 128 => V13 m ρ c main_v29 (ix2 r t)) = H2 m ρ c r := funext fun t => h2_13 m ρ c r t
  have e3 := inv13 m ρ c r
  have e4 : (fun (t : Fin 128) (j : Fin 2) => V13 m ρ c main_v36 (ix2 t j)) = W3r m c := funext fun t => funext fun j => w3r13 m ρ c t j
  have e5 : (fun j : Fin 2 => V13 m ρ c main_v37 (ix2 (0 : Fin 1) j)) = b3 m c := funext fun j => b313 m ρ c j
  rw [e1, e2, e3, e4, e5]
  unfold Spec.netK
  rw [← hh1, ← hh2]
  unfold Spec.layerK2
  rfl

end Cert.KernelIdeal.Chain

end
-- ==== Proof.RefFold.lean ====
/-
  The reference program's result buffer as a staged value.

  Its run leaves the result buffer at the FOLD of its 154 host operations over the launch contents. Opening that fold in one
  piece composes every layer's features into one term in which each layer occurs several times over. Here the fold is
  opened in eight consecutive stretches instead, cut where few values are still needed afterwards:

    1  the two rows of the edge list                       (live afterwards: both rows)
    2  layer 1's mean aggregation                          (live: the mean)
    3  layer 1's projections, bias, row normalisation, relu (live: the layer's output)
    4  layer 2's mean aggregation                          (live: the mean, and layer 1's output for the root projection)
    5  layer 2's projections, bias, normalisation, relu    (live: the layer's output)
    6  layer 3's mean aggregation                          (live: the mean, and layer 2's output)
    7  layer 3's projections, bias, normalisation          (live: the normalised row)
    8  log-softmax                                         (the result)

  For every stretch and every value still needed after it there is one lemma, stated for ARBITRARY contents V before the
  stretch: if the buffers the stretch reads hold the staged values (or the arguments), the buffer it writes holds its
  staged value. Inside one stretch the fold is a short computation. A buffer that a stretch does not write keeps its contents
  through it (the stretch's written buffers are listed, and membership is decided). The fold over the whole list is the
  fold over the stretches in a row, and the facts are threaded from the launch contents to the result.
-/
import proofs.«408524_j60352880443980_3_alg».proof.Proof.RunP
import proofs.«408524_j60352880443980_3_alg».proof.Proof.ReadP
import Idealize.ShloMosaic.Lib.StableHlo.Run
import Idealize.ShloMosaic.Lib.Pipeline.Frame

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-! ## Stretch 1 -/

/-- Operations 1 to 4 of the program, in order. -/
abbrev ops1 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000 ]

/-- The buffers that the operations of stretch 1 write. -/
abbrev W1 : List (Ref sig .tc) := [main_v0, main_v1, main_v2, main_v3]

theorem ops1_writes : (ops1 : List (HloOp τ sig (Elt F))).Forall fun op =>
    op.writes ⊆ (W1.map (Proc.devRef (τ := τ) .tc)).toFinset := by
  simp only [ops1, List.Forall, nullary_writes, unary_writes, binary_writes, ternary_writes, reshape_writes, Finset.singleton_subset_iff, List.mem_toFinset]
  repeat' apply And.intro
  all_goals exact List.mem_map_of_mem (by decide)

/-- A buffer that stretch 1 does not write keeps its contents through it. -/
theorem keep1 (V : Valuation τ sig (Elt F)) (r : Ref sig .tc) (h : r ∉ W1) :
    after (ops1 (F := F)) V (Proc.devRef .tc r) = V (Proc.devRef .tc r) :=
  after_of_writes_sub ops1 V ops1_writes h

/-- The source row of the edge list: row 0 of the edge array, flattened. -/
theorem stage1_v1 (V : Valuation τ sig (Elt F))
    (x1 : (⟨S2x640000, .i32⟩ : BufTy).Contents (Elt F))
    (h1 : V (Proc.devRef .tc main_arg1) = x1) :
    after (ops1 (F := F)) V (Proc.devRef .tc main_v1) = ReadP.val_main_v1 (F := F) x1 := by
  after_results_simp
  rw [h1]
  rfl

/-- The destination row of the edge list: row 1 of the edge array, flattened. -/
theorem stage1_v3 (V : Valuation τ sig (Elt F))
    (x1 : (⟨S2x640000, .i32⟩ : BufTy).Contents (Elt F))
    (h1 : V (Proc.devRef .tc main_arg1) = x1) :
    after (ops1 (F := F)) V (Proc.devRef .tc main_v3) = ReadP.val_main_v3 (F := F) x1 := by
  after_results_simp
  rw [h1]
  rfl

/-! ## Stretch 2 -/

/-- Operations 5 to 29 of the program, in order. -/
abbrev ops2 : List (HloOp τ sig (Elt F)) :=
  [ nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S640000x1 ![0] bcast_S640000_S640000x1_0 : (⟨S640000, .i32⟩ : BufTy).Contents (Elt F) → (⟨S640000x1, .i32⟩ : BufTy).Contents (Elt F)),
    ternary main_v11 main_v12 main_v10 main_v13 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_1 (constant S_ .f32 0x3F800000#32),
    unary main_cst_1 main_v14 (broadcastInDim S640000 ![] bcast_S_S640000 : (⟨S_, .f32⟩ : BufTy).Contents (Elt F) → (⟨S640000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S640000x1 ![0] bcast_S640000_S640000x1_0 : (⟨S640000, .i32⟩ : BufTy).Contents (Elt F) → (⟨S640000x1, .i32⟩ : BufTy).Contents (Elt F)),
    ternary main_v15 main_v16 main_v14 main_v17 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)) ]

/-- The buffers that the operations of stretch 2 write. -/
abbrev W2 : List (Ref sig .tc) := [main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22]

theorem ops2_writes : (ops2 : List (HloOp τ sig (Elt F))).Forall fun op =>
    op.writes ⊆ (W2.map (Proc.devRef (τ := τ) .tc)).toFinset := by
  simp only [ops2, List.Forall, nullary_writes, unary_writes, binary_writes, ternary_writes, reshape_writes, Finset.singleton_subset_iff, List.mem_toFinset]
  repeat' apply And.intro
  all_goals exact List.mem_map_of_mem (by decide)

/-- A buffer that stretch 2 does not write keeps its contents through it. -/
theorem keep2 (V : Valuation τ sig (Elt F)) (r : Ref sig .tc) (h : r ∉ W2) :
    after (ops2 (F := F)) V (Proc.devRef .tc r) = V (Proc.devRef .tc r) :=
  after_of_writes_sub ops2 V ops2_writes h

/-- Layer 1's mean aggregation: the neighbour sums of the input features (gather at the wrapped source words, scatter-add at the destination words from zero) divided by the in-degree floored at one. -/
theorem stage2_v22 (V : Valuation τ sig (Elt F))
    (x0 : (⟨S100000x128, .f32⟩ : BufTy).Contents (Elt F)) (x1 : (⟨S2x640000, .i32⟩ : BufTy).Contents (Elt F))
    (h0 : V (Proc.devRef .tc main_arg0) = x0)
    (hv1 : V (Proc.devRef .tc main_v1) = ReadP.val_main_v1 (F := F) x1)
    (hv3 : V (Proc.devRef .tc main_v3) = ReadP.val_main_v3 (F := F) x1) :
    after (ops2 (F := F)) V (Proc.devRef .tc main_v22) = ReadP.val_main_v22 (F := F) x0 x1 := by
  after_results_simp
  rw [h0, hv1, hv3]
  rfl

/-! ## Stretch 3 -/

/-- Operations 30 to 50 of the program, in order. -/
abbrev ops3 : List (HloOp τ sig (Elt F)) :=
  [ unary main_arg2 main_v23 ((transpose S128x256 [1, 0] · transposes_S256x128_S128x256_1_0) : (⟨S256x128, .f32⟩ : BufTy).Contents (Elt F) → (⟨S128x256, .f32⟩ : BufTy).Contents (Elt F)),
    binary main_v22 main_v23 main_v24 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg4 main_v25 (broadcastInDim S1x256 ![1] bcast_S256_S1x256_1 : (⟨S256, .f32⟩ : BufTy).Contents (Elt F) → (⟨S1x256, .f32⟩ : BufTy).Contents (Elt F)),
    unary main_v25 main_v26 (broadcastInDim S100000x256 ![0, 1] bcast_S1x256_S100000x256_0_1 : (⟨S1x256, .f32⟩ : BufTy).Contents (Elt F) → (⟨S100000x256, .f32⟩ : BufTy).Contents (Elt F)),
    binary main_v24 main_v26 main_v27 (addf : (⟨S100000x256, .f32⟩ : BufTy).Contents (Elt F) → (⟨S100000x256, .f32⟩ : BufTy).Contents (Elt F) → (⟨S100000x256, .f32⟩ : BufTy).Contents (Elt F)),
    unary main_arg3 main_v28 ((transpose S128x256 [1, 0] · transposes_S256x128_S128x256_1_0) : (⟨S256x128, .f32⟩ : BufTy).Contents (Elt F) → (⟨S128x256, .f32⟩ : BufTy).Contents (Elt F)),
    binary main_arg0 main_v28 main_v29 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v27 main_v29 main_v30 (addf : (⟨S100000x256, .f32⟩ : BufTy).Contents (Elt F) → (⟨S100000x256, .f32⟩ : BufTy).Contents (Elt F) → (⟨S100000x256, .f32⟩ : BufTy).Contents (Elt F)),
    TRef.binary (TRef.of (T := ⟨S100000x256, .f32⟩) main_v30) (TRef.of (T := ⟨S100000x256, .f32⟩) main_v30) (TRef.of (T := ⟨S100000x256, .f32⟩) main_call0_v0) mulf,
    TRef.nullary (TRef.of (T := ⟨S_, .f32⟩) main_call0_cst) (constant S_ .f32 0x00000000#32),
    TRef.binary (TRef.of (T := ⟨S100000x256, .f32⟩) main_call0_v0) (TRef.of (T := ⟨S_, .f32⟩) main_call0_cst) (TRef.of (T := ⟨S100000, .f32⟩) main_call0_v1) (fun x v => Host.reduceAdd x v reducesTo_S100000x256_S100000_d1 h_S_),
    TRef.unary (TRef.of (T := ⟨S100000, .f32⟩) main_call0_v1) (TRef.of (T := ⟨S100000x1, .f32⟩) main_call0_v2) (broadcastInDim S100000x1 ![0] bcast_S100000_S100000x1_0),
    TRef.unary (TRef.of (T := ⟨S100000x1, .f32⟩) main_call0_v2) (TRef.of (T := ⟨S100000x1, .f32⟩) main_v31) Host.sqrt,
    nullary main_cst_4 (constant S_ .f32 0x2B8CBCCC#32),
    unary main_cst_4 main_v32 (broadcastInDim S100000x1 ![] bcast_S_S100000x1 : (⟨S_, .f32⟩ : BufTy).Contents (Elt F) → (⟨S100000x1, .f32⟩ : BufTy).Contents (Elt F)),
    binary main_v31 main_v32 main_v33 (maximumf : (⟨S100000x1, .f32⟩ : BufTy).Contents (Elt F) → (⟨S100000x1, .f32⟩ : BufTy).Contents (Elt F) → (⟨S100000x1, .f32⟩ : BufTy).Contents (Elt F)),
    unary main_v33 main_v34 (broadcastInDim S100000x256 ![0, 1] bcast_S100000x1_S100000x256_0_1 : (⟨S100000x1, .f32⟩ : BufTy).Contents (Elt F) → (⟨S100000x256, .f32⟩ : BufTy).Contents (Elt F)),
    binary main_v30 main_v34 main_v35 (Host.divf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x256, .f32⟩) main_call1_v0) (broadcastInDim S100000x256 ![] bcast_S_S100000x256),
    TRef.binary (TRef.of (T := ⟨S100000x256, .f32⟩) main_v35) (TRef.of (T := ⟨S100000x256, .f32⟩) main_call1_v0) (TRef.of (T := ⟨S100000x256, .f32⟩) main_v36) maximumf ]

/-- The buffers that the operations of stretch 3 write. -/
abbrev W3 : List (Ref sig .tc) := [main_v23, main_v24, main_v25, main_v26, main_v27, main_v28, main_v29, main_v30, main_call0_v0, main_call0_cst, main_call0_v1, main_call0_v2, main_v31, main_cst_4, main_v32, main_v33, main_v34, main_v35, main_call1_cst, main_call1_v0, main_v36]

theorem ops3_writes : (ops3 : List (HloOp τ sig (Elt F))).Forall fun op =>
    op.writes ⊆ (W3.map (Proc.devRef (τ := τ) .tc)).toFinset := by
  simp only [ops3, List.Forall, nullary_writes, unary_writes, binary_writes, ternary_writes, reshape_writes, Finset.singleton_subset_iff, List.mem_toFinset]
  repeat' apply And.intro
  all_goals exact List.mem_map_of_mem (by decide)

/-- A buffer that stretch 3 does not write keeps its contents through it. -/
theorem keep3 (V : Valuation τ sig (Elt F)) (r : Ref sig .tc) (h : r ∉ W3) :
    after (ops3 (F := F)) V (Proc.devRef .tc r) = V (Proc.devRef .tc r) :=
  after_of_writes_sub ops3 V ops3_writes h

/-- Layer 1's output: the two projections and the bias added, the row divided by its norm floored at ε, then relu. -/
theorem stage3_v36 (V : Valuation τ sig (Elt F))
    (x0 : (⟨S100000x128, .f32⟩ : BufTy).Contents (Elt F)) (x1 : (⟨S2x640000, .i32⟩ : BufTy).Contents (Elt F)) (x2 : (⟨S256x128, .f32⟩ : BufTy).Contents (Elt F)) (x3 : (⟨S256x128, .f32⟩ : BufTy).Contents (Elt F)) (x4 : (⟨S256, .f32⟩ : BufTy).Contents (Elt F))
    (h0 : V (Proc.devRef .tc main_arg0) = x0)
    (h2 : V (Proc.devRef .tc main_arg2) = x2)
    (h3 : V (Proc.devRef .tc main_arg3) = x3)
    (h4 : V (Proc.devRef .tc main_arg4) = x4)
    (hv22 : V (Proc.devRef .tc main_v22) = ReadP.val_main_v22 (F := F) x0 x1) :
    after (ops3 (F := F)) V (Proc.devRef .tc main_v36) = ReadP.val_main_v36 (F := F) x0 x1 x2 x3 x4 := by
  after_results_simp
  rw [h0, h2, h3, h4, hv22]
  rfl

/-! ## Stretch 4 -/

/-- Operations 51 to 75 of the program, in order. -/
abbrev ops4 : List (HloOp τ sig (Elt F)) :=
  [ nullary main_c_5 (constantI S_ 32 0#32),
    unary main_c_5 main_v37 (broadcastInDim S640000 ![] bcast_S_S640000 : (⟨S_, .i32⟩ : BufTy).Contents (Elt F) → (⟨S640000, .i32⟩ : BufTy).Contents (Elt F)),
    binary main_v1 main_v37 main_v38 (cmpi .slt : (⟨S640000, .i32⟩ : BufTy).Contents (Elt F) → (⟨S640000, .i32⟩ : BufTy).Contents (Elt F) → (⟨S640000, .i1⟩ : BufTy).Contents (Elt F)),
    nullary main_c_6 (constantI S_ 32 100000#32),
    unary main_c_6 main_v39 (broadcastInDim S640000 ![] bcast_S_S640000 : (⟨S_, .i32⟩ : BufTy).Contents (Elt F) → (⟨S640000, .i32⟩ : BufTy).Contents (Elt F)),
    binary main_v1 main_v39 main_v40 (addi : (⟨S640000, .i32⟩ : BufTy).Contents (Elt F) → (⟨S640000, .i32⟩ : BufTy).Contents (Elt F) → (⟨S640000, .i32⟩ : BufTy).Contents (Elt F)),
    ternary main_v38 main_v40 main_v1 main_v41 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v41 main_v42 (broadcastInDim S640000x1 ![0] bcast_S640000_S640000x1_0 : (⟨S640000, .i32⟩ : BufTy).Contents (Elt F) → (⟨S640000x1, .i32⟩ : BufTy).Contents (Elt F)),
    binary main_v36 main_v42 main_v43 ((fun x i => Host.gather gather_S100000x256_S640000x1_S640000x256_1_0_n_n_0_1_1256 x i) : (⟨S100000x256, .f32⟩ : BufTy).Contents (Elt F) → (⟨S640000x1, .i32⟩ : BufTy).Contents (Elt F) → (⟨S640000x256, .f32⟩ : BufTy).Contents (Elt F)),
    nullary main_cst_7 (constant S_ .f32 0x00000000#32),
    unary main_cst_7 main_v44 (broadcastInDim S100000x256 ![] bcast_S_S100000x256 : (⟨S_, .f32⟩ : BufTy).Contents (Elt F) → (⟨S100000x256, .f32⟩ : BufTy).Contents (Elt F)),
    unary main_v3 main_v45 (broadcastInDim S640000x1 ![0] bcast_S640000_S640000x1_0 : (⟨S640000, .i32⟩ : BufTy).Contents (Elt F) → (⟨S640000x1, .i32⟩ : BufTy).Contents (Elt F)),
    ternary main_v44 main_v45 main_v43 main_v46 ((fun x i u => Host.scatterAdd scatter_S100000x256_S640000x1_S640000x256_1_0_0_1 x i u) : (⟨S100000x256, .f32⟩ : BufTy).Contents (Elt F) → (⟨S640000x1, .i32⟩ : BufTy).Contents (Elt F) → (⟨S640000x256, .f32⟩ : BufTy).Contents (Elt F) → (⟨S100000x256, .f32⟩ : BufTy).Contents (Elt F)),
    nullary main_cst_8 (constant S_ .f32 0x3F800000#32),
    unary main_cst_8 main_v47 (broadcastInDim S640000 ![] bcast_S_S640000 : (⟨S_, .f32⟩ : BufTy).Contents (Elt F) → (⟨S640000, .f32⟩ : BufTy).Contents (Elt F)),
    nullary main_cst_9 (constant S_ .f32 0x00000000#32),
    unary main_cst_9 main_v48 (broadcastInDim S100000 ![] bcast_S_S100000 : (⟨S_, .f32⟩ : BufTy).Contents (Elt F) → (⟨S100000, .f32⟩ : BufTy).Contents (Elt F)),
    unary main_v3 main_v49 (broadcastInDim S640000x1 ![0] bcast_S640000_S640000x1_0 : (⟨S640000, .i32⟩ : BufTy).Contents (Elt F) → (⟨S640000x1, .i32⟩ : BufTy).Contents (Elt F)),
    ternary main_v48 main_v49 main_v47 main_v50 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_10 (constant S_ .f32 0x3F800000#32),
    unary main_cst_10 main_v51 (broadcastInDim S100000 ![] bcast_S_S100000 : (⟨S_, .f32⟩ : BufTy).Contents (Elt F) → (⟨S100000, .f32⟩ : BufTy).Contents (Elt F)),
    binary main_v50 main_v51 main_v52 (maximumf : (⟨S100000, .f32⟩ : BufTy).Contents (Elt F) → (⟨S100000, .f32⟩ : BufTy).Contents (Elt F) → (⟨S100000, .f32⟩ : BufTy).Contents (Elt F)),
    unary main_v52 main_v53 (broadcastInDim S100000x1 ![0] bcast_S100000_S100000x1_0 : (⟨S100000, .f32⟩ : BufTy).Contents (Elt F) → (⟨S100000x1, .f32⟩ : BufTy).Contents (Elt F)),
    unary main_v53 main_v54 (broadcastInDim S100000x256 ![0, 1] bcast_S100000x1_S100000x256_0_1 : (⟨S100000x1, .f32⟩ : BufTy).Contents (Elt F) → (⟨S100000x256, .f32⟩ : BufTy).Contents (Elt F)),
    binary main_v46 main_v54 main_v55 (Host.divf : (⟨S100000x256, .f32⟩ : BufTy).Contents (Elt F) → (⟨S100000x256, .f32⟩ : BufTy).Contents (Elt F) → (⟨S100000x256, .f32⟩ : BufTy).Contents (Elt F)) ]

/-- The buffers that the operations of stretch 4 write. -/
abbrev W4 : List (Ref sig .tc) := [main_c_5, main_v37, main_v38, main_c_6, main_v39, main_v40, main_v41, main_v42, main_v43, main_cst_7, main_v44, main_v45, main_v46, main_cst_8, main_v47, main_cst_9, main_v48, main_v49, main_v50, main_cst_10, main_v51, main_v52, main_v53, main_v54, main_v55]

theorem ops4_writes : (ops4 : List (HloOp τ sig (Elt F))).Forall fun op =>
    op.writes ⊆ (W4.map (Proc.devRef (τ := τ) .tc)).toFinset := by
  simp only [ops4, List.Forall, nullary_writes, unary_writes, binary_writes, ternary_writes, reshape_writes, Finset.singleton_subset_iff, List.mem_toFinset]
  repeat' apply And.intro
  all_goals exact List.mem_map_of_mem (by decide)

/-- A buffer that stretch 4 does not write keeps its contents through it. -/
theorem keep4 (V : Valuation τ sig (Elt F)) (r : Ref sig .tc) (h : r ∉ W4) :
    after (ops4 (F := F)) V (Proc.devRef .tc r) = V (Proc.devRef .tc r) :=
  after_of_writes_sub ops4 V ops4_writes h

/-- Layer 2's mean aggregation, of layer 1's output. -/
theorem stage4_v55 (V : Valuation τ sig (Elt F))
    (x0 : (⟨S100000x128, .f32⟩ : BufTy).Contents (Elt F)) (x1 : (⟨S2x640000, .i32⟩ : BufTy).Contents (Elt F)) (x2 : (⟨S256x128, .f32⟩ : BufTy).Contents (Elt F)) (x3 : (⟨S256x128, .f32⟩ : BufTy).Contents (Elt F)) (x4 : (⟨S256, .f32⟩ : BufTy).Contents (Elt F))
    (hv1 : V (Proc.devRef .tc main_v1) = ReadP.val_main_v1 (F := F) x1)
    (hv3 : V (Proc.devRef .tc main_v3) = ReadP.val_main_v3 (F := F) x1)
    (hv36 : V (Proc.devRef .tc main_v36) = ReadP.val_main_v36 (F := F) x0 x1 x2 x3 x4) :
    after (ops4 (F := F)) V (Proc.devRef .tc main_v55) = ReadP.val_main_v55 (F := F) x0 x1 x2 x3 x4 := by
  after_results_simp
  rw [hv1, hv3, hv36]
  rfl

/-! ## Stretch 5 -/

/-- Operations 76 to 96 of the program, in order. -/
abbrev ops5 : List (HloOp τ sig (Elt F)) :=
  [ unary main_arg5 main_v56 ((transpose S256x128 [1, 0] · transposes_S128x256_S256x128_1_0) : (⟨S128x256, .f32⟩ : BufTy).Contents (Elt F) → (⟨S256x128, .f32⟩ : BufTy).Contents (Elt F)),
    binary main_v55 main_v56 main_v57 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg7 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v57 main_v59 main_v60 (addf : (⟨S100000x128, .f32⟩ : BufTy).Contents (Elt F) → (⟨S100000x128, .f32⟩ : BufTy).Contents (Elt F) → (⟨S100000x128, .f32⟩ : BufTy).Contents (Elt F)),
    unary main_arg6 main_v61 ((transpose S256x128 [1, 0] · transposes_S128x256_S256x128_1_0) : (⟨S128x256, .f32⟩ : BufTy).Contents (Elt F) → (⟨S256x128, .f32⟩ : BufTy).Contents (Elt F)),
    binary main_v36 main_v61 main_v62 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    binary main_v60 main_v62 main_v63 (addf : (⟨S100000x128, .f32⟩ : BufTy).Contents (Elt F) → (⟨S100000x128, .f32⟩ : BufTy).Contents (Elt F) → (⟨S100000x128, .f32⟩ : BufTy).Contents (Elt F)),
    TRef.binary (TRef.of (T := ⟨S100000x128, .f32⟩) main_v63) (TRef.of (T := ⟨S100000x128, .f32⟩) main_v63) (TRef.of (T := ⟨S100000x128, .f32⟩) main_call2_v0) mulf,
    TRef.nullary (TRef.of (T := ⟨S_, .f32⟩) main_call2_cst) (constant S_ .f32 0x00000000#32),
    TRef.binary (TRef.of (T := ⟨S100000x128, .f32⟩) main_call2_v0) (TRef.of (T := ⟨S_, .f32⟩) main_call2_cst) (TRef.of (T := ⟨S100000, .f32⟩) main_call2_v1) (fun x v => Host.reduceAdd x v reducesTo_S100000x128_S100000_d1 h_S_),
    TRef.unary (TRef.of (T := ⟨S100000, .f32⟩) main_call2_v1) (TRef.of (T := ⟨S100000x1, .f32⟩) main_call2_v2) (broadcastInDim S100000x1 ![0] bcast_S100000_S100000x1_0),
    TRef.unary (TRef.of (T := ⟨S100000x1, .f32⟩) main_call2_v2) (TRef.of (T := ⟨S100000x1, .f32⟩) main_v64) Host.sqrt,
    nullary main_cst_11 (constant S_ .f32 0x2B8CBCCC#32),
    unary main_cst_11 main_v65 (broadcastInDim S100000x1 ![] bcast_S_S100000x1 : (⟨S_, .f32⟩ : BufTy).Contents (Elt F) → (⟨S100000x1, .f32⟩ : BufTy).Contents (Elt F)),
    binary main_v64 main_v65 main_v66 (maximumf : (⟨S100000x1, .f32⟩ : BufTy).Contents (Elt F) → (⟨S100000x1, .f32⟩ : BufTy).Contents (Elt F) → (⟨S100000x1, .f32⟩ : BufTy).Contents (Elt F)),
    unary main_v66 main_v67 (broadcastInDim S100000x128 ![0, 1] bcast_S100000x1_S100000x128_0_1 : (⟨S100000x1, .f32⟩ : BufTy).Contents (Elt F) → (⟨S100000x128, .f32⟩ : BufTy).Contents (Elt F)),
    binary main_v63 main_v67 main_v68 (Host.divf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v68) (TRef.of (T := ⟨S100000x128, .f32⟩) main_call3_v0) (TRef.of (T := ⟨S100000x128, .f32⟩) main_v69) maximumf ]

/-- The buffers that the operations of stretch 5 write. -/
abbrev W5 : List (Ref sig .tc) := [main_v56, main_v57, main_v58, main_v59, main_v60, main_v61, main_v62, main_v63, main_call2_v0, main_call2_cst, main_call2_v1, main_call2_v2, main_v64, main_cst_11, main_v65, main_v66, main_v67, main_v68, main_call3_cst, main_call3_v0, main_v69]

theorem ops5_writes : (ops5 : List (HloOp τ sig (Elt F))).Forall fun op =>
    op.writes ⊆ (W5.map (Proc.devRef (τ := τ) .tc)).toFinset := by
  simp only [ops5, List.Forall, nullary_writes, unary_writes, binary_writes, ternary_writes, reshape_writes, Finset.singleton_subset_iff, List.mem_toFinset]
  repeat' apply And.intro
  all_goals exact List.mem_map_of_mem (by decide)

/-- A buffer that stretch 5 does not write keeps its contents through it. -/
theorem keep5 (V : Valuation τ sig (Elt F)) (r : Ref sig .tc) (h : r ∉ W5) :
    after (ops5 (F := F)) V (Proc.devRef .tc r) = V (Proc.devRef .tc r) :=
  after_of_writes_sub ops5 V ops5_writes h

/-- Layer 2's output: projections, bias, row normalisation, relu. -/
theorem stage5_v69 (V : Valuation τ sig (Elt F))
    (x0 : (⟨S100000x128, .f32⟩ : BufTy).Contents (Elt F)) (x1 : (⟨S2x640000, .i32⟩ : BufTy).Contents (Elt F)) (x2 : (⟨S256x128, .f32⟩ : BufTy).Contents (Elt F)) (x3 : (⟨S256x128, .f32⟩ : BufTy).Contents (Elt F)) (x4 : (⟨S256, .f32⟩ : BufTy).Contents (Elt F)) (x5 : (⟨S128x256, .f32⟩ : BufTy).Contents (Elt F)) (x6 : (⟨S128x256, .f32⟩ : BufTy).Contents (Elt F)) (x7 : (⟨S128, .f32⟩ : BufTy).Contents (Elt F))
    (h5 : V (Proc.devRef .tc main_arg5) = x5)
    (h6 : V (Proc.devRef .tc main_arg6) = x6)
    (h7 : V (Proc.devRef .tc main_arg7) = x7)
    (hv55 : V (Proc.devRef .tc main_v55) = ReadP.val_main_v55 (F := F) x0 x1 x2 x3 x4)
    (hv36 : V (Proc.devRef .tc main_v36) = ReadP.val_main_v36 (F := F) x0 x1 x2 x3 x4) :
    after (ops5 (F := F)) V (Proc.devRef .tc main_v69) = ReadP.val_main_v69 (F := F) x0 x1 x2 x3 x4 x5 x6 x7 := by
  after_results_simp
  rw [h5, h6, h7, hv55, hv36]
  rfl

/-! ## Stretch 6 -/

/-- Operations 97 to 121 of the program, in order. -/
abbrev ops6 : List (HloOp τ sig (Elt F)) :=
  [ nullary main_c_12 (constantI S_ 32 0#32),
    unary main_c_12 main_v70 (broadcastInDim S640000 ![] bcast_S_S640000 : (⟨S_, .i32⟩ : BufTy).Contents (Elt F) → (⟨S640000, .i32⟩ : BufTy).Contents (Elt F)),
    binary main_v1 main_v70 main_v71 (cmpi .slt : (⟨S640000, .i32⟩ : BufTy).Contents (Elt F) → (⟨S640000, .i32⟩ : BufTy).Contents (Elt F) → (⟨S640000, .i1⟩ : BufTy).Contents (Elt F)),
    nullary main_c_13 (constantI S_ 32 100000#32),
    unary main_c_13 main_v72 (broadcastInDim S640000 ![] bcast_S_S640000 : (⟨S_, .i32⟩ : BufTy).Contents (Elt F) → (⟨S640000, .i32⟩ : BufTy).Contents (Elt F)),
    binary main_v1 main_v72 main_v73 (addi : (⟨S640000, .i32⟩ : BufTy).Contents (Elt F) → (⟨S640000, .i32⟩ : BufTy).Contents (Elt F) → (⟨S640000, .i32⟩ : BufTy).Contents (Elt F)),
    ternary main_v71 main_v73 main_v1 main_v74 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v74 main_v75 (broadcastInDim S640000x1 ![0] bcast_S640000_S640000x1_0 : (⟨S640000, .i32⟩ : BufTy).Contents (Elt F) → (⟨S640000x1, .i32⟩ : BufTy).Contents (Elt F)),
    binary main_v69 main_v75 main_v76 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst_14 (constant S_ .f32 0x00000000#32),
    unary main_cst_14 main_v77 (broadcastInDim S100000x128 ![] bcast_S_S100000x128 : (⟨S_, .f32⟩ : BufTy).Contents (Elt F) → (⟨S100000x128, .f32⟩ : BufTy).Contents (Elt F)),
    unary main_v3 main_v78 (broadcastInDim S640000x1 ![0] bcast_S640000_S640000x1_0 : (⟨S640000, .i32⟩ : BufTy).Contents (Elt F) → (⟨S640000x1, .i32⟩ : BufTy).Contents (Elt F)),
    ternary main_v77 main_v78 main_v76 main_v79 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_15 (constant S_ .f32 0x3F800000#32),
    unary main_cst_15 main_v80 (broadcastInDim S640000 ![] bcast_S_S640000 : (⟨S_, .f32⟩ : BufTy).Contents (Elt F) → (⟨S640000, .f32⟩ : BufTy).Contents (Elt F)),
    nullary main_cst_16 (constant S_ .f32 0x00000000#32),
    unary main_cst_16 main_v81 (broadcastInDim S100000 ![] bcast_S_S100000 : (⟨S_, .f32⟩ : BufTy).Contents (Elt F) → (⟨S100000, .f32⟩ : BufTy).Contents (Elt F)),
    unary main_v3 main_v82 (broadcastInDim S640000x1 ![0] bcast_S640000_S640000x1_0 : (⟨S640000, .i32⟩ : BufTy).Contents (Elt F) → (⟨S640000x1, .i32⟩ : BufTy).Contents (Elt F)),
    ternary main_v81 main_v82 main_v80 main_v83 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_17 (constant S_ .f32 0x3F800000#32),
    unary main_cst_17 main_v84 (broadcastInDim S100000 ![] bcast_S_S100000 : (⟨S_, .f32⟩ : BufTy).Contents (Elt F) → (⟨S100000, .f32⟩ : BufTy).Contents (Elt F)),
    binary main_v83 main_v84 main_v85 (maximumf : (⟨S100000, .f32⟩ : BufTy).Contents (Elt F) → (⟨S100000, .f32⟩ : BufTy).Contents (Elt F) → (⟨S100000, .f32⟩ : BufTy).Contents (Elt F)),
    unary main_v85 main_v86 (broadcastInDim S100000x1 ![0] bcast_S100000_S100000x1_0 : (⟨S100000, .f32⟩ : BufTy).Contents (Elt F) → (⟨S100000x1, .f32⟩ : BufTy).Contents (Elt F)),
    unary main_v86 main_v87 (broadcastInDim S100000x128 ![0, 1] bcast_S100000x1_S100000x128_0_1 : (⟨S100000x1, .f32⟩ : BufTy).Contents (Elt F) → (⟨S100000x128, .f32⟩ : BufTy).Contents (Elt F)),
    binary main_v79 main_v87 main_v88 (Host.divf : (⟨S100000x128, .f32⟩ : BufTy).Contents (Elt F) → (⟨S100000x128, .f32⟩ : BufTy).Contents (Elt F) → (⟨S100000x128, .f32⟩ : BufTy).Contents (Elt F)) ]

/-- The buffers that the operations of stretch 6 write. -/
abbrev W6 : List (Ref sig .tc) := [main_c_12, main_v70, main_v71, main_c_13, main_v72, main_v73, main_v74, main_v75, main_v76, main_cst_14, main_v77, main_v78, main_v79, main_cst_15, main_v80, main_cst_16, main_v81, main_v82, main_v83, main_cst_17, main_v84, main_v85, main_v86, main_v87, main_v88]

theorem ops6_writes : (ops6 : List (HloOp τ sig (Elt F))).Forall fun op =>
    op.writes ⊆ (W6.map (Proc.devRef (τ := τ) .tc)).toFinset := by
  simp only [ops6, List.Forall, nullary_writes, unary_writes, binary_writes, ternary_writes, reshape_writes, Finset.singleton_subset_iff, List.mem_toFinset]
  repeat' apply And.intro
  all_goals exact List.mem_map_of_mem (by decide)

/-- A buffer that stretch 6 does not write keeps its contents through it. -/
theorem keep6 (V : Valuation τ sig (Elt F)) (r : Ref sig .tc) (h : r ∉ W6) :
    after (ops6 (F := F)) V (Proc.devRef .tc r) = V (Proc.devRef .tc r) :=
  after_of_writes_sub ops6 V ops6_writes h

/-- Layer 3's mean aggregation, of layer 2's output. -/
theorem stage6_v88 (V : Valuation τ sig (Elt F))
    (x0 : (⟨S100000x128, .f32⟩ : BufTy).Contents (Elt F)) (x1 : (⟨S2x640000, .i32⟩ : BufTy).Contents (Elt F)) (x2 : (⟨S256x128, .f32⟩ : BufTy).Contents (Elt F)) (x3 : (⟨S256x128, .f32⟩ : BufTy).Contents (Elt F)) (x4 : (⟨S256, .f32⟩ : BufTy).Contents (Elt F)) (x5 : (⟨S128x256, .f32⟩ : BufTy).Contents (Elt F)) (x6 : (⟨S128x256, .f32⟩ : BufTy).Contents (Elt F)) (x7 : (⟨S128, .f32⟩ : BufTy).Contents (Elt F))
    (hv1 : V (Proc.devRef .tc main_v1) = ReadP.val_main_v1 (F := F) x1)
    (hv3 : V (Proc.devRef .tc main_v3) = ReadP.val_main_v3 (F := F) x1)
    (hv69 : V (Proc.devRef .tc main_v69) = ReadP.val_main_v69 (F := F) x0 x1 x2 x3 x4 x5 x6 x7) :
    after (ops6 (F := F)) V (Proc.devRef .tc main_v88) = ReadP.val_main_v88 (F := F) x0 x1 x2 x3 x4 x5 x6 x7 := by
  after_results_simp
  rw [hv1, hv3, hv69]
  rfl

/-! ## Stretch 7 -/

/-- Operations 122 to 139 of the program, in order. -/
abbrev ops7 : List (HloOp τ sig (Elt F)) :=
  [ unary main_arg8 main_v89 ((transpose S128x2 [1, 0] · transposes_S2x128_S128x2_1_0) : (⟨S2x128, .f32⟩ : BufTy).Contents (Elt F) → (⟨S128x2, .f32⟩ : BufTy).Contents (Elt F)),
    binary main_v88 main_v89 main_v90 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    unary main_arg10 main_v91 (broadcastInDim S1x2 ![1] bcast_S2_S1x2_1 : (⟨S2, .f32⟩ : BufTy).Contents (Elt F) → (⟨S1x2, .f32⟩ : BufTy).Contents (Elt F)),
    unary main_v91 main_v92 (broadcastInDim S100000x2 ![0, 1] bcast_S1x2_S100000x2_0_1 : (⟨S1x2, .f32⟩ : BufTy).Contents (Elt F) → (⟨S100000x2, .f32⟩ : BufTy).Contents (Elt F)),
    binary main_v90 main_v92 main_v93 (addf : (⟨S100000x2, .f32⟩ : BufTy).Contents (Elt F) → (⟨S100000x2, .f32⟩ : BufTy).Contents (Elt F) → (⟨S100000x2, .f32⟩ : BufTy).Contents (Elt F)),
    unary main_arg9 main_v94 ((transpose S128x2 [1, 0] · transposes_S2x128_S128x2_1_0) : (⟨S2x128, .f32⟩ : BufTy).Contents (Elt F) → (⟨S128x2, .f32⟩ : BufTy).Contents (Elt F)),
    binary main_v69 main_v94 main_v95 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    binary main_v93 main_v95 main_v96 (addf : (⟨S100000x2, .f32⟩ : BufTy).Contents (Elt F) → (⟨S100000x2, .f32⟩ : BufTy).Contents (Elt F) → (⟨S100000x2, .f32⟩ : BufTy).Contents (Elt F)),
    TRef.binary (TRef.of (T := ⟨S100000x2, .f32⟩) main_v96) (TRef.of (T := ⟨S100000x2, .f32⟩) main_v96) (TRef.of (T := ⟨S100000x2, .f32⟩) main_call4_v0) mulf,
    TRef.nullary (TRef.of (T := ⟨S_, .f32⟩) main_call4_cst) (constant S_ .f32 0x00000000#32),
    TRef.binary (TRef.of (T := ⟨S100000x2, .f32⟩) main_call4_v0) (TRef.of (T := ⟨S_, .f32⟩) main_call4_cst) (TRef.of (T := ⟨S100000, .f32⟩) main_call4_v1) (fun x v => Host.reduceAdd x v reducesTo_S100000x2_S100000_d1 h_S_),
    TRef.unary (TRef.of (T := ⟨S100000, .f32⟩) main_call4_v1) (TRef.of (T := ⟨S100000x1, .f32⟩) main_call4_v2) (broadcastInDim S100000x1 ![0] bcast_S100000_S100000x1_0),
    TRef.unary (TRef.of (T := ⟨S100000x1, .f32⟩) main_call4_v2) (TRef.of (T := ⟨S100000x1, .f32⟩) main_v97) Host.sqrt,
    nullary main_cst_18 (constant S_ .f32 0x2B8CBCCC#32),
    unary main_cst_18 main_v98 (broadcastInDim S100000x1 ![] bcast_S_S100000x1 : (⟨S_, .f32⟩ : BufTy).Contents (Elt F) → (⟨S100000x1, .f32⟩ : BufTy).Contents (Elt F)),
    binary main_v97 main_v98 main_v99 (maximumf : (⟨S100000x1, .f32⟩ : BufTy).Contents (Elt F) → (⟨S100000x1, .f32⟩ : BufTy).Contents (Elt F) → (⟨S100000x1, .f32⟩ : BufTy).Contents (Elt F)),
    unary main_v99 main_v100 (broadcastInDim S100000x2 ![0, 1] bcast_S100000x1_S100000x2_0_1 : (⟨S100000x1, .f32⟩ : BufTy).Contents (Elt F) → (⟨S100000x2, .f32⟩ : BufTy).Contents (Elt F)),
    binary main_v96 main_v100 main_v101 (Host.divf : (⟨S100000x2, .f32⟩ : BufTy).Contents (Elt F) → (⟨S100000x2, .f32⟩ : BufTy).Contents (Elt F) → (⟨S100000x2, .f32⟩ : BufTy).Contents (Elt F)) ]

/-- The buffers that the operations of stretch 7 write. -/
abbrev W7 : List (Ref sig .tc) := [main_v89, main_v90, main_v91, main_v92, main_v93, main_v94, main_v95, main_v96, main_call4_v0, main_call4_cst, main_call4_v1, main_call4_v2, main_v97, main_cst_18, main_v98, main_v99, main_v100, main_v101]

theorem ops7_writes : (ops7 : List (HloOp τ sig (Elt F))).Forall fun op =>
    op.writes ⊆ (W7.map (Proc.devRef (τ := τ) .tc)).toFinset := by
  simp only [ops7, List.Forall, nullary_writes, unary_writes, binary_writes, ternary_writes, reshape_writes, Finset.singleton_subset_iff, List.mem_toFinset]
  repeat' apply And.intro
  all_goals exact List.mem_map_of_mem (by decide)

/-- A buffer that stretch 7 does not write keeps its contents through it. -/
theorem keep7 (V : Valuation τ sig (Elt F)) (r : Ref sig .tc) (h : r ∉ W7) :
    after (ops7 (F := F)) V (Proc.devRef .tc r) = V (Proc.devRef .tc r) :=
  after_of_writes_sub ops7 V ops7_writes h

/-- Layer 3's pre-activation, row-normalised (no relu on the last layer). -/
theorem stage7_v101 (V : Valuation τ sig (Elt F))
    (x0 : (⟨S100000x128, .f32⟩ : BufTy).Contents (Elt F)) (x1 : (⟨S2x640000, .i32⟩ : BufTy).Contents (Elt F)) (x2 : (⟨S256x128, .f32⟩ : BufTy).Contents (Elt F)) (x3 : (⟨S256x128, .f32⟩ : BufTy).Contents (Elt F)) (x4 : (⟨S256, .f32⟩ : BufTy).Contents (Elt F)) (x5 : (⟨S128x256, .f32⟩ : BufTy).Contents (Elt F)) (x6 : (⟨S128x256, .f32⟩ : BufTy).Contents (Elt F)) (x7 : (⟨S128, .f32⟩ : BufTy).Contents (Elt F)) (x8 : (⟨S2x128, .f32⟩ : BufTy).Contents (Elt F)) (x9 : (⟨S2x128, .f32⟩ : BufTy).Contents (Elt F)) (x10 : (⟨S2, .f32⟩ : BufTy).Contents (Elt F))
    (h8 : V (Proc.devRef .tc main_arg8) = x8)
    (h9 : V (Proc.devRef .tc main_arg9) = x9)
    (h10 : V (Proc.devRef .tc main_arg10) = x10)
    (hv88 : V (Proc.devRef .tc main_v88) = ReadP.val_main_v88 (F := F) x0 x1 x2 x3 x4 x5 x6 x7)
    (hv69 : V (Proc.devRef .tc main_v69) = ReadP.val_main_v69 (F := F) x0 x1 x2 x3 x4 x5 x6 x7) :
    after (ops7 (F := F)) V (Proc.devRef .tc main_v101) = ReadP.val_main_v101 (F := F) x0 x1 x2 x3 x4 x5 x6 x7 x8 x9 x10 := by
  after_results_simp
  rw [h8, h9, h10, hv88, hv69]
  rfl

/-! ## Stretch 8 -/

/-- Operations 140 to 154 of the program, in order. -/
abbrev ops8 : List (HloOp τ sig (Elt F)) :=
  [ TRef.nullary (TRef.of (T := ⟨S_, .f32⟩) main_call5_cst) (constant S_ .f32 0xFF800000#32),
    TRef.binary (TRef.of (T := ⟨S100000x2, .f32⟩) main_v101) (TRef.of (T := ⟨S_, .f32⟩) main_call5_cst) (TRef.of (T := ⟨S100000, .f32⟩) main_call5_v0) (fun x v => Host.reduce FloatOps.maximumf x v reducesTo_S100000x2_S100000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf,
    TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x2, .f32⟩) main_call5_v4) (broadcastInDim S100000x2 ![0, 1] bcast_S100000x1_S100000x2_0_1),
    TRef.binary (TRef.of (T := ⟨S100000x2, .f32⟩) main_v101) (TRef.of (T := ⟨S100000x2, .f32⟩) main_call5_v4) (TRef.of (T := ⟨S100000x2, .f32⟩) main_call5_v5) subf,
    TRef.unary (TRef.of (T := ⟨S100000x2, .f32⟩) main_call5_v5) (TRef.of (T := ⟨S100000x2, .f32⟩) main_call5_v6) Host.exp,
    TRef.nullary (TRef.of (T := ⟨S_, .f32⟩) main_call5_cst_1) (constant S_ .f32 0x00000000#32),
    TRef.binary (TRef.of (T := ⟨S100000x2, .f32⟩) main_call5_v6) (TRef.of (T := ⟨S_, .f32⟩) main_call5_cst_1) (TRef.of (T := ⟨S100000, .f32⟩) main_call5_v7) (fun x v => Host.reduceAdd x v reducesTo_S100000x2_S100000_d1 h_S_),
    TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x2, .f32⟩) main_call5_v10) (broadcastInDim S100000x2 ![0, 1] bcast_S100000x1_S100000x2_0_1),
    TRef.binary (TRef.of (T := ⟨S100000x2, .f32⟩) main_call5_v5) (TRef.of (T := ⟨S100000x2, .f32⟩) main_call5_v10) (TRef.of (T := ⟨S100000x2, .f32⟩) main_v102) subf ]

/-- The log-softmax of the last layer's rows. -/
theorem stage8_v102 (V : Valuation τ sig (Elt F))
    (x0 : (⟨S100000x128, .f32⟩ : BufTy).Contents (Elt F)) (x1 : (⟨S2x640000, .i32⟩ : BufTy).Contents (Elt F)) (x2 : (⟨S256x128, .f32⟩ : BufTy).Contents (Elt F)) (x3 : (⟨S256x128, .f32⟩ : BufTy).Contents (Elt F)) (x4 : (⟨S256, .f32⟩ : BufTy).Contents (Elt F)) (x5 : (⟨S128x256, .f32⟩ : BufTy).Contents (Elt F)) (x6 : (⟨S128x256, .f32⟩ : BufTy).Contents (Elt F)) (x7 : (⟨S128, .f32⟩ : BufTy).Contents (Elt F)) (x8 : (⟨S2x128, .f32⟩ : BufTy).Contents (Elt F)) (x9 : (⟨S2x128, .f32⟩ : BufTy).Contents (Elt F)) (x10 : (⟨S2, .f32⟩ : BufTy).Contents (Elt F))
    (hv101 : V (Proc.devRef .tc main_v101) = ReadP.val_main_v101 (F := F) x0 x1 x2 x3 x4 x5 x6 x7 x8 x9 x10) :
    after (ops8 (F := F)) V (Proc.devRef .tc main_v102) = ReadP.val_main_v102 (F := F) x0 x1 x2 x3 x4 x5 x6 x7 x8 x9 x10 := by
  after_results_simp
  rw [hv101]
  -- the typed references of the inlined function carry identity casts
  simp only [TRef.ofBuf, TRef.toBuf, cast_eq]
  rfl

/-! ## The whole fold -/

/-- The program's operations are the eight stretches in a row. -/
theorem ops_split : (ValueP.ops : List (HloOp τ sig (Elt F))) = ops1 ++ ops2 ++ ops3 ++ ops4 ++ ops5 ++ ops6 ++ ops7 ++ ops8 := rfl

/-- The program's arguments. -/
abbrev Args : List (Ref sig .tc) := [main_arg0, main_arg1, main_arg2, main_arg3, main_arg4, main_arg5, main_arg6, main_arg7, main_arg8, main_arg9, main_arg10]

/-- A line of operations that writes no argument leaves every argument as it was. -/
theorem keep_args {l : List (HloOp τ sig (Elt F))} {W : List (Ref sig .tc)}
    (hW : l.Forall fun op => op.writes ⊆ (W.map (Proc.devRef (τ := τ) .tc)).toFinset) (hd : ∀ r ∈ Args, r ∉ W)
    {V V0 : Valuation τ sig (Elt F)} (H : ∀ r ∈ Args, V (Proc.devRef .tc r) = V0 (Proc.devRef .tc r)) :
    ∀ r ∈ Args, after l V (Proc.devRef .tc r) = V0 (Proc.devRef .tc r) :=
  fun r hr => (after_of_writes_sub l V hW (hd r hr)).trans (H r hr)

/-- The eight stretches run in a row from any contents V0 leave the result buffer at the staged value of V0's arguments. -/
theorem fold_stretches (V0 : Valuation τ sig (Elt F)) :
    after (ops8 (F := F)) (after ops7 (after ops6 (after ops5 (after ops4 (after ops3 (after ops2 (after ops1 V0)))))))
        (Proc.devRef .tc main_v102)
      = ReadP.val_main_v102 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  have A0 : ∀ r ∈ Args, V0 (Proc.devRef .tc r) = V0 (Proc.devRef .tc r) := fun _ _ => rfl
  -- stretch 1: the edge rows
  have A1 := keep_args ops1_writes (by decide) A0
  have v1 := stage1_v1 V0 _ rfl
  have v3 := stage1_v3 V0 _ rfl
  generalize after (ops1 (F := F)) V0 = V1 at A1 v1 v3 ⊢
  -- stretch 2: layer 1's mean
  have A2 := keep_args ops2_writes (by decide) A1
  have v22 := stage2_v22 V1 _ _ (A1 main_arg0 (by decide)) v1 v3
  replace v1 := (keep2 V1 main_v1 (by decide)).trans v1
  replace v3 := (keep2 V1 main_v3 (by decide)).trans v3
  clear A1
  generalize after (ops2 (F := F)) V1 = V2 at A2 v1 v3 v22 ⊢
  -- stretch 3: layer 1's output
  have A3 := keep_args ops3_writes (by decide) A2
  have v36 := stage3_v36 V2 _ _ _ _ _ (A2 main_arg0 (by decide)) (A2 main_arg2 (by decide)) (A2 main_arg3 (by decide))
    (A2 main_arg4 (by decide)) v22
  replace v1 := (keep3 V2 main_v1 (by decide)).trans v1
  replace v3 := (keep3 V2 main_v3 (by decide)).trans v3
  clear A2 v22
  generalize after (ops3 (F := F)) V2 = V3 at A3 v1 v3 v36 ⊢
  -- stretch 4: layer 2's mean
  have A4 := keep_args ops4_writes (by decide) A3
  have v55 := stage4_v55 V3 _ _ _ _ _ v1 v3 v36
  replace v1 := (keep4 V3 main_v1 (by decide)).trans v1
  replace v3 := (keep4 V3 main_v3 (by decide)).trans v3
  replace v36 := (keep4 V3 main_v36 (by decide)).trans v36
  clear A3
  generalize after (ops4 (F := F)) V3 = V4 at A4 v1 v3 v36 v55 ⊢
  -- stretch 5: layer 2's output
  have A5 := keep_args ops5_writes (by decide) A4
  have v69 := stage5_v69 V4 _ _ _ _ _ _ _ _ (A4 main_arg5 (by decide)) (A4 main_arg6 (by decide)) (A4 main_arg7 (by decide))
    v55 v36
  replace v1 := (keep5 V4 main_v1 (by decide)).trans v1
  replace v3 := (keep5 V4 main_v3 (by decide)).trans v3
  clear A4 v36 v55
  generalize after (ops5 (F := F)) V4 = V5 at A5 v1 v3 v69 ⊢
  -- stretch 6: layer 3's mean
  have A6 := keep_args ops6_writes (by decide) A5
  have v88 := stage6_v88 V5 _ _ _ _ _ _ _ _ v1 v3 v69
  replace v69 := (keep6 V5 main_v69 (by decide)).trans v69
  clear A5 v1 v3
  generalize after (ops6 (F := F)) V5 = V6 at A6 v69 v88 ⊢
  -- stretch 7: layer 3's normalised row
  have v101 := stage7_v101 V6 _ _ _ _ _ _ _ _ _ _ _ (A6 main_arg8 (by decide)) (A6 main_arg9 (by decide))
    (A6 main_arg10 (by decide)) v88 v69
  clear A6 v69 v88
  generalize after (ops7 (F := F)) V6 = V7 at v101 ⊢
  -- stretch 8: log-softmax
  exact stage8_v102 V7 _ _ _ _ _ _ _ _ _ _ _ v101

/-- What the reference's run leaves in its result buffer — the fold of its operations over the launch contents, read at
    the result — is the staged value of the launch's arguments. -/
theorem fold_eq_val (m : (ℓ : Loc nD τ sig) → Buf (Elt F) ℓ) (c : Dev nD) :
    StableHlo.after (ValueP.ops (F := F)) (StableHlo.launchContents m c) (Proc.devRef .tc main_v102)
      = ReadP.val_main_v102 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [ops_split]
  simp only [StableHlo.after_append]
  exact fold_stretches (launchContents m c)

end Cert.ReferenceIdeal.RefFold

end
-- ==== Proof.RefL1.lean ====
/-
  Layer 1 of the reference program read at one node and one output column.

  The program wraps each edge's source word, takes the rows of the feature matrix at the wrapped words, adds them
  into a zero matrix at the destination words (the neighbour sum), adds ones into a zero vector at the same words (the
  in-degree), floors the degree at one, divides, multiplies by the two transposed weight matrices, adds the bias and
  the two products in the order ((mean Wl + b) + h Wr), divides each row by its Euclidean norm floored at ε, and takes
  the maximum with zero. Read at the element (r, j) this is relu of the textbook layer at node r, column j.
-/
import proofs.«408524_j60352880443980_3_alg».proof.Proof.ReadP
import proofs.«408524_j60352880443980_3_alg».proof.Proof.Net
import proofs.«408524_j60352880443980_3_alg».proof.Proof.Edges
import proofs.«408524_j60352880443980_3_alg».proof.Proof.LibRows
import Idealize.ShloMosaic.Lib.IdealHost
import Idealize.ShloMosaic.PureOps.Ideal.Laws
import Idealize.ShloMosaic.Lib.ValueIdx
import Idealize.ShloMosaic.Lib.Pipeline.Value

noncomputable section

open scoped BigOperators

namespace Cert.ReferenceIdeal.RefL1

open Cert Cert.ReferenceIdeal Cert.ReferenceIdeal.Gen Idealize.ShloMosaic Idealize.ShloMosaic.ValueIdx
open Cert.ReferenceIdeal.ReadP

/-! ## The edge words -/

/-- Slicing row 0 of the edge array and flattening it reads the source word of edge p. -/
theorem idx_src (p : Fin 640000) : idx_main_v0 (idx_main_v1 (ix1 p)) = ix2 (0 : Fin 2) p :=
  funext fun a => Fin.ext (by
    match a with
    | ⟨0, _⟩ => rfl
    | ⟨1, _⟩ => exact Nat.mod_eq_of_lt p.isLt)

/-- Slicing row 1 of the edge array and flattening it reads the destination word of edge p. -/
theorem idx_dst (p : Fin 640000) : idx_main_v2 (idx_main_v3 (ix1 p)) = ix2 (1 : Fin 2) p :=
  funext fun a => Fin.ext (by
    match a with
    | ⟨0, _⟩ => rfl
    | ⟨1, _⟩ => exact Nat.mod_eq_of_lt p.isLt)

/-- The column of start indices at (p, 0) is the flat vector at p. -/
theorem idx_col9 (p : Fin 640000) : idx_main_v9 (ix2 p (0 : Fin 1)) = ix1 p :=
  funext fun a => Fin.ext (by match a with | ⟨0, _⟩ => rfl)
theorem idx_col12 (p : Fin 640000) : idx_main_v12 (ix2 p (0 : Fin 1)) = ix1 p :=
  funext fun a => Fin.ext (by match a with | ⟨0, _⟩ => rfl)
theorem idx_col16 (p : Fin 640000) : idx_main_v16 (ix2 p (0 : Fin 1)) = ix1 p :=
  funext fun a => Fin.ext (by match a with | ⟨0, _⟩ => rfl)

/-- The wrapped source word of edge p: a negative word has the node count added. -/
theorem wrap_eq (x1 : (⟨S2x640000, .i32⟩ : BufTy).Contents (Elt Ideal)) (p : Fin 640000) :
    val_main_v8 (F := Ideal) x1 (ix1 p) = Edges.wrapw (x1 (ix2 (0 : Fin 2) p)) := by
  rw [val_main_v8_apply, val_main_v5_apply, val_main_v7_apply, val_main_v4_apply, val_main_v6_apply,
    val_main_c_apply, val_main_c_0_apply, val_main_v1_apply, val_main_v0_apply, idx_src]
  rfl

/-- The destination word of edge p, read signed. -/
theorem dst_eq (x1 : (⟨S2x640000, .i32⟩ : BufTy).Contents (Elt Ideal)) (p : Fin 640000) :
    (val_main_v3 (F := Ideal) x1 (ix1 p)).toInt = Edges.dstWord x1 p := by
  rw [val_main_v3_apply, val_main_v2_apply, idx_dst]
  rfl

/-! ## Rows taken and rows added -/

/-- The gathered row of edge p is the feature row its wrapped, clamped source word names. -/
theorem gather_eq (x0 : (⟨S100000x128, .f32⟩ : BufTy).Contents (Elt Ideal))
    (x1 : (⟨S2x640000, .i32⟩ : BufTy).Contents (Elt Ideal)) (p : Fin 640000) (q : Fin 128) :
    val_main_v10 (F := Ideal) x0 x1 (ix2 p q) = x0 (ix2 (Edges.srcRow x1 p) q) := by
  unfold val_main_v10
  change Host.gather (LibRows.rowGatherDims 100000 640000 128
    gather_S100000x128_S640000x1_S640000x128_1_0_n_n_0_1_1128_wf) x0 (val_main_v9 (F := Ideal) x1) (ix2 p q) = _
  rw [LibRows.rowGather_apply (by decide)]
  have h : val_main_v9 (F := Ideal) x1 (ix2 p (0 : Fin 1)) = Edges.wrapw (x1 (ix2 (0 : Fin 2) p)) := by
    rw [val_main_v9_apply, idx_col9, wrap_eq]
  refine congrArg x0 (congrArg (fun a => ix2 a q) (Fin.ext ?_))
  exact congrArg (fun w : BitVec 32 => min w.toInt.toNat (100000 - 1)) h

/-- The neighbour sum of node r, column q: zero plus the rows of the edges whose destination word is r. -/
theorem agg_eq (x0 : (⟨S100000x128, .f32⟩ : BufTy).Contents (Elt Ideal))
    (x1 : (⟨S2x640000, .i32⟩ : BufTy).Contents (Elt Ideal)) (r : Fin 100000) (q : Fin 128) :
    val_main_v13 (F := Ideal) x0 x1 (ix2 r q)
      = Spec.agg (Edges.srcRow x1) (Edges.dstWord x1) (fun (r' : Fin 100000) (t : Fin 128) => x0 (ix2 r' t)) r q := by
  unfold val_main_v13
  change Host.scatterAdd (F := Ideal) (φ := .f32) (LibRows.rowScatterDims 100000 640000 128
    scatter_S100000x128_S640000x1_S640000x128_1_0_0_1_wf) (val_main_v11 (F := Ideal)) (val_main_v12 (F := Ideal) x1)
    (val_main_v10 (F := Ideal) x0 x1) (ix2 r q) = _
  rw [LibRows.rowScatterAdd_apply, val_main_v11_apply, val_main_cst_apply, Ideal.ofBits_def, Ideal.ofBits_zero_f32]
  unfold Spec.agg
  refine congrArg (0 + ·) (Finset.sum_congr rfl fun p _ => ?_)
  rw [val_main_v12_apply, idx_col12, dst_eq, gather_eq]

/-- The in-degree of node r: zero plus one for each edge whose destination word is r. -/
theorem cnt_eq (x1 : (⟨S2x640000, .i32⟩ : BufTy).Contents (Elt Ideal)) (r : Fin 100000) :
    val_main_v17 (F := Ideal) x1 (ix1 r) = Spec.cnt (n := 100000) (Edges.dstWord x1) r := by
  unfold val_main_v17
  change Host.scatterAdd (F := Ideal) (φ := .f32) (LibRows.rowScatterDims1 100000 640000
    scatter_S100000_S640000x1_S640000_n_0_0_1_wf) (val_main_v15 (F := Ideal)) (val_main_v16 (F := Ideal) x1)
    (val_main_v14 (F := Ideal)) (ix1 r) = _
  rw [LibRows.rowScatterAdd1_apply, val_main_v15_apply, val_main_cst_2_apply, Ideal.ofBits_def, Ideal.ofBits_zero_f32]
  unfold Spec.cnt
  refine congrArg (0 + ·) (Finset.sum_congr rfl fun p _ => ?_)
  rw [val_main_v16_apply, idx_col16, dst_eq, val_main_v14_apply, val_main_cst_1_apply, Ideal.ofBits_def,
    Ideal.ofBits_one_f32]

/-! ## The pre-activation row -/

/-- The degree column (r, 0) broadcast along the feature axis, and the flat degree at r. -/
theorem idx_deg (r : Fin 100000) (t : Fin 128) : idx_main_v20 (idx_main_v21 (ix2 r t)) = ix1 r :=
  funext fun a => Fin.ext (by match a with | ⟨0, _⟩ => rfl)

/-- The two products contract the feature axis: the left operand is read at (r, k) … -/
theorem idx_l24 (r : Fin 100000) (j : Fin 256) (k : Fin 128) : lidx_main_v24 (ix2 r j) k = ix2 r k :=
  funext fun a => Fin.ext (by match a with | ⟨0, _⟩ => rfl | ⟨1, _⟩ => rfl)
theorem idx_l29 (r : Fin 100000) (j : Fin 256) (k : Fin 128) : lidx_main_v29 (ix2 r j) k = ix2 r k :=
  funext fun a => Fin.ext (by match a with | ⟨0, _⟩ => rfl | ⟨1, _⟩ => rfl)
/-- … and the transposed weight at (k, j), which is the weight at (j, k). -/
theorem idx_r24 (r : Fin 100000) (j : Fin 256) (k : Fin 128) :
    idx_main_v23 (ridx_main_v24 (ix2 r j) k) = ix2 j k :=
  funext fun a => Fin.ext (by match a with | ⟨0, _⟩ => rfl | ⟨1, _⟩ => rfl)
theorem idx_r29 (r : Fin 100000) (j : Fin 256) (k : Fin 128) :
    idx_main_v28 (ridx_main_v29 (ix2 r j) k) = ix2 j k :=
  funext fun a => Fin.ext (by match a with | ⟨0, _⟩ => rfl | ⟨1, _⟩ => rfl)
/-- The bias broadcast over the rows reads the bias at column j. -/
theorem idx_bias (r : Fin 100000) (j : Fin 256) : idx_main_v25 (idx_main_v26 (ix2 r j)) = ix1 j :=
  funext fun a => Fin.ext (by match a with | ⟨0, _⟩ => rfl)

/-- The mean's divisor at node r: the in-degree floored at one. -/
theorem deg_eq (x1 : (⟨S2x640000, .i32⟩ : BufTy).Contents (Elt Ideal)) (r : Fin 100000) :
    val_main_v19 (F := Ideal) x1 (ix1 r) = Spec.deg (n := 100000) (Edges.dstWord x1) r := by
  rw [val_main_v19_apply, cnt_eq, val_main_v18_apply, val_main_cst_3_apply, Ideal.ofBits_def, Ideal.ofBits_one_f32,
    Ideal.maximumf_def]
  rfl

/-- The mean of the neighbours' rows at (r, t). -/
theorem mean_eq (x0 : (⟨S100000x128, .f32⟩ : BufTy).Contents (Elt Ideal))
    (x1 : (⟨S2x640000, .i32⟩ : BufTy).Contents (Elt Ideal)) (r : Fin 100000) (t : Fin 128) :
    val_main_v22 (F := Ideal) x0 x1 (ix2 r t)
      = Ideal.div (Spec.agg (Edges.srcRow x1) (Edges.dstWord x1) (fun (r' : Fin 100000) (t' : Fin 128) => x0 (ix2 r' t')) r t)
          (Spec.deg (n := 100000) (Edges.dstWord x1) r) := by
  rw [val_main_v22_apply, agg_eq, val_main_v21_apply, val_main_v20_apply, idx_deg, deg_eq, Ideal.hostDivf_def]

/-- The product of the mean row with the first transposed weight, at (r, j). -/
theorem dotl_eq (x0 : (⟨S100000x128, .f32⟩ : BufTy).Contents (Elt Ideal))
    (x1 : (⟨S2x640000, .i32⟩ : BufTy).Contents (Elt Ideal))
    (x2 : (⟨S256x128, .f32⟩ : BufTy).Contents (Elt Ideal)) (r : Fin 100000) (j : Fin 256) :
    val_main_v24 (F := Ideal) x0 x1 x2 (ix2 r j)
      = Spec.vm (fun t : Fin 128 => Ideal.div
            (Spec.agg (Edges.srcRow x1) (Edges.dstWord x1) (fun (r' : Fin 100000) (t' : Fin 128) => x0 (ix2 r' t')) r t)
            (Spec.deg (n := 100000) (Edges.dstWord x1) r))
          (fun (t : Fin 128) (j' : Fin 256) => x2 (ix2 j' t)) j := by
  rw [val_main_v24_apply]
  unfold Spec.vm
  exact Finset.sum_congr rfl fun k _ => by rw [idx_l24, mean_eq, val_main_v23_apply, idx_r24]

/-- The product of the node's own row with the second transposed weight, at (r, j). -/
theorem dotr_eq (x0 : (⟨S100000x128, .f32⟩ : BufTy).Contents (Elt Ideal))
    (x3 : (⟨S256x128, .f32⟩ : BufTy).Contents (Elt Ideal)) (r : Fin 100000) (j : Fin 256) :
    val_main_v29 (F := Ideal) x0 x3 (ix2 r j)
      = Spec.vm (fun t : Fin 128 => x0 (ix2 r t)) (fun (t : Fin 128) (j' : Fin 256) => x3 (ix2 j' t)) j := by
  rw [val_main_v29_apply]
  unfold Spec.vm
  exact Finset.sum_congr rfl fun k _ => by rw [idx_l29, val_main_v28_apply, idx_r29]

/-- The pre-activation row of node r: ((mean Wl + b) + h Wr), the weights read transposed. -/
abbrev pre (x0 : (⟨S100000x128, .f32⟩ : BufTy).Contents (Elt Ideal))
    (x1 : (⟨S2x640000, .i32⟩ : BufTy).Contents (Elt Ideal))
    (x2 x3 : (⟨S256x128, .f32⟩ : BufTy).Contents (Elt Ideal))
    (x4 : (⟨S256, .f32⟩ : BufTy).Contents (Elt Ideal)) (r : Fin 100000) : Fin 256 → EReal :=
  Spec.rowRef
    (fun t => Spec.agg (Edges.srcRow x1) (Edges.dstWord x1) (fun (r' : Fin 100000) (t' : Fin 128) => x0 (ix2 r' t')) r t)
    (fun t : Fin 128 => x0 (ix2 r t)) (Spec.deg (n := 100000) (Edges.dstWord x1) r)
    (fun (t : Fin 128) (j' : Fin 256) => x2 (ix2 j' t)) (fun (t : Fin 128) (j' : Fin 256) => x3 (ix2 j' t))
    (fun j' : Fin 256 => x4 (ix1 j'))

/-- The sum of the two products and the bias, in the program's order, is the pre-activation at (r, j). -/
theorem row_eq (x0 : (⟨S100000x128, .f32⟩ : BufTy).Contents (Elt Ideal))
    (x1 : (⟨S2x640000, .i32⟩ : BufTy).Contents (Elt Ideal))
    (x2 x3 : (⟨S256x128, .f32⟩ : BufTy).Contents (Elt Ideal))
    (x4 : (⟨S256, .f32⟩ : BufTy).Contents (Elt Ideal)) (r : Fin 100000) (j : Fin 256) :
    val_main_v30 (F := Ideal) x0 x1 x2 x3 x4 (ix2 r j) = pre x0 x1 x2 x3 x4 r j := by
  rw [val_main_v30_apply, val_main_v27_apply, dotl_eq, dotr_eq, val_main_v26_apply, val_main_v25_apply, idx_bias,
    Ideal.addf_def, Ideal.addf_def]
  rfl

/-! ## The norm, the division and relu -/

/-- The norm column (r, 0) broadcast along the output axis, and the flat sum of squares at r. -/
theorem idx_nrm (r : Fin 100000) (j : Fin 256) : idx_main_call0_v2 (idx_main_v34 (ix2 r j)) = ix1 r :=
  funext fun a => Fin.ext (by match a with | ⟨0, _⟩ => rfl)
/-- The sum of squares of row r runs over the elements (r, k). -/
theorem idx_sq (r : Fin 100000) (k : Fin 256) : idx_main_call0_v1 (ix1 r) k = ix2 r k :=
  funext fun a => Fin.ext (by match a with | ⟨0, _⟩ => rfl | ⟨1, _⟩ => rfl)

/-- The sum of squares of the pre-activation row (the program starts the sum at zero). -/
theorem sumsq_eq (x0 : (⟨S100000x128, .f32⟩ : BufTy).Contents (Elt Ideal))
    (x1 : (⟨S2x640000, .i32⟩ : BufTy).Contents (Elt Ideal))
    (x2 x3 : (⟨S256x128, .f32⟩ : BufTy).Contents (Elt Ideal))
    (x4 : (⟨S256, .f32⟩ : BufTy).Contents (Elt Ideal)) (r : Fin 100000) :
    val_main_call0_v1 (F := Ideal) x0 x1 x2 x3 x4 (ix1 r)
      = ∑ k : Fin 256, pre x0 x1 x2 x3 x4 r k * pre x0 x1 x2 x3 x4 r k := by
  rw [val_main_call0_v1_apply, val_main_call0_cst_apply, Ideal.ofBits_def, Ideal.ofBits_zero_f32, zero_add]
  exact Finset.sum_congr rfl fun k _ => by rw [idx_sq, val_main_call0_v0_apply, row_eq, Ideal.mulf_def]

/-- The divisor at (r, j): the row's Euclidean norm floored at ε. -/
theorem nrm_eq (x0 : (⟨S100000x128, .f32⟩ : BufTy).Contents (Elt Ideal))
    (x1 : (⟨S2x640000, .i32⟩ : BufTy).Contents (Elt Ideal))
    (x2 x3 : (⟨S256x128, .f32⟩ : BufTy).Contents (Elt Ideal))
    (x4 : (⟨S256, .f32⟩ : BufTy).Contents (Elt Ideal)) (r : Fin 100000) (j : Fin 256) :
    val_main_v34 (F := Ideal) x0 x1 x2 x3 x4 (ix2 r j) = max (Spec.rnrm (pre x0 x1 x2 x3 x4 r)) Spec.eps := by
  rw [val_main_v34_apply, val_main_v33_apply, val_main_v32_apply, val_main_cst_4_apply, val_main_v31_apply,
    val_main_call0_v2_apply, idx_nrm, sumsq_eq, Ideal.maximumf_def, Ideal.hostUnary_sqrt_def, Ideal.ofBits_def]
  rfl

/-- LAYER 1 READ AT (r, j): relu of the normalised textbook pre-activation of node r, at column j. -/
theorem layer1 (x0 : (⟨S100000x128, .f32⟩ : BufTy).Contents (Elt Ideal))
    (x1 : (⟨S2x640000, .i32⟩ : BufTy).Contents (Elt Ideal))
    (x2 x3 : (⟨S256x128, .f32⟩ : BufTy).Contents (Elt Ideal))
    (x4 : (⟨S256, .f32⟩ : BufTy).Contents (Elt Ideal)) (r : Fin 100000) (j : Fin 256) :
    val_main_v36 (F := Ideal) x0 x1 x2 x3 x4 (ix2 r j)
      = Spec.rrelu (Spec.layerR (Edges.srcRow x1) (Edges.dstWord x1) (fun (r' : Fin 100000) (t : Fin 128) => x0 (ix2 r' t))
          (fun (t : Fin 128) (j' : Fin 256) => x2 (ix2 j' t)) (fun (t : Fin 128) (j' : Fin 256) => x3 (ix2 j' t))
          (fun j' : Fin 256 => x4 (ix1 j')) r) j := by
  rw [val_main_v36_apply, val_main_call1_v0_apply, val_main_call1_cst_apply, val_main_v35_apply, nrm_eq, row_eq,
    Ideal.maximumf_def, Ideal.hostDivf_def, Ideal.ofBits_def, Ideal.ofBits_zero_f32]
  rfl

end Cert.ReferenceIdeal.RefL1

end
-- ==== Proof.RefL2.lean ====
/-
  Layer 2 of the reference program, read at one node and one output column.

  The program's second SAGEConv layer takes layer 1's rectified output H (a [100000, 256] matrix, kept here as an
  opaque stage) and the edge array, and computes, for node r and column j,

      relu( z_j / max(‖z‖₂, ε) ),      z = ((Σ_{p : dst p = r} H[src p] / deg r) · Wlᵀ + b) + H[r] · Wrᵀ ,

  where src p is the edge's source word wrapped the numpy way and clamped as the gather of rows clamps it, dst p its
  destination word read signed, deg r = max(#{p : dst p = r}, 1), and the two weights enter transposed (so, contracted
  over their first index, the matrices are (t, j) ↦ W[j, t]).

  The steps, each a statement about one stage of the program at one index:
  • wrap2, dstA, dstC   the layer's re-wrapped source words and its two copies of the destination words are the edge
                        array's rows 0 and 1;
  • gather2             the gathered row of edge p is H's row src p;
  • agg2, cnt2, deg2    the two scatter-adds over zeros are the neighbour sum and the in-degree; floored at one, the
                        in-degree is the mean's divisor;
  • pre2                the two contractions, the bias and the two additions give the textbook pre-activation row;
  • layer2              the squared row summed from 0, its root floored at ε, the quotient and the maximum with 0 give
                        the rectified normalised layer.
-/
import proofs.«408524_j60352880443980_3_alg».proof.Proof.ReadP
import proofs.«408524_j60352880443980_3_alg».proof.Proof.Net
import proofs.«408524_j60352880443980_3_alg».proof.Proof.Edges
import proofs.«408524_j60352880443980_3_alg».proof.Proof.LibRows
import Idealize.ShloMosaic.Lib.IdealHost
import Idealize.ShloMosaic.PureOps.Ideal.Laws
import Idealize.ShloMosaic.Lib.ValueIdx
import Idealize.ShloMosaic.Lib.Pipeline.Value

noncomputable section

open scoped BigOperators

namespace Cert.ReferenceIdeal.RefL2

open Cert Cert.ReferenceIdeal Cert.ReferenceIdeal.Gen Cert.ReferenceIdeal.ReadP Idealize.ShloMosaic Idealize.ShloMosaic.ValueIdx

variable (x0 : (⟨S100000x128, .f32⟩ : BufTy).Contents (Elt Ideal)) (x1 : (⟨S2x640000, .i32⟩ : BufTy).Contents (Elt Ideal))
  (x2 x3 : (⟨S256x128, .f32⟩ : BufTy).Contents (Elt Ideal)) (x4 : (⟨S256, .f32⟩ : BufTy).Contents (Elt Ideal))
  (x5 x6 : (⟨S128x256, .f32⟩ : BufTy).Contents (Elt Ideal)) (x7 : (⟨S128, .f32⟩ : BufTy).Contents (Elt Ideal))

/-! ### The edge words of this layer, read back to the edge array -/

/-- The re-wrapped source word of edge p is the wrap of the array's row-0 word. -/
theorem wrap2 (p : Fin 640000) :
    val_main_v42 (F := Ideal) x1 (ix2 p (0 : Fin 1)) = Edges.wrapw (x1 (ix2 (0 : Fin 2) p)) := by
  rw [val_main_v42_apply, val_main_v41_apply, val_main_v38_apply, val_main_v40_apply, val_main_v37_apply,
    val_main_v39_apply, val_main_c_5_apply, val_main_c_6_apply, val_main_v1_apply, val_main_v0_apply]
  have h : idx_main_v0 (idx_main_v1 (idx_main_v42 (ix2 p (0 : Fin 1)))) = ix2 (0 : Fin 2) p :=
    funext fun a => Fin.ext (by
      match a with
      | ⟨0, _⟩ => rfl
      | ⟨1, _⟩ => exact Nat.mod_eq_of_lt p.isLt)
  rw [h]
  rfl

/-- The destination word of edge p, as the neighbour sum's scatter reads it, is the array's row-1 word. -/
theorem dstA (p : Fin 640000) :
    val_main_v45 (F := Ideal) x1 (ix2 p (0 : Fin 1)) = x1 (ix2 (1 : Fin 2) p) := by
  rw [val_main_v45_apply, val_main_v3_apply, val_main_v2_apply]
  exact congrArg x1 (funext fun a => Fin.ext (by
    match a with
    | ⟨0, _⟩ => rfl
    | ⟨1, _⟩ => exact Nat.mod_eq_of_lt p.isLt))

/-- The same word, as the in-degree's scatter reads it. -/
theorem dstC (p : Fin 640000) :
    val_main_v49 (F := Ideal) x1 (ix2 p (0 : Fin 1)) = x1 (ix2 (1 : Fin 2) p) := by
  rw [val_main_v49_apply, val_main_v3_apply, val_main_v2_apply]
  exact congrArg x1 (funext fun a => Fin.ext (by
    match a with
    | ⟨0, _⟩ => rfl
    | ⟨1, _⟩ => exact Nat.mod_eq_of_lt p.isLt))

/-! ### Neighbour rows, neighbour sum, in-degree -/

/-- The gathered row of edge p is the input row its (wrapped, clamped) source word names. -/
theorem gather2 (p : Fin 640000) (q : Fin 256) :
    val_main_v43 (F := Ideal) x0 x1 x2 x3 x4 (ix2 p q)
      = val_main_v36 (F := Ideal) x0 x1 x2 x3 x4 (ix2 (Edges.srcRow x1 p) q) := by
  unfold val_main_v43
  refine (LibRows.rowGather_apply (n := 100000) (e := 640000) (c := 256) (w := 32) (by decide)
    gather_S100000x256_S640000x1_S640000x256_1_0_n_n_0_1_1256_wf
    (val_main_v36 (F := Ideal) x0 x1 x2 x3 x4) (val_main_v42 (F := Ideal) x1) p q).trans ?_
  refine congrArg (val_main_v36 (F := Ideal) x0 x1 x2 x3 x4) (congrArg (fun a => ix2 a q) (Fin.ext ?_))
  show min (val_main_v42 (F := Ideal) x1 (ix2 p (0 : Fin 1))).toInt.toNat (100000 - 1)
    = min (Edges.wrapw (x1 (ix2 (0 : Fin 2) p))).toInt.toNat (100000 - 1)
  rw [wrap2]

/-- The scattered sum at node r, column t, is the neighbour sum of the input rows. -/
theorem agg2 (r : Fin 100000) (t : Fin 256) :
    val_main_v46 (F := Ideal) x0 x1 x2 x3 x4 (ix2 r t)
      = Spec.agg (Edges.srcRow x1) (Edges.dstWord x1)
          (fun (r' : Fin 100000) (t' : Fin 256) => val_main_v36 (F := Ideal) x0 x1 x2 x3 x4 (ix2 r' t')) r t := by
  unfold val_main_v46
  refine (LibRows.rowScatterAdd_apply (n := 100000) (e := 640000) (c := 256) (w := 32)
    scatter_S100000x256_S640000x1_S640000x256_1_0_0_1_wf
    (val_main_v44 (F := Ideal)) (val_main_v45 (F := Ideal) x1) (val_main_v43 (F := Ideal) x0 x1 x2 x3 x4) r t).trans ?_
  rw [val_main_v44_apply, val_main_cst_7_apply, Ideal.ofBits_def, Ideal.ofBits_zero_f32]
  unfold Spec.agg Edges.dstWord
  refine congrArg (0 + ·) (Finset.sum_congr rfl fun p _ => ?_)
  rw [dstA, gather2]

/-- The scattered count at node r is its in-degree. -/
theorem cnt2 (r : Fin 100000) :
    val_main_v50 (F := Ideal) x1 (ix1 r) = Spec.cnt (Edges.dstWord x1) r := by
  unfold val_main_v50
  refine (LibRows.rowScatterAdd1_apply (n := 100000) (e := 640000) (w := 32)
    scatter_S100000_S640000x1_S640000_n_0_0_1_wf
    (val_main_v48 (F := Ideal)) (val_main_v49 (F := Ideal) x1) (val_main_v47 (F := Ideal)) r).trans ?_
  rw [val_main_v48_apply, val_main_cst_9_apply, Ideal.ofBits_def, Ideal.ofBits_zero_f32]
  unfold Spec.cnt Edges.dstWord
  refine congrArg (0 + ·) (Finset.sum_congr rfl fun p _ => ?_)
  rw [dstC, val_main_v47_apply, val_main_cst_8_apply, Ideal.ofBits_def, Ideal.ofBits_one_f32]

/-- The mean's divisor at node r (any column) is the in-degree floored at one. -/
theorem deg2 (r : Fin 100000) (t : Fin 256) :
    val_main_v54 (F := Ideal) x1 (ix2 r t) = Spec.deg (Edges.dstWord x1) r := by
  rw [val_main_v54_apply, val_main_v53_apply, val_main_v52_apply, val_main_v51_apply, val_main_cst_10_apply]
  have h : idx_main_v53 (idx_main_v54 (ix2 r t)) = ix1 r :=
    funext fun a => Fin.ext (by match a with | ⟨0, _⟩ => rfl)
  rw [h, cnt2, Ideal.maximumf_def, Ideal.ofBits_def, Ideal.ofBits_one_f32]
  rfl

/-! ### The pre-activation row and the normalised, rectified output -/

/-- The sum of the three terms at (r, j), in the program's order ((mean · Wl + b) + h · Wr), is the textbook row. -/
theorem pre2 (r : Fin 100000) (j : Fin 128) :
    val_main_v63 (F := Ideal) x0 x1 x2 x3 x4 x5 x6 x7 (ix2 r j)
      = Spec.rowRef
          (fun t : Fin 256 => Spec.agg (Edges.srcRow x1) (Edges.dstWord x1)
            (fun (r' : Fin 100000) (t' : Fin 256) => val_main_v36 (F := Ideal) x0 x1 x2 x3 x4 (ix2 r' t')) r t)
          (fun t : Fin 256 => val_main_v36 (F := Ideal) x0 x1 x2 x3 x4 (ix2 r t))
          (Spec.deg (Edges.dstWord x1) r)
          (fun (t : Fin 256) (j' : Fin 128) => x5 (ix2 j' t)) (fun (t : Fin 256) (j' : Fin 128) => x6 (ix2 j' t))
          (fun j' : Fin 128 => x7 (ix1 j')) j := by
  have hl57 : ∀ k : Fin 256, lidx_main_v57 (ix2 r j) k = ix2 r k := fun k =>
    funext fun a => Fin.ext (by match a with | ⟨0, _⟩ => rfl | ⟨1, _⟩ => rfl)
  have hr57 : ∀ k : Fin 256, idx_main_v56 (ridx_main_v57 (ix2 r j) k) = ix2 j k := fun k =>
    funext fun a => Fin.ext (by match a with | ⟨0, _⟩ => rfl | ⟨1, _⟩ => rfl)
  have hb : idx_main_v58 (idx_main_v59 (ix2 r j)) = ix1 j :=
    funext fun a => Fin.ext (by match a with | ⟨0, _⟩ => rfl)
  have hl62 : ∀ k : Fin 256, lidx_main_v62 (ix2 r j) k = ix2 r k := fun k =>
    funext fun a => Fin.ext (by match a with | ⟨0, _⟩ => rfl | ⟨1, _⟩ => rfl)
  have hr62 : ∀ k : Fin 256, idx_main_v61 (ridx_main_v62 (ix2 r j) k) = ix2 j k := fun k =>
    funext fun a => Fin.ext (by match a with | ⟨0, _⟩ => rfl | ⟨1, _⟩ => rfl)
  rw [val_main_v63_apply, val_main_v60_apply, val_main_v57_apply, val_main_v59_apply, val_main_v58_apply,
    val_main_v62_apply, hb]
  simp only [val_main_v55_apply, val_main_v56_apply, val_main_v61_apply, hl57, hr57, hl62, hr62, agg2, deg2,
    Ideal.addf_def, Ideal.hostDivf_def]
  rfl

/-- LAYER 2 AT (r, j): the rectified, normalised textbook layer over layer 1's output. -/
theorem layer2 (r : Fin 100000) (j : Fin 128) :
    val_main_v69 (F := Ideal) x0 x1 x2 x3 x4 x5 x6 x7 (ix2 r j)
      = Spec.rrelu (Spec.layerR (Edges.srcRow x1) (Edges.dstWord x1)
          (fun (r' : Fin 100000) (t : Fin 256) => val_main_v36 (F := Ideal) x0 x1 x2 x3 x4 (ix2 r' t))
          (fun (t : Fin 256) (j' : Fin 128) => x5 (ix2 j' t)) (fun (t : Fin 256) (j' : Fin 128) => x6 (ix2 j' t))
          (fun j' : Fin 128 => x7 (ix1 j')) r) j := by
  have hn : ∀ k : Fin 128, idx_main_call2_v1 (idx_main_call2_v2 (idx_main_v67 (ix2 r j))) k = ix2 r k := fun k =>
    funext fun a => Fin.ext (by match a with | ⟨0, _⟩ => rfl | ⟨1, _⟩ => rfl)
  rw [val_main_v69_apply, val_main_v68_apply, val_main_v67_apply, val_main_v66_apply, val_main_v64_apply,
    val_main_v65_apply, val_main_cst_11_apply, val_main_call2_v2_apply, val_main_call2_v1_apply,
    val_main_call2_cst_apply, val_main_call3_v0_apply, val_main_call3_cst_apply]
  simp only [val_main_call2_v0_apply, hn, pre2, Ideal.maximumf_def, Ideal.hostDivf_def, Ideal.mulf_def,
    Ideal.hostUnary_sqrt_def, Ideal.ofBits_def, Ideal.ofBits_zero_f32, zero_add]
  rfl

end Cert.ReferenceIdeal.RefL2
end
-- ==== Proof.RefL3.lean ====
/-
  The third SAGEConv layer and the final log-softmax of the reference program, read at one node.

  The layer's input features are the second layer's output H (a node-indexed matrix, never opened here). At node r
  and column j the program computes, in this order,

    • the source word of each edge wrapped (a negative word counts from the end) and clamped to a row (Edges.srcRow), the destination word
      read signed (Edges.dstWord);
    • the neighbour sum  a_t = 0 + Σ_p [dst p = r] · H (src p) t   (rows of H taken at the source nodes and added
      at the destination nodes over zeros: Spec.agg), and the in-degree floored at one,
      deg = max (0 + Σ_p [dst p = r] · 1) 1   (ones added at the destination nodes over zeros: Spec.deg);
    • the pre-activation  z_j = ((Σ_t (a_t / deg) · Wl_{j t}) + b_j) + Σ_t H_{r t} · Wr_{j t}  — the two weight
      matrices are stored [2, 128] and contracted over their SECOND index, which is Spec.rowRef with the weights
      read transposed, (t, j) ↦ W (j, t);
    • the row norm  √(0 + Σ_j z_j²), floored at ε (the word 0x2B8CBCCC), and the quotient z_j / max(‖z‖, ε):
      Spec.rnormalize, so the layer is Spec.layerR (pre3);
    • the log-softmax of the row y = layer output:  M = max(−∞, max-reduce from −∞ of y) = max_j y_j,
      s_j = y_j − M, L = log (0 + Σ_j exp s_j), result s_j − L = Spec.rlsmR y (layer3).

  Each statement identifies one stage of the program, at an index written with its coordinates, with the
  corresponding function of Spec; the index functions of the layout operations (slices, reshapes, broadcasts,
  transposes) are identified with coordinate constructors first, then the stages are rewritten outermost first.
-/
import proofs.«408524_j60352880443980_3_alg».proof.Proof.ReadP
import proofs.«408524_j60352880443980_3_alg».proof.Proof.Net
import proofs.«408524_j60352880443980_3_alg».proof.Proof.Edges
import proofs.«408524_j60352880443980_3_alg».proof.Proof.LibRows
import Idealize.ShloMosaic.Lib.IdealHost
import Idealize.ShloMosaic.PureOps.Ideal.Laws
import Idealize.ShloMosaic.Lib.ValueIdx
import Idealize.ShloMosaic.Lib.Pipeline.Value

noncomputable section

open scoped BigOperators

namespace Cert.ReferenceIdeal.RefL3

open Cert Cert.ReferenceIdeal Cert.ReferenceIdeal.Gen Cert.ReferenceIdeal.ReadP Idealize.ShloMosaic Idealize.ShloMosaic.ValueIdx Idealize.ShloMosaic.StableHlo

section

variable (x0 : (⟨S100000x128, .f32⟩ : BufTy).Contents (Elt Ideal)) (x1 : (⟨S2x640000, .i32⟩ : BufTy).Contents (Elt Ideal))
  (x2 x3 : (⟨S256x128, .f32⟩ : BufTy).Contents (Elt Ideal)) (x4 : (⟨S256, .f32⟩ : BufTy).Contents (Elt Ideal))
  (x5 x6 : (⟨S128x256, .f32⟩ : BufTy).Contents (Elt Ideal)) (x7 : (⟨S128, .f32⟩ : BufTy).Contents (Elt Ideal))
  (x8 x9 : (⟨S2x128, .f32⟩ : BufTy).Contents (Elt Ideal)) (x10 : (⟨S2, .f32⟩ : BufTy).Contents (Elt Ideal))

/-! ## The edge list as the layer reads it -/

/-- The column of start indices of the gather of rows: edge p's source word, wrapped. -/
theorem srcCol (p : Fin 640000) :
    val_main_v75 (F := Ideal) x1 (ix2 p (0 : Fin 1)) = Edges.wrapw (x1 (ix2 (0 : Fin 2) p)) := by
  have e : idx_main_v0 (idx_main_v1 (idx_main_v75 (ix2 p (0 : Fin 1)))) = ix2 (0 : Fin 2) p :=
    funext fun a => Fin.ext (by
      match a with
      | ⟨0, _⟩ => rfl
      | ⟨1, _⟩ => exact Nat.mod_eq_of_lt p.isLt)
  rw [val_main_v75_apply, val_main_v74_apply, val_main_v71_apply, val_main_v73_apply, val_main_v70_apply,
    val_main_v72_apply, val_main_c_12_apply, val_main_c_13_apply, val_main_v1_apply, val_main_v0_apply, e]
  rfl

/-- The column of scatter indices of the neighbour sum: edge p's destination word. -/
theorem dstCol (p : Fin 640000) :
    val_main_v78 (F := Ideal) x1 (ix2 p (0 : Fin 1)) = x1 (ix2 (1 : Fin 2) p) := by
  have e : idx_main_v2 (idx_main_v3 (idx_main_v78 (ix2 p (0 : Fin 1)))) = ix2 (1 : Fin 2) p :=
    funext fun a => Fin.ext (by
      match a with
      | ⟨0, _⟩ => rfl
      | ⟨1, _⟩ => exact Nat.mod_eq_of_lt p.isLt)
  rw [val_main_v78_apply, val_main_v3_apply, val_main_v2_apply, e]

/-- The column of scatter indices of the in-degree count: the same destination word. -/
theorem dstCol' (p : Fin 640000) :
    val_main_v82 (F := Ideal) x1 (ix2 p (0 : Fin 1)) = x1 (ix2 (1 : Fin 2) p) := by
  have e : idx_main_v2 (idx_main_v3 (idx_main_v82 (ix2 p (0 : Fin 1)))) = ix2 (1 : Fin 2) p :=
    funext fun a => Fin.ext (by
      match a with
      | ⟨0, _⟩ => rfl
      | ⟨1, _⟩ => exact Nat.mod_eq_of_lt p.isLt)
  rw [val_main_v82_apply, val_main_v3_apply, val_main_v2_apply, e]

/-! ## Neighbour sum and in-degree -/

/-- Layer 2's output as a node-indexed matrix: this layer's input features. -/
abbrev H2 : Fin 100000 → Fin 128 → EReal :=
  fun r' t => val_main_v69 (F := Ideal) x0 x1 x2 x3 x4 x5 x6 x7 (ix2 r' t)

/-- Edge p's gathered row is the feature row of its (wrapped, clamped) source node. -/
theorem gathered (p : Fin 640000) (q : Fin 128) :
    val_main_v76 (F := Ideal) x0 x1 x2 x3 x4 x5 x6 x7 (ix2 p q)
      = val_main_v69 (F := Ideal) x0 x1 x2 x3 x4 x5 x6 x7 (ix2 (Edges.srcRow x1 p) q) := by
  unfold val_main_v76
  have hd : gather_S100000x128_S640000x1_S640000x128_1_0_n_n_0_1_1128
      = LibRows.rowGatherDims 100000 640000 128 Facts₀.gather_S100000x128_S640000x1_S640000x128_1_0_n_n_0_1_1128_wf := rfl
  rw [hd]
  generalize val_main_v69 (F := Ideal) x0 x1 x2 x3 x4 x5 x6 x7 = y
  rw [LibRows.rowGather_apply (by decide) _ y (val_main_v75 (F := Ideal) x1) p q]
  refine congrArg (fun a => y (ix2 a q)) (Fin.ext ?_)
  show min (val_main_v75 (F := Ideal) x1 (ix2 p (0 : Fin 1))).toInt.toNat (100000 - 1) = (Edges.srcRow x1 p).val
  rw [srcCol]
  rfl

/-- The scatter-add of the gathered rows over zeros, at node r and column t, is the neighbour sum. -/
theorem aggregated (r : Fin 100000) (t : Fin 128) :
    val_main_v79 (F := Ideal) x0 x1 x2 x3 x4 x5 x6 x7 (ix2 r t)
      = Spec.agg (Edges.srcRow x1) (Edges.dstWord x1) (H2 x0 x1 x2 x3 x4 x5 x6 x7) r t := by
  unfold val_main_v79
  have hd : scatter_S100000x128_S640000x1_S640000x128_1_0_0_1
      = LibRows.rowScatterDims 100000 640000 128 Facts₀.scatter_S100000x128_S640000x1_S640000x128_1_0_0_1_wf := rfl
  rw [hd, LibRows.rowScatterAdd_apply, val_main_v77_apply, val_main_cst_14_apply, Ideal.ofBits_def, Ideal.ofBits_zero_f32]
  unfold Spec.agg
  refine congrArg (fun s => (0 : EReal) + s) (Finset.sum_congr rfl fun p _ => ?_)
  rw [dstCol, gathered]
  rfl

/-- The scatter-add of ones over zeros, floored at one, is the mean's divisor. -/
theorem degree (r : Fin 100000) :
    val_main_v85 (F := Ideal) x1 (ix1 r) = Spec.deg (n := 100000) (Edges.dstWord x1) r := by
  rw [val_main_v85_apply]
  unfold val_main_v83
  have hd : scatter_S100000_S640000x1_S640000_n_0_0_1
      = LibRows.rowScatterDims1 100000 640000 Facts₀.scatter_S100000_S640000x1_S640000_n_0_0_1_wf := rfl
  rw [hd, LibRows.rowScatterAdd1_apply, val_main_v81_apply, val_main_cst_16_apply, val_main_v84_apply, val_main_cst_17_apply,
    Ideal.maximumf_def, Ideal.ofBits_def, Ideal.ofBits_def, Ideal.ofBits_zero_f32, Ideal.ofBits_one_f32]
  unfold Spec.deg Spec.cnt
  refine congrArg (fun s => max ((0 : EReal) + s) 1) (Finset.sum_congr rfl fun p _ => ?_)
  rw [dstCol', val_main_v80_apply, val_main_cst_15_apply, Ideal.ofBits_def, Ideal.ofBits_one_f32]
  rfl

/-! ## The layer -/

/-- The pre-activation at node r, column j: ((mean of neighbours) Wl + b) + (own row) Wr, the weights read transposed. -/
theorem preact (r : Fin 100000) (j : Fin 2) :
    val_main_v96 (F := Ideal) x0 x1 x2 x3 x4 x5 x6 x7 x8 x9 x10 (ix2 r j)
      = Spec.rowRef (fun t => Spec.agg (Edges.srcRow x1) (Edges.dstWord x1) (H2 x0 x1 x2 x3 x4 x5 x6 x7) r t) (H2 x0 x1 x2 x3 x4 x5 x6 x7 r)
          (Spec.deg (Edges.dstWord x1) r)
          (fun (t : Fin 128) (j' : Fin 2) => x8 (ix2 j' t)) (fun (t : Fin 128) (j' : Fin 2) => x9 (ix2 j' t))
          (fun j' : Fin 2 => x10 (ix1 j')) j := by
  have e88 : ∀ k : Fin 128, lidx_main_v90 (ix2 r j) k = ix2 r k := fun k =>
    funext fun a => Fin.ext (by match a with | ⟨0, _⟩ => rfl | ⟨1, _⟩ => rfl)
  have e89 : ∀ k : Fin 128, idx_main_v89 (ridx_main_v90 (ix2 r j) k) = ix2 j k := fun k =>
    funext fun a => Fin.ext (by match a with | ⟨0, _⟩ => rfl | ⟨1, _⟩ => rfl)
  have e87 : ∀ k : Fin 128, idx_main_v86 (idx_main_v87 (ix2 r k)) = ix1 r := fun k =>
    funext fun a => Fin.ext (by match a with | ⟨0, _⟩ => rfl)
  have e92 : idx_main_v91 (idx_main_v92 (ix2 r j)) = ix1 j :=
    funext fun a => Fin.ext (by match a with | ⟨0, _⟩ => rfl)
  have e95 : ∀ k : Fin 128, lidx_main_v95 (ix2 r j) k = ix2 r k := fun k =>
    funext fun a => Fin.ext (by match a with | ⟨0, _⟩ => rfl | ⟨1, _⟩ => rfl)
  have e94 : ∀ k : Fin 128, idx_main_v94 (ridx_main_v95 (ix2 r j) k) = ix2 j k := fun k =>
    funext fun a => Fin.ext (by match a with | ⟨0, _⟩ => rfl | ⟨1, _⟩ => rfl)
  have hl : ∀ k : Fin 128, val_main_v88 (F := Ideal) x0 x1 x2 x3 x4 x5 x6 x7 (lidx_main_v90 (ix2 r j) k) * val_main_v89 (F := Ideal) x8 (ridx_main_v90 (ix2 r j) k)
      = Ideal.div (Spec.agg (Edges.srcRow x1) (Edges.dstWord x1) (H2 x0 x1 x2 x3 x4 x5 x6 x7) r k) (Spec.deg (Edges.dstWord x1) r) * x8 (ix2 j k) := fun k => by
    rw [e88 k, val_main_v88_apply, val_main_v89_apply, e89 k, val_main_v87_apply, val_main_v86_apply, e87 k, aggregated, degree,
      Ideal.hostDivf_def]
  have hr : ∀ k : Fin 128, val_main_v69 (F := Ideal) x0 x1 x2 x3 x4 x5 x6 x7 (lidx_main_v95 (ix2 r j) k) * val_main_v94 (F := Ideal) x9 (ridx_main_v95 (ix2 r j) k)
      = H2 x0 x1 x2 x3 x4 x5 x6 x7 r k * x9 (ix2 j k) := fun k => by
    rw [e95 k, val_main_v94_apply, e94 k]
  rw [val_main_v96_apply, val_main_v93_apply, val_main_v90_apply, val_main_v95_apply, val_main_v92_apply, val_main_v91_apply, e92,
    Ideal.addf_def, Ideal.addf_def, Finset.sum_congr rfl (fun k _ => hl k), Finset.sum_congr rfl (fun k _ => hr k)]
  rfl

/-- The layer at node r: the pre-activation row divided by its norm floored at ε. -/
theorem pre3 (r : Fin 100000) (j : Fin 2) :
    val_main_v101 (F := Ideal) x0 x1 x2 x3 x4 x5 x6 x7 x8 x9 x10 (ix2 r j)
      = Spec.layerR (Edges.srcRow x1) (Edges.dstWord x1) (H2 x0 x1 x2 x3 x4 x5 x6 x7)
          (fun (t : Fin 128) (j' : Fin 2) => x8 (ix2 j' t)) (fun (t : Fin 128) (j' : Fin 2) => x9 (ix2 j' t))
          (fun j' : Fin 2 => x10 (ix1 j')) r j := by
  have e100 : idx_main_call4_v2 (idx_main_v100 (ix2 r j)) = ix1 r :=
    funext fun a => Fin.ext (by match a with | ⟨0, _⟩ => rfl)
  have e41 : ∀ k : Fin 2, idx_main_call4_v1 (ix1 r) k = ix2 r k := fun k =>
    funext fun a => Fin.ext (by match a with | ⟨0, _⟩ => rfl | ⟨1, _⟩ => rfl)
  have hs : ∀ k : Fin 2, val_main_call4_v0 (F := Ideal) x0 x1 x2 x3 x4 x5 x6 x7 x8 x9 x10 (idx_main_call4_v1 (ix1 r) k)
      = val_main_v96 (F := Ideal) x0 x1 x2 x3 x4 x5 x6 x7 x8 x9 x10 (ix2 r k) * val_main_v96 (F := Ideal) x0 x1 x2 x3 x4 x5 x6 x7 x8 x9 x10 (ix2 r k) := fun k => by
    rw [e41 k, val_main_call4_v0_apply, Ideal.mulf_def]
  rw [val_main_v101_apply, val_main_v100_apply, val_main_v99_apply, val_main_v97_apply, val_main_call4_v2_apply, e100,
    val_main_call4_v1_apply, val_main_v98_apply, val_main_cst_18_apply, val_main_call4_cst_apply,
    Finset.sum_congr rfl (fun k _ => hs k), Ideal.hostDivf_def, Ideal.maximumf_def, Ideal.hostUnary_sqrt_def, Ideal.ofBits_def,
    Ideal.ofBits_def, Ideal.ofBits_zero_f32, zero_add]
  simp only [preact]
  rfl

/-! ## The log-softmax on top of the layer -/

/-- The reduced index r with column k put back is (r, k). -/
theorem lift_col (h : S100000x2.Reduces [1] S100000) (r : Fin 100000) (k : Fin (S100000x2.size 1)) :
    h.lift (ix1 r) k = ix2 r (⟨k.val, k.isLt⟩ : Fin 2) :=
  funext fun c => Fin.ext (by match c with | ⟨0, _⟩ => rfl | ⟨1, _⟩ => rfl)

/-- The word 0xFF800000 is −∞. -/
theorem ofBits_neg_inf : Ideal.ofBits .f32 0xFF800000#32 = (⊥ : EReal) := by simp [Ideal.ofBits, Ideal.ieee]

/-- The max-reduce over the two columns, from −∞, is the row's maximum. -/
theorem rowMax (r : Fin 100000) :
    val_main_call5_v0 (F := Ideal) x0 x1 x2 x3 x4 x5 x6 x7 x8 x9 x10 (ix1 r) = Spec.rmax (fun j : Fin 2 => val_main_v101 (F := Ideal) x0 x1 x2 x3 x4 x5 x6 x7 x8 x9 x10 (ix2 r j)) := by
  unfold val_main_call5_v0
  generalize val_main_v101 (F := Ideal) x0 x1 x2 x3 x4 x5 x6 x7 x8 x9 x10 = y
  have h : S100000x2.Reduces [1] S100000 := by decide
  refine (Host.reduce_eq_fold_single (FloatOps.maximumf (F := Ideal) (φ := .f32)) (y : FVec Ideal S100000x2 .f32) _
    Facts₀.reducesTo_S100000x2_S100000_d1 h Facts₀.h_S_ (ix1 r)).trans ?_
  rw [val_main_call5_cst_apply, Ideal.ofBits_def, ofBits_neg_inf]
  unfold Spec.rmax
  have hf : (y ∘ h.lift (ix1 r)) = fun k : Fin 2 => y (ix2 r k) := funext fun k => congrArg y (lift_col h r k)
  exact congrArg (fun f => Finset.fold max (⊥ : EReal) f (Finset.univ : Finset (Fin 2))) hf

/-- The result: the shifted entry minus the log of the sum of the shifted row's exponentials. -/
theorem layer3 (r : Fin 100000) (q : Fin 2) :
    val_main_v102 (F := Ideal) x0 x1 x2 x3 x4 x5 x6 x7 x8 x9 x10 (ix2 r q)
      = Spec.rlsmR (Spec.layerR (Edges.srcRow x1) (Edges.dstWord x1)
          (fun (r' : Fin 100000) (t : Fin 128) => val_main_v69 (F := Ideal) x0 x1 x2 x3 x4 x5 x6 x7 (ix2 r' t))
          (fun (t : Fin 128) (j' : Fin 2) => x8 (ix2 j' t)) (fun (t : Fin 128) (j' : Fin 2) => x9 (ix2 j' t))
          (fun j' : Fin 2 => x10 (ix1 j')) r) q := by
  have e4 : ∀ k : Fin 2, idx_main_call5_v3 (idx_main_call5_v4 (ix2 r k)) = ix1 r := fun k =>
    funext fun a => Fin.ext (by match a with | ⟨0, _⟩ => rfl)
  have e10 : idx_main_call5_v8 (idx_main_call5_v10 (ix2 r q)) = ix1 r :=
    funext fun a => Fin.ext (by match a with | ⟨0, _⟩ => rfl)
  have e7 : ∀ k : Fin 2, idx_main_call5_v7 (ix1 r) k = ix2 r k := fun k =>
    funext fun a => Fin.ext (by match a with | ⟨0, _⟩ => rfl | ⟨1, _⟩ => rfl)
  have hsft : ∀ k : Fin 2, val_main_call5_v5 (F := Ideal) x0 x1 x2 x3 x4 x5 x6 x7 x8 x9 x10 (ix2 r k)
      = val_main_v101 (F := Ideal) x0 x1 x2 x3 x4 x5 x6 x7 x8 x9 x10 (ix2 r k) - Spec.rmax (fun j : Fin 2 => val_main_v101 (F := Ideal) x0 x1 x2 x3 x4 x5 x6 x7 x8 x9 x10 (ix2 r j)) := fun k => by
    rw [val_main_call5_v5_apply, val_main_call5_v4_apply, val_main_call5_v3_apply, e4 k, val_main_call5_v2_apply,
      val_main_call5_v1_apply, val_main_call5_cst_0_apply, rowMax, Ideal.subf_def, Ideal.maximumf_def, Ideal.ofBits_def,
      ofBits_neg_inf, max_bot_left]
  have hexp : ∀ k : Fin 2, val_main_call5_v6 (F := Ideal) x0 x1 x2 x3 x4 x5 x6 x7 x8 x9 x10 (idx_main_call5_v7 (ix1 r) k)
      = Ideal.exp (val_main_v101 (F := Ideal) x0 x1 x2 x3 x4 x5 x6 x7 x8 x9 x10 (ix2 r k) - Spec.rmax (fun j : Fin 2 => val_main_v101 (F := Ideal) x0 x1 x2 x3 x4 x5 x6 x7 x8 x9 x10 (ix2 r j))) := fun k => by
    rw [e7 k, val_main_call5_v6_apply, hsft k, Ideal.hostUnary_exp_def]
  rw [val_main_v102_apply, val_main_call5_v10_apply, val_main_call5_v9_apply, val_main_call5_v8_apply, e10,
    val_main_call5_v7_apply, val_main_call5_cst_1_apply, Finset.sum_congr rfl (fun k _ => hexp k), hsft q, Ideal.subf_def,
    Ideal.hostUnary_log_def, Ideal.ofBits_def, Ideal.ofBits_zero_f32, zero_add]
  unfold Spec.rlsmR
  simp only [pre3]

end

end Cert.ReferenceIdeal.RefL3

end
-- ==== Proof.RefNet.lean ====
/-
  The reference program's result, read at node r and class q, is the three-layer network in the textbook order:
  the three layers' readings (each over the layer below as an opaque matrix) composed.
-/
import proofs.«408524_j60352880443980_3_alg».proof.Proof.RefL1
import proofs.«408524_j60352880443980_3_alg».proof.Proof.RefL2
import proofs.«408524_j60352880443980_3_alg».proof.Proof.RefL3

noncomputable section

namespace Cert.ReferenceIdeal.RefNet

open Cert.ReferenceIdeal Cert.ReferenceIdeal.Gen Cert.ReferenceIdeal.ReadP Idealize.ShloMosaic Idealize.ShloMosaic.ValueIdx

/-- The reference's result at (r, q): log-softmax of layer 3 over relu of layer 2 over relu of layer 1, every layer
    normalise(((neighbour mean) Wl + b) + h Wr), the weights contracted over their second (input) axis. -/
theorem net (x0 : (⟨S100000x128, .f32⟩ : BufTy).Contents (Elt Ideal)) (x1 : (⟨S2x640000, .i32⟩ : BufTy).Contents (Elt Ideal)) (x2 x3 : (⟨S256x128, .f32⟩ : BufTy).Contents (Elt Ideal)) (x4 : (⟨S256, .f32⟩ : BufTy).Contents (Elt Ideal)) (x5 x6 : (⟨S128x256, .f32⟩ : BufTy).Contents (Elt Ideal)) (x7 : (⟨S128, .f32⟩ : BufTy).Contents (Elt Ideal)) (x8 x9 : (⟨S2x128, .f32⟩ : BufTy).Contents (Elt Ideal)) (x10 : (⟨S2, .f32⟩ : BufTy).Contents (Elt Ideal)) (r : Fin 100000) (q : Fin 2) :
    val_main_v102 (F := Ideal) x0 x1 x2 x3 x4 x5 x6 x7 x8 x9 x10 (ix2 r q)
      = Spec.netR (Edges.srcRow x1) (Edges.dstWord x1) (fun (r' : Fin 100000) (t : Fin 128) => x0 (ix2 r' t))
          (fun (t : Fin 128) (j : Fin 256) => x2 (ix2 j t)) (fun (t : Fin 128) (j : Fin 256) => x3 (ix2 j t)) (fun j : Fin 256 => x4 (ix1 j))
          (fun (t : Fin 256) (j : Fin 128) => x5 (ix2 j t)) (fun (t : Fin 256) (j : Fin 128) => x6 (ix2 j t)) (fun j : Fin 128 => x7 (ix1 j))
          (fun (t : Fin 128) (j : Fin 2) => x8 (ix2 j t)) (fun (t : Fin 128) (j : Fin 2) => x9 (ix2 j t)) (fun j : Fin 2 => x10 (ix1 j)) r q := by
  refine (RefL3.layer3 x0 x1 x2 x3 x4 x5 x6 x7 x8 x9 x10 r q).trans ?_
  unfold Spec.netR
  have h2 : (fun (r' : Fin 100000) (t : Fin 128) => val_main_v69 (F := Ideal) x0 x1 x2 x3 x4 x5 x6 x7 (ix2 r' t))
      = fun r' => Spec.rrelu (Spec.layerR (Edges.srcRow x1) (Edges.dstWord x1)
          (fun (r'' : Fin 100000) (t : Fin 256) => val_main_v36 (F := Ideal) x0 x1 x2 x3 x4 (ix2 r'' t))
          (fun (t : Fin 256) (j : Fin 128) => x5 (ix2 j t)) (fun (t : Fin 256) (j : Fin 128) => x6 (ix2 j t)) (fun j : Fin 128 => x7 (ix1 j)) r') :=
    funext fun r' => funext fun t => RefL2.layer2 x0 x1 x2 x3 x4 x5 x6 x7 r' t
  have h1 : (fun (r'' : Fin 100000) (t : Fin 256) => val_main_v36 (F := Ideal) x0 x1 x2 x3 x4 (ix2 r'' t))
      = fun r'' => Spec.rrelu (Spec.layerR (Edges.srcRow x1) (Edges.dstWord x1) (fun (r' : Fin 100000) (t : Fin 128) => x0 (ix2 r' t))
          (fun (t : Fin 128) (j : Fin 256) => x2 (ix2 j t)) (fun (t : Fin 128) (j : Fin 256) => x3 (ix2 j t)) (fun j : Fin 256 => x4 (ix1 j)) r'') :=
    funext fun r'' => funext fun t => RefL1.layer1 x0 x1 x2 x3 x4 r'' t
  rw [h2, h1]

end Cert.ReferenceIdeal.RefNet

end
-- ==== Proof.IsReal.lean ====
/-
  An extended real that is a real number (neither infinity): the values every intermediate of the network takes
  when the float inputs are finite.
-/
import Mathlib.Data.EReal.Basic

namespace Cert.Spec

/-- x is (the coercion of) a real number. -/
def IsReal (x : EReal) : Prop := ∃ r : ℝ, x = (r : EReal)

end Cert.Spec
-- ==== Proof.Algebra.lean ====
/-
  The network in the kernel's order equals the network in the textbook order, over the extended reals, when
  every input is a real number.

  Three facts carry it. (i) When the feature matrix and the left weight are real, projecting the neighbour rows
  first and averaging afterwards is averaging first and projecting afterwards: both are the real number
  (Σ_p [dd p = r] · Σ_t H (g p) t · Wl t j) / deg — the distributive law, which the extended reals have only on
  their real part. (ii) Every intermediate of a layer with real inputs is again real (sums, products, a quotient
  by a real that is not zero, the square root of a real that is not negative, maxima), so (i) applies layer after
  layer. (iii) For a real row, y − (M + L) = (y − M) − L.
-/
import proofs.«408524_j60352880443980_3_alg».proof.Proof.Net
import proofs.«408524_j60352880443980_3_alg».proof.Proof.IsReal
import Idealize.ShloMosaic.PureOps.Ideal
import Idealize.ShloMosaic.Lib.IdealHost
import Mathlib.Data.EReal.Basic
import Mathlib.Data.EReal.Operations
import Mathlib.Data.EReal.Inv
import Mathlib.Analysis.SpecialFunctions.Log.Basic
import Mathlib.Analysis.SpecialFunctions.Sqrt

noncomputable section

open scoped BigOperators

namespace Cert.Spec

open Idealize.ShloMosaic

variable {n e k d c : ℕ}

/-! ### Real numbers inside the extended reals: coercion through sums, quotients, roots, exp and log -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a real that is not zero. -/
theorem div_coe (x y : ℝ) (hy : y ≠ 0) : Ideal.div (x : EReal) (y : EReal) = ((x / y : ℝ) : EReal) := by
  have hy' : (y : EReal) ≠ 0 := by exact_mod_cast hy
  unfold Ideal.div
  rw [if_neg hy', ← EReal.coe_inv, ← EReal.coe_mul, div_eq_mul_inv]

/-- The square root of a real that is not negative. -/
theorem sqrt_coe (x : ℝ) (hx : 0 ≤ x) : Ideal.sqrt (x : EReal) = ((Real.sqrt x : ℝ) : EReal) := by
  show (if x < 0 then (⊥ : EReal) else ((Real.sqrt x : ℝ) : EReal)) = _
  rw [if_neg (not_lt.mpr hx)]

/-- The exponential of a real. -/
theorem exp_coe (x : ℝ) : Ideal.exp (x : EReal) = ((Real.exp x : ℝ) : EReal) := rfl

/-- The logarithm of a positive real. -/
theorem log_coe (x : ℝ) (hx : 0 < x) : Ideal.log (x : EReal) = ((Real.log x : ℝ) : EReal) := by
  show (if x ≤ 0 then (⊥ : EReal) else ((Real.log x : ℝ) : EReal)) = _
  rw [if_neg (not_le.mpr hx)]

/-- The normalisation floor is a positive real. -/
theorem eps_pos_real : ∃ x : ℝ, 0 < x ∧ eps = (x : EReal) := by
  refine ⟨(2 ^ 23 + 834764 : ℕ) * (2 : ℝ) ^ ((87 : ℤ) - 127 - 23), by positivity, ?_⟩
  simp [eps, Ideal.ofBits, Ideal.ieee, -EReal.coe_mul]

/-- The coercion of a maximum of reals is the maximum of the coercions. -/
theorem coe_max (x y : ℝ) : ((max x y : ℝ) : EReal) = max (x : EReal) (y : EReal) :=
  EReal.coe_strictMono.monotone.map_max

/-! ### The real numbers are closed under the operations of a layer -/

theorem IsReal.zero : IsReal 0 := ⟨0, EReal.coe_zero.symm⟩

theorem IsReal.one : IsReal 1 := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy; exact ⟨_, (coe_max a b).symm⟩

theorem IsReal.ite {p : Prop} [Decidable p] {x y : EReal} (hx : IsReal x) (hy : IsReal y) :
    IsReal (if p then x else y) := by
  split <;> assumption

theorem IsReal.sum {ι : Type} (s : Finset ι) (f : ι → EReal) (hf : ∀ i ∈ s, IsReal (f i)) :
    IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- A real that is not the extended zero is not the real zero. -/
theorem ne_zero_of_coe_ne_zero {b : ℝ} (h : (b : EReal) ≠ 0) : b ≠ 0 := by
  intro hb; exact h (by rw [hb]; exact EReal.coe_zero)

theorem IsReal.div {x y : EReal} (hx : IsReal x) (hy : IsReal y) (h0 : y ≠ 0) : IsReal (Ideal.div x y) := by
  obtain ⟨a, rfl⟩ := hx; obtain ⟨b, rfl⟩ := hy
  exact ⟨a / b, div_coe a b (ne_zero_of_coe_ne_zero h0)⟩

/-! ### The in-degree and the divisor of the mean -/

/-- The in-degree is a real that is not negative. -/
theorem cnt_nonneg_real (dd : Fin e → ℤ) (r : Fin n) : ∃ x : ℝ, 0 ≤ x ∧ cnt dd r = (x : EReal) := by
  refine ⟨∑ p : Fin e, if dd p = (r.val : ℤ) then (1 : ℝ) else 0,
    Finset.sum_nonneg fun p _ => by split_ifs <;> norm_num, ?_⟩
  unfold cnt
  rw [zero_add, coe_sum]
  refine Finset.sum_congr rfl fun p _ => ?_
  split_ifs <;> simp

/-- The divisor of the mean is a positive real. -/
theorem deg_pos_real (dd : Fin e → ℤ) (r : Fin n) : ∃ x : ℝ, 0 < x ∧ deg dd r = (x : EReal) := by
  obtain ⟨x, hx, hc⟩ := cnt_nonneg_real dd r
  refine ⟨max x 1, lt_of_lt_of_le one_pos (le_max_right x 1), ?_⟩
  unfold deg
  rw [hc, coe_max, EReal.coe_one]

theorem deg_ne_zero (dd : Fin e → ℤ) (r : Fin n) : deg dd r ≠ 0 := by
  obtain ⟨x, hx, hd⟩ := deg_pos_real dd r
  rw [hd]; exact_mod_cast hx.ne'

theorem deg_real (dd : Fin e → ℤ) (r : Fin n) : IsReal (deg dd r) := by
  obtain ⟨x, _, hd⟩ := deg_pos_real dd r; exact ⟨x, hd⟩

/-! ### A layer of real inputs is real -/

theorem vm_real (a : Fin k → EReal) (B : Fin k → Fin d → EReal) (ha : ∀ t, IsReal (a t)) (hB : ∀ t j, IsReal (B t j))
    (j : Fin d) : IsReal (vm a B j) :=
  IsReal.sum _ _ fun t _ => (ha t).mul (hB t j)

theorem agg_real (g : Fin e → Fin n) (dd : Fin e → ℤ) (H : Fin n → Fin c → EReal) (hH : ∀ r t, IsReal (H r t))
    (r : Fin n) (q : Fin c) : IsReal (agg g dd H r q) :=
  IsReal.zero.add (IsReal.sum _ _ fun p _ => (hH (g p) q).ite IsReal.zero)

theorem rowRef_real (a h : Fin k → EReal) (dg : EReal) (Wl Wr : Fin k → Fin d → EReal) (b : Fin d → EReal)
    (ha : ∀ t, IsReal (a t)) (hh : ∀ t, IsReal (h t)) (hdg : IsReal dg) (hdg0 : dg ≠ 0)
    (hWl : ∀ t j, IsReal (Wl t j)) (hWr : ∀ t j, IsReal (Wr t j)) (hb : ∀ j, IsReal (b j)) (j : Fin d) :
    IsReal (rowRef a h dg Wl Wr b j) :=
  ((vm_real _ Wl (fun t => (ha t).div hdg hdg0) hWl j).add (hb j)).add (vm_real h Wr hh hWr j)

/-- A real row divided by its floored norm is a real row: the norm is the root of a real sum of squares, the floor
is positive, so the divisor is a positive real. -/
theorem rnormalize_real (z : Fin d → EReal) (hz : ∀ j, IsReal (z j)) (j : Fin d) : IsReal (rnormalize z j) := by
  have hz' : ∀ j, ∃ x : ℝ, z j = (x : EReal) := hz
  choose a ha using hz'
  obtain ⟨ε, hε, heps⟩ := eps_pos_real
  have hsq : (∑ j : Fin d, z j * z j) = ((∑ j : Fin d, a j * a j : ℝ) : EReal) := by
    rw [coe_sum]
    exact Finset.sum_congr rfl fun j _ => by rw [ha j, EReal.coe_mul]
  have hnn : 0 ≤ ∑ j : Fin d, a j * a j := Finset.sum_nonneg fun j _ => mul_self_nonneg (a j)
  unfold rnormalize rnrm
  rw [hsq, sqrt_coe _ hnn, heps, ← coe_max, ha j]
  have hpos : 0 < max (Real.sqrt (∑ j : Fin d, a j * a j)) ε := lt_of_lt_of_le hε (le_max_right _ _)
  exact ⟨_, div_coe _ _ hpos.ne'⟩

theorem rrelu_real (z : Fin d → EReal) (hz : ∀ j, IsReal (z j)) (j : Fin d) : IsReal (rrelu z j) :=
  (hz j).max IsReal.zero

theorem layerR_real (g : Fin e → Fin n) (dd : Fin e → ℤ) (H : Fin n → Fin k → EReal) (Wl Wr : Fin k → Fin d → EReal)
    (b : Fin d → EReal) (hH : ∀ r t, IsReal (H r t)) (hWl : ∀ t j, IsReal (Wl t j)) (hWr : ∀ t j, IsReal (Wr t j))
    (hb : ∀ j, IsReal (b j)) (r : Fin n) (j : Fin d) : IsReal (layerR g dd H Wl Wr b r j) :=
  rnormalize_real _ (fun j => rowRef_real _ _ _ Wl Wr b (fun t => agg_real g dd H hH r t) (hH r) (deg_real dd r)
    (deg_ne_zero dd r) hWl hWr hb j) j

/-! ### The two orders of a layer agree -/

/-- Mean as a product with the reciprocal, bias last: the same layer, for any operands. -/
theorem layerK1_eq_layerR (g : Fin e → Fin n) (dd : Fin e → ℤ) (H : Fin n → Fin k → EReal)
    (Wl Wr : Fin k → Fin d → EReal) (b : Fin d → EReal) (r : Fin n) :
    layerK1 g dd H Wl Wr b r = layerR g dd H Wl Wr b r := by
  unfold layerK1 layerR
  congr 1
  funext j
  simp only [rowAggFirst, rowRef, Ideal.mul_one_div (deg_ne_zero dd r)]
  exact add_right_comm _ _ _

/-- A row of reals times a matrix of reals. -/
theorem vm_coe (a : Fin k → ℝ) (B : Fin k → Fin d → ℝ) :
    vm (fun t => (a t : EReal)) (fun t j => (B t j : EReal)) = fun j => ((∑ t : Fin k, a t * B t j : ℝ) : EReal) := by
  funext j
  show (∑ t : Fin k, (a t : EReal) * (B t j : EReal)) = _
  rw [coe_sum]
  exact Finset.sum_congr rfl fun t _ => (EReal.coe_mul _ _).symm

/-- The neighbour sum of real rows. -/
theorem agg_coe (g : Fin e → Fin n) (dd : Fin e → ℤ) (H : Fin n → Fin c → ℝ) (r : Fin n) (q : Fin c) :
    agg g dd (fun r' q' => (H r' q' : EReal)) r q
      = ((∑ p : Fin e, if dd p = (r.val : ℤ) then H (g p) q else 0 : ℝ) : EReal) := by
  show (0 : EReal) + ∑ p : Fin e, (if dd p = (r.val : ℤ) then (H (g p) q : EReal) else 0) = _
  rw [zero_add, coe_sum]
  refine Finset.sum_congr rfl fun p _ => ?_
  split_ifs <;> simp

/-- The distributive law on the real part: the mean of the projected neighbour rows is the projection of the mean
neighbour row. Both sides are the real (Σ_p [dd p = r] Σ_t H (g p) t · Wl t j) / deg. -/
theorem agg_vm_mul_inv (g : Fin e → Fin n) (dd : Fin e → ℤ) (H : Fin n → Fin k → EReal) (Wl : Fin k → Fin d → EReal)
    (hH : ∀ r t, IsReal (H r t)) (hWl : ∀ t j, IsReal (Wl t j)) (r : Fin n) (j : Fin d) :
    agg g dd (fun r' => vm (H r') Wl) r j * Ideal.div 1 (deg dd r)
      = vm (fun t => Ideal.div (agg g dd H r t) (deg dd r)) Wl j := by
  have hH' : ∀ r t, ∃ x : ℝ, H r t = (x : EReal) := hH
  have hW' : ∀ t j, ∃ x : ℝ, Wl t j = (x : EReal) := hWl
  choose Hr hHr using hH'
  choose W hW using hW'
  obtain ⟨δ, hδ, hdeg⟩ := deg_pos_real dd r
  have eH : H = fun r t => (Hr r t : EReal) := funext fun r => funext fun t => hHr r t
  have eW : Wl = fun t j => (W t j : EReal) := funext fun t => funext fun j => hW t j
  subst eH eW
  rw [Ideal.mul_one_div (deg_ne_zero dd r), hdeg]
  simp only [vm_coe, agg_coe, div_coe _ _ hδ.ne']
  congr 1
  have step : ∀ t : Fin k, (∑ p : Fin e, if dd p = (r.val : ℤ) then Hr (g p) t else 0) / δ * W t j
      = (∑ p : Fin e, if dd p = (r.val : ℤ) then Hr (g p) t * W t j else 0) / δ := by
    intro t
    rw [div_mul_eq_mul_div, Finset.sum_mul]
    congr 1
    refine Finset.sum_congr rfl fun p _ => ?_
    split_ifs <;> simp
  rw [Finset.sum_congr rfl fun t _ => step t, ← Finset.sum_div, Finset.sum_comm]
  congr 1
  refine Finset.sum_congr rfl fun p _ => ?_
  split_ifs <;> simp

/-- Projecting before the neighbour sum: the same layer, when the features and the left weight are real. -/
theorem layerK2_eq_layerR (g : Fin e → Fin n) (dd : Fin e → ℤ) (H : Fin n → Fin k → EReal)
    (Wl Wr : Fin k → Fin d → EReal) (b : Fin d → EReal) (hH : ∀ r t, IsReal (H r t)) (hWl : ∀ t j, IsReal (Wl t j))
    (r : Fin n) :
    layerK2 g dd H Wl Wr b r = layerR g dd H Wl Wr b r := by
  unfold layerK2 layerR
  congr 1
  funext j
  simp only [rowProjFirst, rowRef]
  rw [agg_vm_mul_inv g dd H Wl hH hWl r j]
  exact add_right_comm _ _ _

/-! ### The two spellings of log-softmax agree on a real row -/

/-- A maximum-fold from −∞ over real values is −∞ or real. -/
theorem fold_max_bot_or_real {ι : Type} (s : Finset ι) (y : ι → EReal) (hy : ∀ i ∈ s, IsReal (y i)) :
    s.fold max ⊥ y = ⊥ ∨ IsReal (s.fold max ⊥ y) := by
  classical
  induction s using Finset.induction_on with
  | empty => exact Or.inl Finset.fold_empty
  | insert a s ha ih =>
    rw [Finset.fold_insert ha]
    have hya := hy a (Finset.mem_insert_self a s)
    rcases ih fun i hi => hy i (Finset.mem_insert_of_mem hi) with h | h
    · rw [h, max_bot_right]; exact Or.inr hya
    · exact Or.inr (hya.max h)

/-- The maximum of a real row that is not empty is real. -/
theorem rmax_real (hd : 0 < d) (y : Fin d → EReal) (hy : ∀ j, IsReal (y j)) : IsReal (rmax y) := by
  rcases fold_max_bot_or_real Finset.univ y fun i _ => hy i with h | h
  · exfalso
    obtain ⟨a, ha⟩ := hy ⟨0, hd⟩
    have hle : y ⟨0, hd⟩ ≤ (Finset.univ : Finset (Fin d)).fold max ⊥ y := by
      rw [Finset.le_fold_max]
      exact Or.inr ⟨_, Finset.mem_univ _, le_refl _⟩
    rw [h, ha] at hle
    exact absurd hle (by simp)
  · exact h

/-- y − (M + L) = (y − M) − L for a real row: M is real, the sum of exponentials is a positive real, its logarithm L
is real, and the identity holds among reals. -/
theorem rlsmK_eq_rlsmR (hd : 0 < d) (y : Fin d → EReal) (hy : ∀ j, IsReal (y j)) (j : Fin d) :
    rlsmK y j = rlsmR y j := by
  obtain ⟨m, hm⟩ := rmax_real hd y hy
  have hy' : ∀ j, ∃ x : ℝ, y j = (x : EReal) := hy
  choose a ha using hy'
  have hexp : ∀ j' : Fin d, Ideal.exp (y j' - rmax y) = ((Real.exp (a j' - m) : ℝ) : EReal) := by
    intro j'; rw [ha j', hm, ← EReal.coe_sub, exp_coe]
  have hpos : 0 < ∑ j' : Fin d, Real.exp (a j' - m) :=
    Finset.sum_pos (fun i _ => Real.exp_pos _) ⟨⟨0, hd⟩, Finset.mem_univ _⟩
  unfold rlsmK rlsmR
  rw [Finset.sum_congr rfl fun j' _ => hexp j', ← coe_sum, log_coe _ hpos, ha j, hm]
  exact_mod_cast sub_add_eq_sub_sub (a j) m _

/-! ### The network -/

theorem netK_eq_netR {n e : ℕ} (g : Fin e → Fin n) (dd : Fin e → ℤ) (X : Fin n → Fin 128 → EReal)
    (W1l W1r : Fin 128 → Fin 256 → EReal) (b1 : Fin 256 → EReal) (W2l W2r : Fin 256 → Fin 128 → EReal) (b2 : Fin 128 → EReal)
    (W3l W3r : Fin 128 → Fin 2 → EReal) (b3 : Fin 2 → EReal)
    (hX : ∀ r t, IsReal (X r t)) (hW1l : ∀ t j, IsReal (W1l t j)) (hW1r : ∀ t j, IsReal (W1r t j)) (hb1 : ∀ j, IsReal (b1 j))
    (hW2l : ∀ t j, IsReal (W2l t j)) (hW2r : ∀ t j, IsReal (W2r t j)) (hb2 : ∀ j, IsReal (b2 j))
    (hW3l : ∀ t j, IsReal (W3l t j)) (hW3r : ∀ t j, IsReal (W3r t j)) (hb3 : ∀ j, IsReal (b3 j)) (r : Fin n) (q : Fin 2) :
    netK g dd X W1l W1r b1 W2l W2r b2 W3l W3r b3 r q = netR g dd X W1l W1r b1 W2l W2r b2 W3l W3r b3 r q := by
  unfold netK netR
  -- layer 1: equal for any operands, and real
  have e1 : (fun r'' => rrelu (layerK1 g dd X W1l W1r b1 r'')) = fun r'' => rrelu (layerR g dd X W1l W1r b1 r'') :=
    funext fun r'' => by rw [layerK1_eq_layerR]
  have h1 : ∀ r' t, IsReal ((fun r'' => rrelu (layerR g dd X W1l W1r b1 r'')) r' t) :=
    fun r' t => rrelu_real _ (layerR_real g dd X W1l W1r b1 hX hW1l hW1r hb1 r') t
  rw [e1]
  -- layer 2: equal because layer 1's output and W2l are real, and real
  have e2 : (fun r' => rrelu (layerK2 g dd (fun r'' => rrelu (layerR g dd X W1l W1r b1 r'')) W2l W2r b2 r'))
      = fun r' => rrelu (layerR g dd (fun r'' => rrelu (layerR g dd X W1l W1r b1 r'')) W2l W2r b2 r') :=
    funext fun r' => by rw [layerK2_eq_layerR g dd _ W2l W2r b2 h1 hW2l r']
  have h2 : ∀ r' t, IsReal ((fun r' => rrelu (layerR g dd (fun r'' => rrelu (layerR g dd X W1l W1r b1 r'')) W2l W2r b2 r')) r' t) :=
    fun r' t => rrelu_real _ (layerR_real g dd _ W2l W2r b2 h1 hW2l hW2r hb2 r') t
  rw [e2]
  -- layer 3 likewise, then the two spellings of log-softmax on a real row of two entries
  rw [layerK2_eq_layerR g dd _ W3l W3r b3 h2 hW3l r]
  exact rlsmK_eq_rlsmR (by norm_num) _ (layerR_real g dd _ W3l W3r b3 h2 hW3l hW3r hb3 r) q

end Cert.Spec

end
-- ==== Proof.PreDecode.lean ====
/-
  What the printed precondition says, entry by entry. The precondition is one i1 scalar: the conjunction, over the ten
  float inputs, of "every entry x has |x| < +inf", and last of "every word of row 0 of the [2, 640000] edge array lies in
  [-100000, 100000)" (signed). At the ideal instance a float is an extended real, |x| is max x (-x) and the pattern
  0x7F800000 denotes the top element, so |x| < +inf says x is neither infinity: x is a real number. A conjunction of i1
  words that is 1 has every conjunct 1, and an and-reduction over all axes that is 1 met a 1 at every index.
-/
import proofs.«408524_j60352880443980_3_alg».proof.Pre_finite_inputs
import proofs.«408524_j60352880443980_3_alg».proof.Proof.Gen.Pre_finite_inputs
import proofs.«408524_j60352880443980_3_alg».proof.Proof.IsReal
import Idealize.ShloMosaic.PureOps.Ideal
import Idealize.ShloMosaic.Lib.ReduceAll
import Idealize.ShloMosaic.Lib.StableHlo.Predicate
import Idealize.ShloMosaic.Lib.ValueIdx
import Idealize.ShloMosaic.Lib.Pipeline.Value

noncomputable section

namespace Cert.PreDecode

open Idealize.ShloMosaic Idealize.ShloMosaic.ValueIdx
open Cert.Pre_finite_inputs

/-- The scalar shape has one index. -/
instance : Subsingleton S_.Idx := ⟨fun a b => funext fun d => d.elim0⟩

/-- The f32 pattern 0x7F800000 (sign 0, exponent all ones, fraction 0) denotes +inf. -/
theorem inf_word : Ideal.ofBits .f32 0x7F800000#32 = (⊤ : EReal) := by simp [Ideal.ofBits, Ideal.ieee]

/-- ONE ENTRY: |x| < +inf, as the ordered comparison prints it, says x is a real number. Of the three kinds of
    extended real, at -inf and at +inf the absolute value max x (-x) is +inf, which is not below +inf. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    Cert.Spec.IsReal x := by
  have h' : BitVec.ofBool (decide (max x (-x) < Ideal.ofBits .f32 0x7F800000#32)) = 1#1 := h
  rw [inf_word, StableHlo.Predicate.ofBool_eq_one_iff, decide_eq_true_eq] at h'
  induction x using EReal.rec with
  | bot => simp at h'
  | coe r => exact ⟨r, rfl⟩
  | top => simp at h'

/-- ONE ARRAY: "every entry has |x| < +inf" over an array of any shape, in its printed form (the and-reduction over all
    axes, from 1, of the mask that compares |x| with the broadcast +inf), being 1 says every entry of x is a real number. -/
theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
      (constantI S_ 1 1#1) hr h0 ix0 = 1#1) :
    ∀ i, Cert.Spec.IsReal (x i) := fun i =>
  isReal_of_abs_lt_inf (x i) (Host.reduce_andi_all _ _ hr h0 ix0 e i)

/-- A conjunction of two i1 arrays that is 1 at an index has both conjuncts 1 there. -/
theorem and_split {s : Shape} (x y : IVec s 1) (i : s.Idx) (h : andi x y i = 1#1) : x i = 1#1 ∧ y i = 1#1 :=
  IntOp.andi_eq_one.1 h

/-- ONE WORD: (w ≥ -100000) ∧ (w < 100000), signed, with -100000 spelt as the word 2^32 - 100000. -/
theorem in_range_of_words (w : BitVec 32)
    (h : IntOp.andi (IntOp.cmpi .sge w 4294867296#32) (IntOp.cmpi .slt w 100000#32) = 1#1) :
    -100000 ≤ w.toInt ∧ w.toInt < 100000 := by
  obtain ⟨h1, h2⟩ := IntOp.andi_eq_one.1 h
  rw [IntOp.cmpi_sge] at h1
  rw [IntOp.cmpi_slt] at h2
  have e1 : (4294867296#32 : BitVec 32).toInt = -100000 := by decide
  have e2 : (100000#32 : BitVec 32).toInt = 100000 := by decide
  rw [e1] at h1; rw [e2] at h2
  exact ⟨h1, h2⟩

/-- Row 0 of the [2, 640000] array, as the predicate takes it (the [1, 640000] slice at offset (0, 0), reshaped to
    [640000]), reads at p the array at (0, p). -/
theorem row0_apply (a1 : IVec S2x640000 32) (hs : S2x640000.Slices ![0, 0] S1x640000) (hc : S1x640000.ShapeCasts S640000)
    (p : Fin 640000) :
    shapeCast S640000 (extractStridedSlice S1x640000 ![0, 0] a1 hs) hc (ix1 p) = a1 (ix2 (0 : Fin 2) p) := by
  refine (shapeCast_dropUnit_apply (![640000]) _ hc (ix1 p)).trans ?_
  refine extractStridedSlice_apply _ a1 hs _ _ (fun a => ?_)
  match a with
  | ⟨0, _⟩ => rfl
  | ⟨1, _⟩ => exact (Nat.zero_add _).symm

/-- THE PRECONDITION DECODED: every entry of each of the ten float inputs is a real number, and every word of row 0 of the
    edge array lies in [-100000, 100000). The printed scalar is a left-nested conjunction of eleven and-reductions; it is
    split from the outside in (the integer clause is outermost, the first float input innermost). -/
theorem decode [Cert.Pre_finite_inputs.Facts]
    (a0 : FVec Ideal S100000x128 .f32) (a1 : IVec S2x640000 32)
    (a2 a3 : FVec Ideal S256x128 .f32) (a4 : FVec Ideal S256 .f32) (a5 a6 : FVec Ideal S128x256 .f32)
    (a7 : FVec Ideal S128 .f32) (a8 a9 : FVec Ideal S2x128 .f32) (a10 : FVec Ideal S2 .f32)
    (h : Cert.Pre_finite_inputs.fn (F := Ideal) a0 a1 a2 a3 a4 a5 a6 a7 a8 a9 a10 = fun _ => 1#1) :
    (∀ i, Cert.Spec.IsReal (a0 i)) ∧ (∀ i, Cert.Spec.IsReal (a2 i)) ∧ (∀ i, Cert.Spec.IsReal (a3 i))
      ∧ (∀ i, Cert.Spec.IsReal (a4 i)) ∧ (∀ i, Cert.Spec.IsReal (a5 i)) ∧ (∀ i, Cert.Spec.IsReal (a6 i))
      ∧ (∀ i, Cert.Spec.IsReal (a7 i)) ∧ (∀ i, Cert.Spec.IsReal (a8 i)) ∧ (∀ i, Cert.Spec.IsReal (a9 i))
      ∧ (∀ i, Cert.Spec.IsReal (a10 i))
      ∧ (∀ p : Fin 640000, -100000 ≤ (a1 (ValueIdx.ix2 (0 : Fin 2) p)).toInt
          ∧ (a1 (ValueIdx.ix2 (0 : Fin 2) p)).toInt < 100000) := by
  have e := congrFun h ix0
  dsimp only [fn, fn_part1, fn_part2, fn_part3] at e
  obtain ⟨e, h1⟩ := and_split _ _ _ e
  obtain ⟨e, h10⟩ := and_split _ _ _ e
  obtain ⟨e, h9⟩ := and_split _ _ _ e
  obtain ⟨e, h8⟩ := and_split _ _ _ e
  obtain ⟨e, h7⟩ := and_split _ _ _ e
  obtain ⟨e, h6⟩ := and_split _ _ _ e
  obtain ⟨e, h5⟩ := and_split _ _ _ e
  obtain ⟨e, h4⟩ := and_split _ _ _ e
  obtain ⟨e, h3⟩ := and_split _ _ _ e
  obtain ⟨h0, h2⟩ := and_split _ _ _ e
  refine ⟨all_real a0 _ _ _ h0, all_real a2 _ _ _ h2, all_real a3 _ _ _ h3, all_real a4 _ _ _ h4, all_real a5 _ _ _ h5,
    all_real a6 _ _ _ h6, all_real a7 _ _ _ h7, all_real a8 _ _ _ h8, all_real a9 _ _ _ h9, all_real a10 _ _ _ h10, fun p => ?_⟩
  have hw := in_range_of_words _ (Host.reduce_andi_all _ _ _ _ ix0 h1 (ix1 p))
  rw [row0_apply] at hw
  exact hw

end Cert.PreDecode

end
-- ==== Proof.lean ====
/-
  A three-layer GraphSAGE network (SAGEConv with mean aggregation, L2 row normalisation, relu, and a final
  log-softmax) over 100000 nodes and 640000 directed edges, computed two ways.

  Per layer, with h the node features, N(i) the multiset of sources of the edges into node i, deg(i) = max(|N(i)|, 1):
      z_i = ((Σ_{p ∈ N(i)} h_p / deg(i)) Wlᵀ + b) + h_i Wrᵀ ,     out_i = z_i / max(‖z_i‖₂, ε)
  (then relu after layers 1 and 2, log-softmax after layer 3). This is the reference, in that order.

  The kernel program takes the mean as a product with 1/deg, adds the bias last, and — in layers 2 and 3, whose
  output width is smaller than their input width — applies Wlᵀ to every node's features FIRST and sums the projected
  rows over the neighbours:
      Σ_{p ∈ N(i)} (h_p Wlᵀ) · (1/deg(i))   in place of   (Σ_{p ∈ N(i)} h_p / deg(i)) Wlᵀ .
  Its log-softmax is y − (M + log Σ exp(y − M)) where the reference's is (y − M) − log Σ exp(y − M).

  Over the extended reals these agree when every input is finite: a product with 1/deg is the quotient by deg
  because deg ≥ 1 is never zero; sums commute and reassociate; the projection moves across the neighbour sum by
  distributivity, which needs every feature to be a REAL — and each layer's output is one, because the normalising
  divisor is a real ≥ ε > 0; the two log-softmax spellings differ by a reassociation of real numbers.

  The edge list is read the same way by both programs except at one point: a source word outside [−n, n) makes the
  kernel's row read return the not-a-number word (a fill-mode take) where the reference's clamps the row index; the
  precondition therefore also asks every source word to lie in [−n, n) (a negative word counts from the end, as in
  numpy). A destination word that names no node drops its edge in both programs.

  Where each part is proved: the kernel regions' outputs as functions of their input arrays (Reg0 … Reg4), the host
  operations between them (HostK1, HostK2), what survives from boundary to boundary (Keep), their composition into
  the network in the kernel's order (Chain); the reference's fold of host operations as staged values (RefFold), each
  layer read at an index (RefL1, RefL2, RefL3), composed (RefNet); the real-analysis of the two orders (Algebra);
  the precondition decoded into finiteness and the index range (PreDecode).
-/
import proofs.«408524_j60352880443980_3_alg».proof.Defs
import proofs.«408524_j60352880443980_3_alg».proof.Proof.Gen.Kernel
import proofs.«408524_j60352880443980_3_alg».proof.Proof.Gen.Kernel.Skeleton
import proofs.«408524_j60352880443980_3_alg».proof.Proof.Gen.Kernel.Launch
import proofs.«408524_j60352880443980_3_alg».proof.Proof.Gen.Kernel.Points
import proofs.«408524_j60352880443980_3_alg».proof.Proof.Gen.Kernel.Frame
import proofs.«408524_j60352880443980_3_alg».proof.Proof.Gen.KernelIdeal
import proofs.«408524_j60352880443980_3_alg».proof.Proof.Gen.KernelIdeal.Skeleton
import proofs.«408524_j60352880443980_3_alg».proof.Proof.Gen.KernelIdeal.Launch
import proofs.«408524_j60352880443980_3_alg».proof.Proof.Gen.KernelIdeal.Points
import proofs.«408524_j60352880443980_3_alg».proof.Proof.Gen.KernelIdeal.Frame
import proofs.«408524_j60352880443980_3_alg».proof.Proof.Gen.ReferenceIdeal
import proofs.«408524_j60352880443980_3_alg».proof.Proof.Gen.Pre_finite_inputs
import proofs.«408524_j60352880443980_3_alg».proof.Proof.RunP
import proofs.«408524_j60352880443980_3_alg».proof.Proof.ReadP
import proofs.«408524_j60352880443980_3_alg».proof.Proof.KRun
import proofs.«408524_j60352880443980_3_alg».proof.Proof.Chain
import proofs.«408524_j60352880443980_3_alg».proof.Proof.RefFold
import proofs.«408524_j60352880443980_3_alg».proof.Proof.RefNet
import proofs.«408524_j60352880443980_3_alg».proof.Proof.Algebra
import proofs.«408524_j60352880443980_3_alg».proof.Proof.PreDecode
import Idealize.ShloMosaic.Adequacy
import Idealize.ShloMosaic.Init

noncomputable section

namespace Cert.Proof

open Idealize.ShloMosaic Idealize.SL.Sem Idealize.ShloMosaic.ValueIdx Idealize.ShloMosaic.TcCoe

/-- The word-level kernel program runs and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference program runs and leaves its arguments as launched: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments and satisfy the precondition, both programs end with the same
    [100000, 2] array: at node r and class q the kernel's is the network in its own order (Chain.result_eq), the
    reference's the network in the textbook order (RefFold.fold_eq_val, RefNet.net), and the two orders agree on
    finite inputs (Spec.netK_eq_netR). -/
theorem algebraic : Cert.algebraic_KernelIdeal_ReferenceIdeal := by
  intro m g m' g' hpre hagree
  refine ⟨fun c => Cert.KernelIdeal.Gen.W14 m g c (Proc.devRef .tc Cert.KernelIdeal.main_v38),
    Cert.KernelIdeal.GenRun.run_result m g, ?_⟩
  refine (θ_run Cert.ReferenceIdeal.defs _ _).mono (fun _ h c => ⟨(h c).1.trans ?_, (h c).2⟩)
    (Cert.ReferenceIdeal.ValueP.run (F := Ideal) m' g')
  obtain ⟨h0, h2, h3, h4, h5, h6, h7, h8, h9, h10, hr⟩ := Cert.PreDecode.decode _ _ _ _ _ _ _ _ _ _ _ (hpre c)
  obtain ⟨a0, a1, a2, a3, a4, a5, a6, a7, a8, a9, a10⟩ := hagree c
  rw [Cert.ReferenceIdeal.RefFold.fold_eq_val m' c, a0, a1, a2, a3, a4, a5, a6, a7, a8, a9, a10]
  refine funext fun i => ?_
  obtain ⟨r, q, rfl⟩ : ∃ (r : Fin 100000) (q : Fin 2), i = ix2 r q := ⟨i 0, i 1, eq_ix2 i⟩
  refine (Cert.ReferenceIdeal.RefNet.net _ _ _ _ _ _ _ _ _ _ _ r q).trans ?_
  refine Eq.trans ?_ (Cert.KernelIdeal.Chain.result_eq m g c hr r q).symm
  exact (Cert.Spec.netK_eq_netR _ _ _ _ _ _ _ _ _ _ _ _
    (fun r t => h0 (ix2 r t)) (fun t j => h2 (ix2 j t)) (fun t j => h3 (ix2 j t)) (fun j => h4 (ix1 j))
    (fun t j => h5 (ix2 j t)) (fun t j => h6 (ix2 j t)) (fun j => h7 (ix1 j))
    (fun t j => h8 (ix2 j t)) (fun t j => h9 (ix2 j t)) (fun j => h10 (ix1 j)) r q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
